-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S40000x100 : Shape := ⟨2, ![40000, 100]⟩
abbrev S40000 : Shape := ⟨1, ![40000]⟩
abbrev S40000x4 : Shape := ⟨2, ![40000, 4]⟩
abbrev S9x64 : Shape := ⟨2, ![9, 64]⟩
abbrev S64 : Shape := ⟨1, ![64]⟩
abbrev S_ : Shape := ⟨0, ![]⟩

class Facts : Prop where
  bcast_S_S40000x100 : S_.BroadcastsInDim S40000x100 (![] : Fin 0 → Fin S40000x100.rank)
  reducesTo_S40000x100_S_d0_1 : S40000x100.ReducesTo [0, 1] S_
  h_S_ : 0 < S_.numel
  bcast_S_S9x64 : S_.BroadcastsInDim S9x64 (![] : Fin 0 → Fin S9x64.rank)
  reducesTo_S9x64_S_d0_1 : S9x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S9x64 .f32) (main_arg7 : FVec F S64 .f32) (main_arg8 : FVec F S64 .f32) (main_v13 : IVec S_ 1) (main_v16 : IVec S40000x100 1) : IVec S_ 1 :=
  let main_c_5 : IVec S_ 1 := constantI S_ 1 1#1
  let main_v17 : IVec S_ 1 := (fun x v => Host.reduce IntOp.andi x v reducesTo_S40000x100_S_d0_1 h_S_) main_v16 main_c_5
  let main_v18 : IVec S_ 1 := andi main_v13 main_v17
  let main_v19 : FVec F S9x64 .f32 := Host.absf main_arg6
  let main_cst_6 : FVec F S_ .f32 := constant S_ .f32 0x7F800000#32
  let main_v20 : FVec F S9x64 .f32 := broadcastInDim S9x64 ![] bcast_S_S9x64 main_cst_6
  let main_v21 : IVec S9x64 1 := cmpf .olt main_v19 main_v20
  let main_c_7 : IVec S_ 1 := constantI S_ 1 1#1
  let main_v22 : IVec S_ 1 := (fun x v => Host.reduce IntOp.andi x v reducesTo_S9x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S40000x100 .f32) (main_arg1 : FVec F S40000x100 .f32) (main_arg2 : FVec F S40000x100 .f32) (main_arg3 : FVec F S40000x100 .f32) (main_arg4 : IVec S40000 32) (main_arg5 : IVec S40000x4 32) (main_arg6 : FVec F S9x64 .f32) (main_arg7 : FVec F S64 .f32) (main_arg8 : FVec F S64 .f32) : IVec S_ 1 :=
  let main_v0 : FVec F S40000x100 .f32 := Host.absf main_arg0
  let main_cst : FVec F S_ .f32 := constant S_ .f32 0x7F800000#32
  let main_v1 : FVec F S40000x100 .f32 := broadcastInDim S40000x100 ![] bcast_S_S40000x100 main_cst
  let main_v2 : IVec S40000x100 1 := cmpf .olt main_v0 main_v1
  let main_c : IVec S_ 1 := constantI S_ 1 1#1
  let main_v3 : IVec S_ 1 := (fun x v => Host.reduce IntOp.andi x v reducesTo_S40000x100_S_d0_1 h_S_) main_v2 main_c
  let main_v4 : FVec F S40000x100 .f32 := Host.absf main_arg1
  let main_cst_0 : FVec F S_ .f32 := constant S_ .f32 0x7F800000#32
  let main_v5 : FVec F S40000x100 .f32 := broadcastInDim S40000x100 ![] bcast_S_S40000x100 main_cst_0
  let main_v6 : IVec S40000x100 1 := cmpf .olt main_v4 main_v5
  let main_c_1 : IVec S_ 1 := constantI S_ 1 1#1
  let main_v7 : IVec S_ 1 := (fun x v => Host.reduce IntOp.andi x v reducesTo_S40000x100_S_d0_1 h_S_) main_v6 main_c_1
  let main_v8 : IVec S_ 1 := andi main_v3 main_v7
  let main_v9 : FVec F S40000x100 .f32 := Host.absf main_arg2
  let main_cst_2 : FVec F S_ .f32 := constant S_ .f32 0x7F800000#32
  let main_v10 : FVec F S40000x100 .f32 := broadcastInDim S40000x100 ![] bcast_S_S40000x100 main_cst_2
  let main_v11 : IVec S40000x100 1 := cmpf .olt main_v9 main_v10
  let main_c_3 : IVec S_ 1 := constantI S_ 1 1#1
  let main_v12 : IVec S_ 1 := (fun x v => Host.reduce IntOp.andi x v reducesTo_S40000x100_S_d0_1 h_S_) main_v11 main_c_3
  let main_v13 : IVec S_ 1 := andi main_v8 main_v12
  let main_v14 : FVec F S40000x100 .f32 := Host.absf main_arg3
  let main_cst_4 : FVec F S_ .f32 := constant S_ .f32 0x7F800000#32
  let main_v15 : FVec F S40000x100 .f32 := broadcastInDim S40000x100 ![] bcast_S_S40000x100 main_cst_4
  let main_v16 : IVec S40000x100 1 := cmpf .olt main_v14 main_v15
  fn_part1 (F := F) main_arg6 main_arg7 main_arg8 main_v13 main_v16
-- ==== Kernel.lean ====
abbrev S40000x100 : Shape := ⟨2, ![40000, 100]⟩
abbrev S40000 : Shape := ⟨1, ![40000]⟩
abbrev S40000x4 : Shape := ⟨2, ![40000, 4]⟩
abbrev S9x64 : Shape := ⟨2, ![9, 64]⟩
abbrev S64 : Shape := ⟨1, ![64]⟩
abbrev S40000x1 : Shape := ⟨2, ![40000, 1]⟩
abbrev S1x64 : Shape := ⟨2, ![1, 64]⟩
abbrev S400x100 : Shape := ⟨2, ![400, 100]⟩
abbrev S400x1 : Shape := ⟨2, ![400, 1]⟩
abbrev S400x4 : Shape := ⟨2, ![400, 4]⟩
abbrev S400 : Shape := ⟨1, ![400]⟩
abbrev S400x100x64 : Shape := ⟨3, ![400, 100, 64]⟩
abbrev S400x100x1 : Shape := ⟨3, ![400, 100, 1]⟩
abbrev S1x1x64 : Shape := ⟨3, ![1, 1, 64]⟩
abbrev S400x64 : Shape := ⟨2, ![400, 64]⟩
abbrev S_ : Shape := ⟨0, ![]⟩
abbrev S40000x64 : Shape := ⟨2, ![40000, 64]⟩

abbrev nBuf : Space → Nat
  | .hbm => 23
  | .vmem => 34
  | .smem => 0
  | _ => 0

abbrev bufTy : (tb : Table) → Fin (tcTables nBuf tb) → BufTy
  | .hbm, ⟨0, _⟩ => ⟨S40000x100, .f32⟩
  | .hbm, ⟨1, _⟩ => ⟨S40000x100, .f32⟩
  | .hbm, ⟨2, _⟩ => ⟨S40000x100, .f32⟩
  | .hbm, ⟨3, _⟩ => ⟨S40000x100, .f32⟩
  | .hbm, ⟨4, _⟩ => ⟨S40000, .i32⟩
  | .hbm, ⟨5, _⟩ => ⟨S40000x4, .i32⟩
  | .hbm, ⟨6, _⟩ => ⟨S9x64, .f32⟩
  | .hbm, ⟨7, _⟩ => ⟨S64, .f32⟩
  | .hbm, ⟨8, _⟩ => ⟨S64, .f32⟩
  | .hbm, ⟨9, _⟩ => ⟨S40000x1, .i32⟩
  | .hbm, ⟨10, _⟩ => ⟨S1x64, .f32⟩
  | .hbm, ⟨11, _⟩ => ⟨S1x64, .f32⟩
  | .hbm, ⟨12, _⟩ => ⟨S1x64, .f32⟩
  | .hbm, ⟨13, _⟩ => ⟨S1x64, .f32⟩
  | .hbm, ⟨14, _⟩ => ⟨S_, .f32⟩
  | .hbm, ⟨15, _⟩ => ⟨S1x64, .f32⟩
  | .hbm, ⟨16, _⟩ => ⟨S1x64, .f32⟩
  | .hbm, ⟨17, _⟩ => ⟨S_, .f32⟩
  | .hbm, ⟨18, _⟩ => ⟨S1x64, .f32⟩
  | .hbm, ⟨19, _⟩ => ⟨S1x64, .f32⟩
  | .hbm, ⟨20, _⟩ => ⟨S1x64, .f32⟩
  | .hbm, ⟨21, _⟩ => ⟨S1x64, .f32⟩
  | .hbm, ⟨22, _⟩ => ⟨S40000x64, .f32⟩
  | .local _ .vmem, ⟨0, _⟩ => ⟨S400x100, .f32⟩
  | .local _ .vmem, ⟨1, _⟩ => ⟨S400x100, .f32⟩
  | .local _ .vmem, ⟨2, _⟩ => ⟨S400x100, .f32⟩
  | .local _ .vmem, ⟨3, _⟩ => ⟨S400x100, .f32⟩
  | .local _ .vmem, ⟨4, _⟩ => ⟨S400x100, .f32⟩
  | .local _ .vmem, ⟨5, _⟩ => ⟨S400x100, .f32⟩
  | .local _ .vmem, ⟨6, _⟩ => ⟨S400x100, .f32⟩
  | .local _ .vmem, ⟨7, _⟩ => ⟨S400x100, .f32⟩
  | .local _ .vmem, ⟨8, _⟩ => ⟨S400x1, .i32⟩
  | .local _ .vmem, ⟨9, _⟩ => ⟨S400x1, .i32⟩
  | .local _ .vmem, ⟨10, _⟩ => ⟨S400x4, .i32⟩
  | .local _ .vmem, ⟨11, _⟩ => ⟨S400x4, .i32⟩
  | .local _ .vmem, ⟨12, _⟩ => ⟨S9x64, .f32⟩
  | .local _ .vmem, ⟨13, _⟩ => ⟨S1x64, .f32⟩
  | .local _ .vmem, ⟨14, _⟩ => ⟨S1x64, .f32⟩
  | .local _ .vmem, ⟨15, _⟩ => ⟨S400x100, .f32⟩
  | .local _ .vmem, ⟨16, _⟩ => ⟨S400x100, .f32⟩
  | .local _ .vmem, ⟨17, _⟩ => ⟨S400x100, .f32⟩
  | .local _ .vmem, ⟨18, _⟩ => ⟨S400x100, .f32⟩
  | .local _ .vmem, ⟨19, _⟩ => ⟨S400x100, .f32⟩
  | .local _ .vmem, ⟨20, _⟩ => ⟨S400x100, .f32⟩
  | .local _ .vmem, ⟨21, _⟩ => ⟨S400x100, .f32⟩
  | .local _ .vmem, ⟨22, _⟩ => ⟨S400x100, .f32⟩
  | .local _ .vmem, ⟨23, _⟩ => ⟨S400x1, .i32⟩
  | .local _ .vmem, ⟨24, _⟩ => ⟨S400x1, .i32⟩
  | .local _ .vmem, ⟨25, _⟩ => ⟨S400x4, .i32⟩
  | .local _ .vmem, ⟨26, _⟩ => ⟨S400x4, .i32⟩
  | .local _ .vmem, ⟨27, _⟩ => ⟨S9x64, .f32⟩
  | .local _ .vmem, ⟨28, _⟩ => ⟨S1x64, .f32⟩
  | .local _ .vmem, ⟨29, _⟩ => ⟨S1x64, .f32⟩
  | .local _ .vmem, ⟨30, _⟩ => ⟨S1x64, .f32⟩
  | .local _ .vmem, ⟨31, _⟩ => ⟨S1x64, .f32⟩
  | .local _ .vmem, ⟨32, _⟩ => ⟨S400x64, .f32⟩
  | .local _ .vmem, ⟨33, _⟩ => ⟨S400x64, .f32⟩
  | _, _ => ⟨S40000x100, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3_0 : Ref sig .tc := ⟨.hbm, 12, rfl⟩
abbrev main_v3_1 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg2_1 : Ref sig .tc := ⟨.vmem, 20, rfl⟩
abbrev cc1_stg3_0 : Ref sig .tc := ⟨.vmem, 21, rfl⟩
abbrev cc1_stg3_1 : Ref sig .tc := ⟨.vmem, 22, rfl⟩
abbrev cc1_stg4_0 : Ref sig .tc := ⟨.vmem, 23, rfl⟩
abbrev cc1_stg4_1 : Ref sig .tc := ⟨.vmem, 24, rfl⟩
abbrev cc1_stg5_0 : Ref sig .tc := ⟨.vmem, 25, rfl⟩
abbrev cc1_stg5_1 : Ref sig .tc := ⟨.vmem, 26, rfl⟩
abbrev cc1_stg6_0 : Ref sig .tc := ⟨.vmem, 27, rfl⟩
abbrev cc1_stg7_0 : Ref sig .tc := ⟨.vmem, 28, rfl⟩
abbrev cc1_stg8_0 : Ref sig .tc := ⟨.vmem, 29, rfl⟩
abbrev cc1_stg9_0 : Ref sig .tc := ⟨.vmem, 30, rfl⟩
abbrev cc1_stg10_0 : Ref sig .tc := ⟨.vmem, 31, rfl⟩
abbrev cc1_stg11_0 : Ref sig .tc := ⟨.vmem, 32, rfl⟩
abbrev cc1_stg11_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc1_sem0_0 : DmaSem sig := 15
abbrev cc1_sem0_1 : DmaSem sig := 16
abbrev cc1_sem1_0 : DmaSem sig := 17
abbrev cc1_sem1_1 : DmaSem sig := 18
abbrev cc1_sem2_0 : DmaSem sig := 19
abbrev cc1_sem2_1 : DmaSem sig := 20
abbrev cc1_sem3_0 : DmaSem sig := 21
abbrev cc1_sem3_1 : DmaSem sig := 22
abbrev cc1_sem4_0 : DmaSem sig := 23
abbrev cc1_sem4_1 : DmaSem sig := 24
abbrev cc1_sem5_0 : DmaSem sig := 25
abbrev cc1_sem5_1 : DmaSem sig := 26
abbrev cc1_sem6_0 : DmaSem sig := 27
abbrev cc1_sem7_0 : DmaSem sig := 28
abbrev cc1_sem8_0 : DmaSem sig := 29
abbrev cc1_sem9_0 : DmaSem sig := 30
abbrev cc1_sem10_0 : DmaSem sig := 31
abbrev cc1_sem11_0 : DmaSem sig := 32
abbrev cc1_sem11_1 : DmaSem sig := 33

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S400x100 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S400x100 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S400x100 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S400x100 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S400x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S400x4 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S9x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x100 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S400x100 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S400x100 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S400x100 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S400x1 .i32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S400x4 .i32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S9x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x64 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x64 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 2 → Memref sig .tc .vmem S400x64 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

class Facts₀ : Prop where
  shapeCasts_S40000_S40000x1 : S40000.ShapeCasts S40000x1
  shapeCasts_S64_S1x64 : S64.ShapeCasts S1x64
  inb_S1x64_S1x64_0_0 : ∀ a, (![0, 0] : Fin 2 → Nat) a + S1x64.size a ≤ S1x64.size a
  h_S1x64 : 0 < S1x64.numel
  inb_S400x100_S400x100_0_0 : ∀ a, (![0, 0] : Fin 2 → Nat) a + S400x100.size a ≤ S400x100.size a
  h_S400x100 : 0 < S400x100.numel
  inb_S400x1_S400x1_0_0 : ∀ a, (![0, 0] : Fin 2 → Nat) a + S400x1.size a ≤ S400x1.size a
  h_S400x1 : 0 < S400x1.numel
  shapeCasts_S400x1_S400x1 : S400x1.ShapeCasts S400x1
  inb_S400x4_S400x4_0_0 : ∀ a, (![0, 0] : Fin 2 → Nat) a + S400x4.size a ≤ S400x4.size a
  h_S400x4 : 0 < S400x4.numel
  inb_S9x64_S9x64_0_0 : ∀ a, (![0, 0] : Fin 2 → Nat) a + S9x64.size a ≤ S9x64.size a
  h_S9x64 : 0 < S9x64.numel
  reduces_S400x100_S400 : S400x100.Reduces [1] S400
  shapeCasts_S400_S400x1 : S400.ShapeCasts S400x1
  broadcasts_S400x1_S400x100 : S400x1.Broadcasts S400x100
  slices_S400x4_o0_3_S400x1 : S400x4.Slices ![0, 3] S400x1
  slices_S400x4_o0_2_S400x1 : S400x4.Slices ![0, 2] S400x1
  iota_S400x100_d1_w32 : S400x100.Iotas .tc 32 [1]
  natLt_1_32 : 1 < 32
  slices_S9x64_o0_0_S1x64 : S9x64.Slices ![0, 0] S1x64
  shapeCasts_S1x64_S64 : S1x64.ShapeCasts S64
  shapeCasts_S400x100_S400x100x1 : S400x100.ShapeCasts S400x100x1
  shapeCasts_S64_S1x1x64 : S64.ShapeCasts S1x1x64
  broadcasts_S400x100x1_S400x100x64 : S400x100x1.Broadcasts S400x100x64
  broadcasts_S1x1x64_S400x100x64 : S1x1x64.Broadcasts S400x100x64
  slices_S9x64_o1_0_S1x64 : S9x64.Slices ![1, 0] S1x64
  slices_S9x64_o2_0_S1x64 : S9x64.Slices ![2, 0] S1x64
  slices_S9x64_o3_0_S1x64 : S9x64.Slices ![3, 0] S1x64
  slices_S9x64_o4_0_S1x64 : S9x64.Slices ![4, 0] S1x64
  slices_S9x64_o5_0_S1x64 : S9x64.Slices ![5, 0] S1x64
  slices_S9x64_o6_0_S1x64 : S9x64.Slices ![6, 0] S1x64
  slices_S9x64_o7_0_S1x64 : S9x64.Slices ![7, 0] S1x64
  slices_S9x64_o8_0_S1x64 : S9x64.Slices ![8, 0] S1x64
  reduces_S400x100x64_S400x64 : S400x100x64.Reduces [1] S400x64
  reduces_S400x64_S64 : S400x64.Reduces [0] S64
  shapeCasts_S1x64_S1x64 : S1x64.ShapeCasts S1x64
  bcast_S_S1x64 : S_.BroadcastsInDim S1x64 (![] : Fin 0 → Fin S1x64.rank)
  shapeCasts_S1x64_S1x1x64 : S1x64.ShapeCasts S1x1x64
  inb_S400x64_S400x64_0_0 : ∀ a, (![0, 0] : Fin 2 → Nat) a + S400x64.size a ≤ S400x64.size a
  h_S400x64 : 0 < S400x64.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x100.size a ≤ S40000x100.size a
  hwx0_0 : ∀ i : grid0.Coords, EltTy.bits .f32 = 32 ∨ (Rect.block (s := S40000x100) S400x100.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S400x100.size a ≤ S40000x100.size a
  hwx0_1 : ∀ i : grid0.Coords, EltTy.bits .f32 = 32 ∨ (Rect.block (s := S40000x100) S400x100.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S400x100.size a ≤ S40000x100.size a
  hwx0_2 : ∀ i : grid0.Coords, EltTy.bits .f32 = 32 ∨ (Rect.block (s := S40000x100) S400x100.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S400x100.size a ≤ S40000x100.size a
  hwx0_3 : ∀ i : grid0.Coords, EltTy.bits .f32 = 32 ∨ (Rect.block (s := S40000x100) S400x100.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S400x1.size a ≤ S40000x1.size a
  hwx0_4 : ∀ i : grid0.Coords, EltTy.bits .i32 = 32 ∨ (Rect.block (s := S40000x1) S400x1.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S400x4.size a ≤ S40000x4.size a
  hwx0_5 : ∀ i : grid0.Coords, EltTy.bits .i32 = 32 ∨ (Rect.block (s := S40000x4) S400x4.size (cc0_transform_5 i) (hinb0_5 i)).WholeWords (EltTy.packing .i32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S9x64.size a ≤ S9x64.size a
  hwx0_6 : ∀ i : grid0.Coords, EltTy.bits .f32 = 32 ∨ (Rect.block (s := S9x64) S9x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x64.size a ≤ S1x64.size a
  hwx0_7 : ∀ i : grid0.Coords, EltTy.bits .f32 = 32 ∨ (Rect.block (s := S1x64) S1x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x64.size a ≤ S1x64.size a
  hwx0_8 : ∀ i : grid0.Coords, EltTy.bits .f32 = 32 ∨ (Rect.block (s := S1x64) S1x64.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x100.size a ≤ S40000x100.size a
  hwx1_0 : ∀ i : grid1.Coords, EltTy.bits .f32 = 32 ∨ (Rect.block (s := S40000x100) S400x100.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S400x100.size a ≤ S40000x100.size a
  hwx1_1 : ∀ i : grid1.Coords, EltTy.bits .f32 = 32 ∨ (Rect.block (s := S40000x100) S400x100.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S400x100.size a ≤ S40000x100.size a
  hwx1_2 : ∀ i : grid1.Coords, EltTy.bits .f32 = 32 ∨ (Rect.block (s := S40000x100) S400x100.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S400x100.size a ≤ S40000x100.size a
  hwx1_3 : ∀ i : grid1.Coords, EltTy.bits .f32 = 32 ∨ (Rect.block (s := S40000x100) S400x100.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S400x1.size a ≤ S40000x1.size a
  hwx1_4 : ∀ i : grid1.Coords, EltTy.bits .i32 = 32 ∨ (Rect.block (s := S40000x1) S400x1.size (cc1_transform_4 i) (hinb1_4 i)).WholeWords (EltTy.packing .i32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S400x4.size a ≤ S40000x4.size a
  hwx1_5 : ∀ i : grid1.Coords, EltTy.bits .i32 = 32 ∨ (Rect.block (s := S40000x4) S400x4.size (cc1_transform_5 i) (hinb1_5 i)).WholeWords (EltTy.packing .i32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S9x64.size a ≤ S9x64.size a
  hwx1_6 : ∀ i : grid1.Coords, EltTy.bits .f32 = 32 ∨ (Rect.block (s := S9x64) S9x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x64.size a ≤ S1x64.size a
  hwx1_7 : ∀ i : grid1.Coords, EltTy.bits .f32 = 32 ∨ (Rect.block (s := S1x64) S1x64.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x64.size a ≤ S1x64.size a
  hwx1_8 : ∀ i : grid1.Coords, EltTy.bits .f32 = 32 ∨ (Rect.block (s := S1x64) S1x64.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x64.size a ≤ S1x64.size a
  hwx1_9 : ∀ i : grid1.Coords, EltTy.bits .f32 = 32 ∨ (Rect.block (s := S1x64) S1x64.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x64.size a ≤ S1x64.size a
  hwx1_10 : ∀ i : grid1.Coords, EltTy.bits .f32 = 32 ∨ (Rect.block (s := S1x64) S1x64.size (cc1_transform_10 i) (hinb1_10 i)).WholeWords (EltTy.packing .f32)
  hstage1_11 : ∀ j, (stage1_11 j).IsWhole
  nbuf1_11 : grid1.bufCount reads1_11 false = 2
  hreads1_11 : ∀ i i' : grid1.Coords, (∀ a, reads1_11 a = true → i a = i' a) → cc1_transform_11 i = cc1_transform_11 i'
  hinb1_11 : ∀ (i : grid1.Coords) a, (cc1_transform_11 i a + 1) * S400x64.size a ≤ S40000x64.size a
  hwx1_11 : ∀ i : grid1.Coords, EltTy.bits .f32 = 32 ∨ (Rect.block (s := S40000x64) S400x64.size (cc1_transform_11 i) (hinb1_11 i)).WholeWords (EltTy.packing .f32)

variable [Facts₀]

abbrev win0_0 : Pipeline.Window sig grid0 :=
  Pipeline.Window.ofSpec (Memref.whole main_arg0) S400x100.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S400x100.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S400x100.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S400x100.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S400x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S400x4.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S9x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3_0) S1x64.size cc0_transform_7 reads0_7 true true 1 stage0_7 sem0_7
    hrank0 hreads0_7 hinb0_7 nbuf0_7 (Memref.isWhole_whole _) hwx0_7 hstage0_7

abbrev win0_8 : Pipeline.Window sig grid0 :=
  Pipeline.Window.ofSpec (Memref.whole main_v3_1) S1x64.size cc0_transform_8 reads0_8 true true 1 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_arg0) S400x100.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S400x100.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S400x100.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S400x100.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v0) S400x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_arg5) S400x4.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_arg6) S9x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v5) S1x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v9) S1x64.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v1) S1x64.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v2) S1x64.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v10) S400x64.size cc1_transform_11 reads1_11 true false 2 stage1_11 sem1_11
    hrank1 hreads1_11 hinb1_11 nbuf1_11 (Memref.isWhole_whole _) hwx1_11 hstage1_11

abbrev win1 : Fin 12 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | ⟨_ + 12, h⟩ => absurd h (Nat.not_lt.2 (Nat.le_add_left _ _))
abbrev spec1 : Fin 12 → Pipeline.WinSpec sig grid1.rank := fun w => (win1 w).toWinSpec

class Facts : Prop extends Facts₀ where

variable [Facts]
-- ==== ReferenceIdeal.lean ====
abbrev S40000x100 : Shape := ⟨2, ![40000, 100]⟩
abbrev S40000 : Shape := ⟨1, ![40000]⟩
abbrev S40000x4 : Shape := ⟨2, ![40000, 4]⟩
abbrev S9x64 : Shape := ⟨2, ![9, 64]⟩
abbrev S64 : Shape := ⟨1, ![64]⟩
abbrev S_ : Shape := ⟨0, ![]⟩
abbrev S40000x1 : Shape := ⟨2, ![40000, 1]⟩
abbrev S1x100 : Shape := ⟨2, ![1, 100]⟩
abbrev S100 : Shape := ⟨1, ![100]⟩
abbrev S40000x100x1 : Shape := ⟨3, ![40000, 100, 1]⟩
abbrev S40000x100x9 : Shape := ⟨3, ![40000, 100, 9]⟩
abbrev S40000x100x64 : Shape := ⟨3, ![40000, 100, 64]⟩
abbrev S1x1x64 : Shape := ⟨3, ![1, 1, 64]⟩
abbrev S40000x64 : Shape := ⟨2, ![40000, 64]⟩

abbrev nBuf : Space → Nat
  | .hbm => 139
  | .vmem => 0
  | .smem => 0
  | _ => 0

abbrev hbmTy0_0 (i : Nat) : BufTy := match i % 128 with
  | 0 => ⟨S40000x100, .f32⟩
  | 1 => ⟨S40000x100, .f32⟩
  | 2 => ⟨S40000x100, .f32⟩
  | 3 => ⟨S40000x100, .f32⟩
  | 4 => ⟨S40000, .i32⟩
  | 5 => ⟨S40000x4, .i32⟩
  | 6 => ⟨S9x64, .f32⟩
  | 7 => ⟨S64, .f32⟩
  | 8 => ⟨S64, .f32⟩
  | 9 => ⟨S_, .i32⟩
  | 10 => ⟨S_, .i32⟩
  | 11 => ⟨S40000, .i32⟩
  | 12 => ⟨S40000, .i32⟩
  | 13 => ⟨S40000, .f32⟩
  | 14 => ⟨S40000x1, .f32⟩
  | 15 => ⟨S_, .f32⟩
  | 16 => ⟨S40000, .f32⟩
  | 17 => ⟨S40000x1, .f32⟩
  | 18 => ⟨S40000x1, .f32⟩
  | 19 => ⟨S_, .f32⟩
  | 20 => ⟨S40000, .f32⟩
  | 21 => ⟨S40000x1, .f32⟩
  | 22 => ⟨S40000x1, .f32⟩
  | 23 => ⟨S_, .f32⟩
  | 24 => ⟨S40000, .f32⟩
  | 25 => ⟨S40000x1, .f32⟩
  | 26 => ⟨S40000x1, .f32⟩
  | 27 => ⟨S40000x100, .f32⟩
  | 28 => ⟨S40000x100, .f32⟩
  | 29 => ⟨S40000x100, .f32⟩
  | 30 => ⟨S40000x100, .f32⟩
  | 31 => ⟨S40000x100, .f32⟩
  | 32 => ⟨S40000x100, .f32⟩
  | 33 => ⟨S40000x1, .i32⟩
  | 34 => ⟨S40000, .i32⟩
  | 35 => ⟨S40000, .f32⟩
  | 36 => ⟨S_, .f32⟩
  | 37 => ⟨S40000, .f32⟩
  | 38 => ⟨S40000, .f32⟩
  | 39 => ⟨S_, .f32⟩
  | 40 => ⟨S40000, .f32⟩
  | 41 => ⟨S40000, .f32⟩
  | 42 => ⟨S_, .f32⟩
  | 43 => ⟨S40000, .f32⟩
  | 44 => ⟨S40000, .f32⟩
  | 45 => ⟨S40000x1, .f32⟩
  | 46 => ⟨S_, .f32⟩
  | 47 => ⟨S1x100, .f32⟩
  | 48 => ⟨S40000x100, .f32⟩
  | 49 => ⟨S40000x100, .f32⟩
  | 50 => ⟨S40000x100, .f32⟩
  | 51 => ⟨S40000x1, .i32⟩
  | 52 => ⟨S40000, .i32⟩
  | 53 => ⟨S40000, .f32⟩
  | 54 => ⟨S_, .f32⟩
  | 55 => ⟨S40000, .f32⟩
  | 56 => ⟨S40000, .f32⟩
  | 57 => ⟨S_, .f32⟩
  | 58 => ⟨S40000, .f32⟩
  | 59 => ⟨S40000, .f32⟩
  | 60 => ⟨S_, .f32⟩
  | 61 => ⟨S40000, .f32⟩
  | 62 => ⟨S40000, .f32⟩
  | 63 => ⟨S40000x1, .f32⟩
  | 64 => ⟨S_, .f32⟩
  | 65 => ⟨S1x100, .f32⟩
  | 66 => ⟨S40000x100, .f32⟩
  | 67 => ⟨S40000x100, .f32⟩
  | 68 => ⟨S40000x100, .f32⟩
  | 69 => ⟨S100, .i32⟩
  | 70 => ⟨S1x100, .i32⟩
  | 71 => ⟨S40000x1, .i32⟩
  | 72 => ⟨S40000x100, .i32⟩
  | 73 => ⟨S40000x100, .i32⟩
  | 74 => ⟨S40000x100, .i1⟩
  | 75 => ⟨S40000x100, .f32⟩
  | 76 => ⟨S40000x100x1, .f32⟩
  | 77 => ⟨S40000x100x1, .f32⟩
  | 78 => ⟨S40000x100x1, .f32⟩
  | 79 => ⟨S40000x100x1, .f32⟩
  | 80 => ⟨S40000x100x1, .f32⟩
  | 81 => ⟨S40000x100x1, .f32⟩
  | 82 => ⟨S40000x100x1, .f32⟩
  | 83 => ⟨S40000x100x1, .f32⟩
  | 84 => ⟨S40000x100x1, .f32⟩
  | 85 => ⟨S40000x100x9, .f32⟩
  | 86 => ⟨S40000x100x1, .f32⟩
  | 87 => ⟨S40000x100x9, .f32⟩
  | 88 => ⟨S40000x100x9, .f32⟩
  | 89 => ⟨S40000x100x64, .f32⟩
  | 90 => ⟨S_, .f32⟩
  | 91 => ⟨S64, .f32⟩
  | 92 => ⟨S_, .f32⟩
  | 93 => ⟨S64, .f32⟩
  | 94 => ⟨S64, .f32⟩
  | 95 => ⟨S_, .i32⟩
  | 96 => ⟨S_, .f32⟩
  | 97 => ⟨S64, .f32⟩
  | 98 => ⟨S1x1x64, .f32⟩
  | 99 => ⟨S_, .f32⟩
  | 100 => ⟨S1x1x64, .f32⟩
  | 101 => ⟨S1x1x64, .f32⟩
  | 102 => ⟨S40000x100x64, .f32⟩
  | 103 => ⟨S40000x100x64, .f32⟩
  | 104 => ⟨S40000x100x64, .f32⟩
  | 105 => ⟨S_, .f32⟩
  | 106 => ⟨S_, .f32⟩
  | 107 => ⟨S_, .f32⟩
  | 108 => ⟨S_, .f32⟩
  | 109 => ⟨S64, .f32⟩
  | 110 => ⟨S64, .f32⟩
  | 111 => ⟨S64, .f32⟩
  | 112 => ⟨S_, .f32⟩
  | 113 => ⟨S_, .i1⟩
  | 114 => ⟨S_, .f32⟩
  | 115 => ⟨S_, .f32⟩
  | 116 => ⟨S64, .f32⟩
  | 117 => ⟨S64, .f32⟩
  | 118 => ⟨S1x1x64, .f32⟩
  | 119 => ⟨S40000x100x64, .f32⟩
  | 120 => ⟨S40000x100x64, .f32⟩
  | 121 => ⟨S_, .f32⟩
  | 122 => ⟨S64, .f32⟩
  | 123 => ⟨S64, .f32⟩
  | 124 => ⟨S64, .f32⟩
  | 125 => ⟨S1x1x64, .f32⟩
  | 126 => ⟨S40000x100x64, .f32⟩
  | 127 => ⟨S40000x100x64, .f32⟩
  | _ => ⟨S40000x100, .f32⟩

abbrev hbmTy0_1 (i : Nat) : BufTy := match i % 128 with
  | 0 => ⟨S1x1x64, .f32⟩
  | 1 => ⟨S40000x100x64, .f32⟩
  | 2 => ⟨S40000x100x64, .f32⟩
  | 3 => ⟨S1x1x64, .f32⟩
  | 4 => ⟨S40000x100x64, .f32⟩
  | 5 => ⟨S40000x100x64, .f32⟩
  | 6 => ⟨S_, .f32⟩
  | 7 => ⟨S40000x100x64, .f32⟩
  | 8 => ⟨S40000x100x64, .f32⟩
  | 9 => ⟨S_, .f32⟩
  | 10 => ⟨S40000x64, .f32⟩
  | _ => ⟨S40000x100, .f32⟩

abbrev hbmTy (i : Nat) : BufTy := match i / 128 with
  | 0 => hbmTy0_0 i
  | 1 => hbmTy0_1 i
  | _ => ⟨S40000x100, .f32⟩

abbrev bufTy : (tb : Table) → Fin (tcTables nBuf tb) → BufTy
  | .hbm, ⟨i, _⟩ => hbmTy i
  | _, _ => ⟨S40000x100, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_call0_v0 : Ref sig .tc := ⟨.hbm, 10, rfl⟩
abbrev main_call0_v1 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_cst : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst_1 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_2 : Ref sig .tc := ⟨.hbm, 36, rfl⟩
abbrev main_v21 : Ref sig .tc := ⟨.hbm, 37, rfl⟩
abbrev main_v22 : Ref sig .tc := ⟨.hbm, 38, rfl⟩
abbrev main_cst_3 : Ref sig .tc := ⟨.hbm, 39, rfl⟩
abbrev main_v23 : Ref sig .tc := ⟨.hbm, 40, rfl⟩
abbrev main_v24 : Ref sig .tc := ⟨.hbm, 41, rfl⟩
abbrev main_cst_4 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_5 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_6 : Ref sig .tc := ⟨.hbm, 54, rfl⟩
abbrev main_v35 : Ref sig .tc := ⟨.hbm, 55, rfl⟩
abbrev main_v36 : Ref sig .tc := ⟨.hbm, 56, rfl⟩
abbrev main_cst_7 : Ref sig .tc := ⟨.hbm, 57, rfl⟩
abbrev main_v37 : Ref sig .tc := ⟨.hbm, 58, rfl⟩
abbrev main_v38 : Ref sig .tc := ⟨.hbm, 59, rfl⟩
abbrev main_cst_8 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_9 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_cst_10 : Ref sig .tc := ⟨.hbm, 90, rfl⟩
abbrev main_v67 : Ref sig .tc := ⟨.hbm, 91, rfl⟩
abbrev main_cst_11 : Ref sig .tc := ⟨.hbm, 92, rfl⟩
abbrev main_v68 : Ref sig .tc := ⟨.hbm, 93, rfl⟩
abbrev main_v69 : Ref sig .tc := ⟨.hbm, 94, rfl⟩
abbrev main_c_12 : Ref sig .tc := ⟨.hbm, 95, rfl⟩
abbrev main_call1_cst : Ref sig .tc := ⟨.hbm, 96, rfl⟩
abbrev main_call1_v0 : Ref sig .tc := ⟨.hbm, 97, rfl⟩
abbrev main_call1_v1 : Ref sig .tc := ⟨.hbm, 98, rfl⟩
abbrev main_call1_cst_0 : Ref sig .tc := ⟨.hbm, 99, rfl⟩
abbrev main_call1_v2 : Ref sig .tc := ⟨.hbm, 100, rfl⟩
abbrev main_call1_v3 : Ref sig .tc := ⟨.hbm, 101, rfl⟩
abbrev main_call1_v4 : Ref sig .tc := ⟨.hbm, 102, rfl⟩
abbrev main_call1_v5 : Ref sig .tc := ⟨.hbm, 103, rfl⟩
abbrev main_call1_v6 : Ref sig .tc := ⟨.hbm, 104, rfl⟩
abbrev main_call1_v7 : Ref sig .tc := ⟨.hbm, 105, rfl⟩
abbrev main_call1_cst_1 : Ref sig .tc := ⟨.hbm, 106, rfl⟩
abbrev main_call1_v8 : Ref sig .tc := ⟨.hbm, 107, rfl⟩
abbrev main_call1_cst_2 : Ref sig .tc := ⟨.hbm, 108, rfl⟩
abbrev main_call1_v9 : Ref sig .tc := ⟨.hbm, 109, rfl⟩
abbrev main_call1_v10 : Ref sig .tc := ⟨.hbm, 110, rfl⟩
abbrev main_call1_v11 : Ref sig .tc := ⟨.hbm, 111, rfl⟩
abbrev main_call1_cst_3 : Ref sig .tc := ⟨.hbm, 112, rfl⟩
abbrev main_call1_v12 : Ref sig .tc := ⟨.hbm, 113, rfl⟩
abbrev main_call1_cst_4 : Ref sig .tc := ⟨.hbm, 114, rfl⟩
abbrev main_call1_call0_v0 : Ref sig .tc := ⟨.hbm, 115, rfl⟩
abbrev main_call1_call0_v1 : Ref sig .tc := ⟨.hbm, 116, rfl⟩
abbrev main_v70 : Ref sig .tc := ⟨.hbm, 117, rfl⟩
abbrev main_v71 : Ref sig .tc := ⟨.hbm, 118, rfl⟩
abbrev main_v72 : Ref sig .tc := ⟨.hbm, 119, rfl⟩
abbrev main_v73 : Ref sig .tc := ⟨.hbm, 120, rfl⟩
abbrev main_cst_13 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_v79 : Ref sig .tc := ⟨.hbm, 127, rfl⟩
abbrev main_v80 : Ref sig .tc := ⟨.hbm, 128, rfl⟩
abbrev main_v81 : Ref sig .tc := ⟨.hbm, 129, rfl⟩
abbrev main_v82 : Ref sig .tc := ⟨.hbm, 130, rfl⟩
abbrev main_v83 : Ref sig .tc := ⟨.hbm, 131, rfl⟩
abbrev main_v84 : Ref sig .tc := ⟨.hbm, 132, rfl⟩
abbrev main_v85 : Ref sig .tc := ⟨.hbm, 133, rfl⟩
abbrev main_call2_cst : Ref sig .tc := ⟨.hbm, 134, rfl⟩
abbrev main_call2_v0 : Ref sig .tc := ⟨.hbm, 135, rfl⟩
abbrev main_v86 : Ref sig .tc := ⟨.hbm, 136, rfl⟩
abbrev main_cst_14 : Ref sig .tc := ⟨.hbm, 137, rfl⟩
abbrev main_v87 : Ref sig .tc := ⟨.hbm, 138, rfl⟩

abbrev nD : Nat := 1
abbrev τ : Topo := Topo.v7x

variable {F : FTy → Type} [FloatOps F]

class Facts₀ : Prop where
  bcast_S_S40000 : S_.BroadcastsInDim S40000 (![] : Fin 0 → Fin S40000.rank)
  bcast_S40000_S40000x1_0 : S40000.BroadcastsInDim S40000x1 (![0] : Fin 1 → Fin S40000x1.rank)
  reducesTo_S40000x100_S40000_d1 : S40000x100.ReducesTo [1] S40000
  h_S_ : 0 < S_.numel
  bcast_S40000x1_S40000x100_0_1 : S40000x1.BroadcastsInDim S40000x100 (![0, 1] : Fin 2 → Fin S40000x100.rank)
  slices_S40000x4_S40000x1_0_3 : S40000x4.Slices ![0, 3] S40000x1
  shapeCasts_S40000x1_S40000 : S40000x1.ShapeCasts S40000
  bcast_S_S1x100 : S_.BroadcastsInDim S1x100 (![] : Fin 0 → Fin S1x100.rank)
  bcast_S1x100_S40000x100_0_1 : S1x100.BroadcastsInDim S40000x100 (![0, 1] : Fin 2 → Fin S40000x100.rank)
  slices_S40000x4_S40000x1_0_2 : S40000x4.Slices ![0, 2] S40000x1
  bcast_S100_S1x100_1 : S100.BroadcastsInDim S1x100 (![1] : Fin 1 → Fin S1x100.rank)
  bcast_S40000x100_S40000x100x1_0_1 : S40000x100.BroadcastsInDim S40000x100x1 (![0, 1] : Fin 2 → Fin S40000x100x1.rank)
  concatenates_S40000x100x1_S40000x100x1_S40000x100x1_S40000x100x1_S40000x100x1_S40000x100x1_S40000x100x1_S40000x100x1_S40000x100x1_S40000x100x9_d2 : Shape.Concatenates [S40000x100x1, S40000x100x1, S40000x100x1, S40000x100x1, S40000x100x1, S40000x100x1, S40000x100x1, S40000x100x1, S40000x100x1] S40000x100x9 2
  bcast_S40000x100x1_S40000x100x9_0_1_2 : S40000x100x1.BroadcastsInDim S40000x100x9 (![0, 1, 2] : Fin 3 → Fin S40000x100x9.rank)
  reducesTo_S40000x100x64_S64_d0_1 : S40000x100x64.ReducesTo [0, 1] S64
  bcast_S_S64 : S_.BroadcastsInDim S64 (![] : Fin 0 → Fin S64.rank)
  bcast_S64_S1x1x64_2 : S64.BroadcastsInDim S1x1x64 (![2] : Fin 1 → Fin S1x1x64.rank)
  bcast_S_S1x1x64 : S_.BroadcastsInDim S1x1x64 (![] : Fin 0 → Fin S1x1x64.rank)
  bcast_S1x1x64_S40000x100x64_0_1_2 : S1x1x64.BroadcastsInDim S40000x100x64 (![0, 1, 2] : Fin 3 → Fin S40000x100x64.rank)
  bcast_S_S40000x100x64 : S_.BroadcastsInDim S40000x100x64 (![] : Fin 0 → Fin S40000x100x64.rank)
  reducesTo_S40000x100x64_S40000x64_d1 : S40000x100x64.ReducesTo [1] S40000x64
  dot_S40000x100x9_S9x64_S40000x100x64_2_0_01_1_n_n_wf : DotDims.WF S40000x100x9 S9x64 S40000x100x64 [2] [0] [0, 1] [1] [] []

variable [Facts₀]

def dot_S40000x100x9_S9x64_S40000x100x64_2_0_01_1_n_n : DotDims S40000x100x9 S9x64 S40000x100x64 where
  lhsContracting := [2]
  rhsContracting := [0]
  lhsNonContracting := [0, 1]
  rhsNonContracting := [1]
  lhsBatch := []
  rhsBatch := []
  wf := dot_S40000x100x9_S9x64_S40000x100x64_2_0_01_1_n_n_wf

class Facts : Prop extends Facts₀ where

variable [Facts]
-- ==== Proof.Spec.lean ====
/-
  The mathematics of the pillar feature layer, as functions of the argument arrays over the extended reals.

  For a row (pillar) `p` with 100 points `j`: the point count `cnt p = max(n p, 1)`, the three coordinate means
  `mean x p = (Σ_j x p j) / cnt p` (over all 100 points), the two cell-centre coordinates from the integer cell
  indices, and the validity mask `j < n p` as 0 or 1. The nine features of a point are the four raw channels, the three
  offsets from the means and the two cell centres; each is multiplied by the mask, and the layer's pre-activation is
  `X p j d = Σ_k (feat k p j · mask p j) · w k d`. Everything so far depends on row `p` only, so it is stated for any
  number of rows `R`: a block of rows of an array is the same function of the block's rows.

  Batch normalisation uses the statistics of ALL rows and points per channel `d`: `S1 d = Σ_p Σ_j X p j d`,
  `S2 d = Σ_p Σ_j X p j d²`, `mu = S1 / N`, and the variance either as `S2 / N − mu²` (`var`) or as the mean of the
  squared deviations (`varR`); the two agree on real data. The output is the maximum over the points of a row of
  `max(((X − mu) · rsqrt(v + ε)) · γ + β, 0)`, the maximum taken from −∞.
-/
import Idealize.ShloMosaic.PureOps.Ideal
import Idealize.ShloMosaic.PureOps.Ideal.Laws
import Idealize.ShloMosaic.Lib.ValueIdx

noncomputable section

namespace Cert.Pillar

open Idealize.ShloMosaic Idealize.ShloMosaic.ValueIdx

/-! ## Arrays read through their coordinates -/

/-- A rank-2 array as a function of its two coordinates. -/
abbrev cur2 {α : Type} {n0 n1 : Nat} (a : (⟨2, ![n0, n1]⟩ : Shape).Idx → α) : Fin n0 → Fin n1 → α := fun p j => a (ix2 p j)
/-- A rank-3 array as a function of its three coordinates. -/
abbrev cur3 {α : Type} {n0 n1 n2 : Nat} (a : (⟨3, ![n0, n1, n2]⟩ : Shape).Idx → α) : Fin n0 → Fin n1 → Fin n2 → α :=
  fun p j d => a (ix3 p j d)
/-- A rank-1 array as a function of its coordinate. -/
abbrev cur1 {α : Type} {n : Nat} (a : (⟨1, ![n]⟩ : Shape).Idx → α) : Fin n → α := fun p => a (ix1 p)
/-- An `[n, 1]` column as a function of its row. -/
abbrev col {α : Type} {n : Nat} (a : (⟨2, ![n, 1]⟩ : Shape).Idx → α) : Fin n → α := fun p => a (ix2 p (0 : Fin 1))
/-- A `[1, n]` row as a function of its column. -/
abbrev row {α : Type} {n : Nat} (a : (⟨2, ![1, n]⟩ : Shape).Idx → α) : Fin n → α := fun d => a (ix2 (0 : Fin 1) d)

/-! ## The float words of the two programs -/

/-- 0.16, the cell size. -/
abbrev c016 : EReal := Ideal.ofBits .f32 0x3E23D70A#32
/-- 0.08, half a cell. -/
abbrev c008 : EReal := Ideal.ofBits .f32 0x3DA3D70A#32
/-- 0.0 -/
abbrev c000 : EReal := Ideal.ofBits .f32 0x00000000#32
/-- −39.68, the y origin. -/
abbrev cm3968 : EReal := Ideal.ofBits .f32 0xC21EB852#32
/-- 4 000 000, the number of points of all rows. -/
abbrev cN : EReal := Ideal.ofBits .f32 0x4A742400#32
/-- The batch-norm ε. -/
abbrev ceps : EReal := Ideal.ofBits .f32 0x3727C5AC#32
/-- −∞, where a maximum starts. -/
abbrev cninf : EReal := Ideal.ofBits .f32 0xFF800000#32

/-! ## One row's features (any number of rows) -/

variable {R : Nat}

/-- The point count of row `p`, at least 1, as a float. -/
def cnt (n : Fin R → BitVec 32) (p : Fin R) : EReal := FloatOps.sitofp (F := Ideal) .f32 (IntOp.maxsi (n p) 1#32)

/-- The mean of a channel over the 100 points of row `p`, by the clamped count. -/
def mean (x : Fin R → Fin 100 → EReal) (n : Fin R → BitVec 32) (p : Fin R) : EReal :=
  Ideal.div (∑ j : Fin 100, x p j) (cnt n p)

/-- The x centre of row `p`'s cell: column 3 of the cell indices. -/
def bevx (co : Fin R → Fin 4 → BitVec 32) (p : Fin R) : EReal :=
  (FloatOps.sitofp (F := Ideal) .f32 (co p 3) * c016 + c008) + c000

/-- The y centre of row `p`'s cell: column 2 of the cell indices. -/
def bevy (co : Fin R → Fin 4 → BitVec 32) (p : Fin R) : EReal :=
  (FloatOps.sitofp (F := Ideal) .f32 (co p 2) * c016 + c008) + cm3968

/-- Point `j` of row `p` is valid when `j < n p` (signed): 1 or 0. -/
def mask (n : Fin R → BitVec 32) (p : Fin R) (j : Fin 100) : EReal :=
  FloatOps.sitofp (F := Ideal) .f32 ((IntOp.cmpi .slt (BitVec.ofNat 32 j.val) (n p)).setWidth 32)

/-- The nine features of point `j` of row `p`. -/
def feat (x0 x1 x2 x3 : Fin R → Fin 100 → EReal) (n : Fin R → BitVec 32) (co : Fin R → Fin 4 → BitVec 32)
    (k : Fin 9) (p : Fin R) (j : Fin 100) : EReal :=
  ![x0 p j, x1 p j, x2 p j, x3 p j, x0 p j - mean x0 n p, x1 p j - mean x1 n p, x2 p j - mean x2 n p,
    bevx co p, bevy co p] k

/-- The linear layer's pre-activation: the masked features against the weight's column `d`. -/
def X (x0 x1 x2 x3 : Fin R → Fin 100 → EReal) (n : Fin R → BitVec 32) (co : Fin R → Fin 4 → BitVec 32)
    (w : Fin 9 → Fin 64 → EReal) (p : Fin R) (j : Fin 100) (d : Fin 64) : EReal :=
  ∑ k : Fin 9, (feat x0 x1 x2 x3 n co k p j * mask n p j) * w k d

/-! ## Batch statistics, normalisation and the maximum over the points -/

/-- The sum of a channel over all rows and points. -/
def S1 (Xv : Fin R → Fin 100 → Fin 64 → EReal) (d : Fin 64) : EReal := ∑ p : Fin R, ∑ j : Fin 100, Xv p j d
/-- The sum of a channel's squares over all rows and points. -/
def S2 (Xv : Fin R → Fin 100 → Fin 64 → EReal) (d : Fin 64) : EReal := ∑ p : Fin R, ∑ j : Fin 100, Xv p j d * Xv p j d
/-- The channel's mean. -/
def mu (Xv : Fin R → Fin 100 → Fin 64 → EReal) (d : Fin 64) : EReal := Ideal.div (S1 Xv d) cN
/-- The channel's variance as mean of squares less squared mean. -/
def var (Xv : Fin R → Fin 100 → Fin 64 → EReal) (d : Fin 64) : EReal := Ideal.div (S2 Xv d) cN - mu Xv d * mu Xv d
/-- The channel's variance as mean of squared deviations. -/
def varR (Xv : Fin R → Fin 100 → Fin 64 → EReal) (d : Fin 64) : EReal :=
  Ideal.div (∑ p : Fin R, ∑ j : Fin 100, (Xv p j d - mu Xv d) * (Xv p j d - mu Xv d)) cN

/-- One normalised, scaled, shifted and rectified value. -/
def act (xv m v g b : EReal) : EReal := max (((xv - m) * Ideal.rsqrt (v + ceps)) * g + b) c000

/-- The row's maximum over its points, from −∞, at channel `d`, for given per-channel mean `m`, variance `v`, scale and
    shift. -/
def outWith (Xv : Fin R → Fin 100 → Fin 64 → EReal) (m v g b : Fin 64 → EReal) (p : Fin R) (d : Fin 64) : EReal :=
  (Finset.univ : Finset (Fin 100)).fold max cninf (fun j => act (Xv p j d) (m d) (v d) (g d) (b d))

end Cert.Pillar

end
-- ==== Proof.KCommon.lean ====
/-
  The layer's values as a function of the arrays a kernel region finds: the four point channels, the point counts as
  a column, the cell indices and the weight.
-/
import proofs.«173197_j214748364885_1_alg».proof.KernelIdeal
import proofs.«173197_j214748364885_1_alg».proof.Proof.Spec

noncomputable section

namespace Cert.KernelIdeal.KV

open Idealize.ShloMosaic Idealize.ShloMosaic.TcCoe Idealize.SL.Sem Cert.KernelIdeal Cert.Pillar

/-- The layer's values at every row, point and channel, from the arrays the region is entered with. -/
def Xof (V : (c : Dev nD) → (b : Ref sig .tc) → Buf (Elt Ideal) ((c : Thread nD τ).loc b)) (c : Dev nD) :
    Fin 40000 → Fin 100 → Fin 64 → EReal :=
  X (cur2 (V c main_arg0 : S40000x100.Idx → EReal)) (cur2 (V c main_arg1 : S40000x100.Idx → EReal))
    (cur2 (V c main_arg2 : S40000x100.Idx → EReal)) (cur2 (V c main_arg3 : S40000x100.Idx → EReal))
    (col (V c main_v0 : S40000x1.Idx → BitVec 32)) (cur2 (V c main_arg5 : S40000x4.Idx → BitVec 32))
    (cur2 (V c main_arg6 : S9x64.Idx → EReal))

end Cert.KernelIdeal.KV

end
-- ==== Proof.KBlocks.lean ====
/-
  The two kernel bodies' arithmetic, as terms of the blocks they load: the layer's values on a block of 400 rows
  (`X0` in the statistics kernel, `X1` in the output kernel), the two running sums the statistics kernel adds a
  block's totals to, and the output kernel's stored block.
-/
import proofs.«173197_j214748364885_1_alg».proof.Proof.Gen.KernelIdeal.Skeleton

noncomputable section

namespace Cert.KernelIdeal.Blk

open Idealize.ShloMosaic Cert.KernelIdeal Cert.KernelIdeal.Gen

variable {F : FTy → Type} [FloatOps F]

/-- The statistics kernel's layer values on its block: the nine masked features against the weight. -/
def X0 (x0 x1 x2 x3 : Vec F S400x100 .f32) (x4 : Vec F S400x1 .i32) (x5 : Vec F S400x4 .i32) (x6 : Vec F S9x64 .f32) :
    FVec F S400x100x64 .f32 :=
  k0_pay16 x6 (k0_pay6 x0 x4) (k0_pay7 x1 x4) (k0_pay8 x2 x4) (k0_pay12 (k0_pay10 x5) k0_pay11) (k0_pay13 (k0_pay9 x5))
    (k0_pay14 (k0_pay4 x4)) (k0_pay15 x0 x1 x2 x3 (k0_pay4 x4) x6)

/-- The running sum after this block: what was there plus the block's total of the layer values per channel. -/
def acc1 (x0 x1 x2 x3 : Vec F S400x100 .f32) (x4 : Vec F S400x1 .i32) (x5 : Vec F S400x4 .i32) (x6 : Vec F S9x64 .f32)
    (acc : Vec F S1x64 .f32) : FVec F S1x64 .f32 :=
  k0_pay18 x6 (k0_pay6 x0 x4) (k0_pay7 x1 x4) (k0_pay8 x2 x4) (k0_pay12 (k0_pay10 x5) k0_pay11) (k0_pay13 (k0_pay9 x5))
    (k0_pay14 (k0_pay4 x4)) (k0_pay15 x0 x1 x2 x3 (k0_pay4 x4) x6) acc

/-- The running sum of squares after this block. -/
def acc2 (x0 x1 x2 x3 : Vec F S400x100 .f32) (x4 : Vec F S400x1 .i32) (x5 : Vec F S400x4 .i32) (x6 : Vec F S9x64 .f32)
    (acc : Vec F S1x64 .f32) : FVec F S1x64 .f32 :=
  k0_pay1 (k0_pay17 x6 (k0_pay6 x0 x4) (k0_pay7 x1 x4) (k0_pay8 x2 x4) (k0_pay12 (k0_pay10 x5) k0_pay11) (k0_pay13 (k0_pay9 x5))
    (k0_pay14 (k0_pay4 x4)) (k0_pay15 x0 x1 x2 x3 (k0_pay4 x4) x6)) acc

/-- The output kernel's layer values on its block. -/
def X1 (x0 x1 x2 x3 : Vec F S400x100 .f32) (x4 : Vec F S400x1 .i32) (x5 : Vec F S400x4 .i32) (x6 : Vec F S9x64 .f32) :
    FVec F S400x100x64 .f32 :=
  k1_pay14 x6 (k1_pay5 x1 x4) (k1_pay6 x2 x4) (k1_pay8 x5) (k1_pay9 (k1_pay7 x5)) (k1_pay10 (F := F) (k1_pay2 x4))
    (k1_pay11 x0 x1 x2 x3 (k1_pay2 x4) x6) (k1_pay12 x6) (k1_pay13 (k1_pay2 x4) (k1_pay4 x0 x4))

/-- The output kernel's stored block: normalised by the mean block `x7` and variance block `x8`, scaled by `x9`,
    shifted by `x10`, rectified, and each row's maximum over its points. -/
def out1 (x0 x1 x2 x3 : Vec F S400x100 .f32) (x4 : Vec F S400x1 .i32) (x5 : Vec F S400x4 .i32) (x6 : Vec F S9x64 .f32)
    (x7 x8 x9 x10 : Vec F S1x64 .f32) : FVec F S400x64 .f32 :=
  k1_pay1 (X1 x0 x1 x2 x3 x4 x5 x6) (k1_pay15 x7) (k1_pay16 x8) (k1_pay17 x9) (k1_pay18 x10) (Scalar.ofBits .f32 0x3727C5AC#32)

end Cert.KernelIdeal.Blk

end
-- ==== Proof.KRegion0Defs.lean ====
/-
  The statistics region, block by block: the row of the array that a block's row is, and a block's totals of the
  layer's values and of their squares per channel.
-/
import proofs.«173197_j214748364885_1_alg».proof.Proof.Gen.KernelIdeal.Frame
import proofs.«173197_j214748364885_1_alg».proof.Proof.KCommon
import proofs.«173197_j214748364885_1_alg».proof.Proof.KBlocks

set_option maxRecDepth 16384

noncomputable section

namespace Cert.KernelIdeal.R0

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.KV Cert.Pillar

variable (V : (c : Dev nD) → (b : Ref sig .tc) → Buf (Elt Ideal) ((c : Thread nD τ).loc b))

/-- Row `r` of the block at grid point `t` is row `400 t + r` of the array. -/
def trow0 (t : Fin cfg0.N) (r : Fin 400) : Fin 40000 :=
  ⟨400 * t.val + r.val, by have h : t.val < 100 := Nat.lt_of_lt_of_eq t.isLt N_0; have := r.isLt; omega⟩

/-- The block at grid point `t`: its total of the layer's values at channel `d`. -/
def tile1 (c : Dev nD) (t : Fin cfg0.N) (d : Fin 64) : EReal :=
  ∑ r : Fin 400, ∑ j : Fin 100, (Blk.X0 (iblk0 V c 0 t) (iblk0 V c 1 t) (iblk0 V c 2 t) (iblk0 V c 3 t) (iblk0 V c 4 t) (iblk0 V c 5 t) (iblk0 V c 6 t) : S400x100x64.Idx → EReal) (ix3 r j d)

/-- The block at grid point `t`: its total of the squared layer's values at channel `d`. -/
def tile2 (c : Dev nD) (t : Fin cfg0.N) (d : Fin 64) : EReal :=
  ∑ r : Fin 400, ∑ j : Fin 100, (Blk.X0 (iblk0 V c 0 t) (iblk0 V c 1 t) (iblk0 V c 2 t) (iblk0 V c 3 t) (iblk0 V c 4 t) (iblk0 V c 5 t) (iblk0 V c 6 t) : S400x100x64.Idx → EReal) (ix3 r j d)
    * (Blk.X0 (iblk0 V c 0 t) (iblk0 V c 1 t) (iblk0 V c 2 t) (iblk0 V c 3 t) (iblk0 V c 4 t) (iblk0 V c 5 t) (iblk0 V c 6 t) : S400x100x64.Idx → EReal) (ix3 r j d)

end Cert.KernelIdeal.R0

end
-- ==== Proof.LibKeepdims.lean ====
/-
  Two layout operations read at an index given by coordinates, for the column a `keepdims` row reduction leaves:
  a vector `[a]` cast to the column `[a, 1]`, and a column `[a, 1]` broadcast along its unit axis to `[a, b]`.
  Both indices are written with the literal-size constructors `ix1`, `ix2`, so that each lemma applies to a printed
  operation by unification, as the library's leading-unit-axis forms of the same operations do.
-/
import Idealize.ShloMosaic.Lib.Pipeline.Value
import Idealize.ShloMosaic.Lib.ValueIdx

namespace Idealize.ShloMosaic.ValueIdx

open Idealize.ShloMosaic

variable {α : Type}

/-- An `[a]` array cast to the column `[a, 1]` reads, at `(i, u)`, the operand at `i`, whatever the unit
    coordinate `u`: both have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.LibColumns.lean ====
/-
  Columns of a two-axis array, read at an index.

  A unit-stride slice that keeps every row and the single column `c` of an `[n, w]` array is, at row `r`,
  the array's entry `(r, c)`. The concatenation along the second axis of four `[n, 1]` columns is, at
  `(r, k)`, the `k`-th column at row `r`. Both hold for any element type and any row count.
-/
import Idealize.ShloMosaic.Lib.ValueIdx
import Idealize.ShloMosaic.Lib.Pipeline.Value

namespace Cert.Columns

open Idealize.ShloMosaic Idealize.ShloMosaic.ValueIdx

variable {α : Type}

/-- The slice `[0:n, off:off+1]` of an `[n, w]` array, read at row `r`, is the array at `(r, c)` for the
    column `c` whose number is `off`. -/
theorem slice_col_apply {n w : Nat} (off : Nat) (x : (⟨2, ![n, w]⟩ : Shape).Idx → α)
    (h : (⟨2, ![n, w]⟩ : Shape).Slices ![0, off] ⟨2, ![n, 1]⟩) (r : Fin n) (z : Fin 1) (c : Fin w)
    (hc : c.val = off) :
    extractStridedSlice ⟨2, ![n, 1]⟩ ![0, off] x h (ix2 r z) = x (ix2 r c) :=
  extractStridedSlice_apply _ x h _ _ fun a => by
    match a with
    | ⟨0, _⟩ => show r.val = 0 + r.val; omega
    | ⟨1, _⟩ => show c.val = off + z.val; have := z.isLt; omega

/-- Four `[n, 1]` columns concatenated along the second axis, read at `(r, k)`: column `k` at row `r`. -/
theorem concat4_cols_apply {n : Nat} (x0 x1 x2 x3 : (⟨2, ![n, 1]⟩ : Shape).Idx → α)
    (h : Shape.Concatenates
      (([⟨⟨2, ![n, 1]⟩, x0⟩, ⟨⟨2, ![n, 1]⟩, x1⟩, ⟨⟨2, ![n, 1]⟩, x2⟩, ⟨⟨2, ![n, 1]⟩, x3⟩] :
        List ((s : Shape) × (s.Idx → α))).map (·.1)) (⟨2, ![n, 4]⟩ : Shape) 1)
    (r : Fin n) (k : Fin 4) :
    concatenate (⟨2, ![n, 4]⟩ : Shape) 1
        [⟨⟨2, ![n, 1]⟩, x0⟩, ⟨⟨2, ![n, 1]⟩, x1⟩, ⟨⟨2, ![n, 1]⟩, x2⟩, ⟨⟨2, ![n, 1]⟩, x3⟩] h (ix2 r k)
      = (![x0, x1, x2, x3] k) (ix2 r 0) := by
  have hi : ∀ b : Fin (⟨2, ![n, 1]⟩ : Shape).rank, b.cast (rfl : (2 : Nat) = 2) ≠ (1 : Fin 2) →
      ((ix2 r (0 : Fin 1)) b).val = ((ix2 r k) (b.cast rfl)).val := fun b hb => by
    match b with
    | ⟨0, _⟩ => rfl
    | ⟨1, _⟩ => exact absurd rfl hb
  match k with
  | ⟨0, _⟩ => exact concatenate_apply_piece 1 _ h _ 0 (show 0 < 4 by decide) _ x0 rfl rfl 0 rfl (ix2 r 0) hi rfl
  | ⟨1, _⟩ => exact concatenate_apply_piece 1 _ h _ 1 (show 1 < 4 by decide) _ x1 rfl rfl 1 rfl (ix2 r 0) hi rfl
  | ⟨2, _⟩ => exact concatenate_apply_piece 1 _ h _ 2 (show 2 < 4 by decide) _ x2 rfl rfl 2 rfl (ix2 r 0) hi rfl
  | ⟨3, _⟩ => exact concatenate_apply_piece 1 _ h _ 3 (show 3 < 4 by decide) _ x3 rfl rfl 3 rfl (ix2 r 0) hi rfl

end Cert.Columns
-- ==== Proof.KPay0.lean ====
/-
  The statistics kernel's arithmetic read at an index, over the extended reals.
-/
import proofs.«173197_j214748364885_1_alg».proof.Proof.KBlocks
import proofs.«173197_j214748364885_1_alg».proof.Proof.Spec
import proofs.«173197_j214748364885_1_alg».proof.Proof.LibKeepdims
import proofs.«173197_j214748364885_1_alg».proof.Proof.LibColumns
import Idealize.ShloMosaic.Lib.ValueIdx
import Idealize.ShloMosaic.Lib.Pipeline.Value
import Idealize.ShloMosaic.PureOps.Ideal.Laws

noncomputable section

namespace Cert.KernelIdeal.Blk

open Idealize.ShloMosaic Idealize.ShloMosaic.ValueIdx Cert.KernelIdeal Cert.KernelIdeal.Gen Cert.Pillar

/-- A sum over the points of a row. -/
theorem rowsum_apply (v : FVec Ideal S400x100 .f32) (h : S400x100.Reduces [1] S400) (hφ : FKind.Formats .f32)
    (hacc : (0x00000000#32 : BitVec 32) = FKind.add.neutral .f32 hφ) (r : Fin 400) :
    multiReduction (F := Ideal) .add [1] S400 v 0x00000000#32 h hφ hacc (ix1 r) = ∑ j : Fin 100, v (ix2 r j) :=
  (Ideal.multiReduction_add_single v _ h hφ hacc (ix1 r)).trans
    (Finset.sum_congr rfl fun j _ => congrArg v (funext fun a => Fin.ext (by match a with | ⟨0, _⟩ => rfl | ⟨1, _⟩ => rfl)))

/-- The clamped point count of a row, as a float. -/
theorem pay5_apply (x4 : Vec Ideal S400x1 .i32) (r : Fin 400) (z : Fin 1) :
    (k0_pay5 x4 : FVec Ideal S400x1 .f32) (ix2 r z) = cnt (col (x4 : S400x1.Idx → BitVec 32)) r := by
  obtain rfl : z = 0 := Subsingleton.elim _ _
  unfold k0_pay5 k0_pay4 cnt
  rw [shapeCast_self]
  rfl

/-- The first channel less its row mean. -/
theorem pay6_apply (x0 : Vec Ideal S400x100 .f32) (x4 : Vec Ideal S400x1 .i32) (r : Fin 400) (j : Fin 100) :
    (k0_pay6 x0 x4 : FVec Ideal S400x100 .f32) (ix2 r j)
      = (x0 : S400x100.Idx → EReal) (ix2 r j) - mean (cur2 (x0 : S400x100.Idx → EReal)) (col (x4 : S400x1.Idx → BitVec 32)) r := by
  unfold k0_pay6 mean
  refine (subf_apply _ _ _).trans ?_
  refine congrArg (fun t => (x0 : S400x100.Idx → EReal) (ix2 r j) - t) ?_
  refine (broadcastTo_a1_ab_apply _ _ r j).trans ?_
  refine (divf_apply _ _ _).trans ?_
  refine congrArg₂ Ideal.div ?_ (pay5_apply x4 r 0)
  refine (shapeCast_a_a1_apply _ _ r 0).trans ?_
  exact rowsum_apply _ _ _ _ r

/-- The second channel less its row mean. -/
theorem pay7_apply (x1 : Vec Ideal S400x100 .f32) (x4 : Vec Ideal S400x1 .i32) (r : Fin 400) (j : Fin 100) :
    (k0_pay7 x1 x4 : FVec Ideal S400x100 .f32) (ix2 r j)
      = (x1 : S400x100.Idx → EReal) (ix2 r j) - mean (cur2 (x1 : S400x100.Idx → EReal)) (col (x4 : S400x1.Idx → BitVec 32)) r := by
  unfold k0_pay7 mean
  refine (subf_apply _ _ _).trans ?_
  refine congrArg (fun t => (x1 : S400x100.Idx → EReal) (ix2 r j) - t) ?_
  refine (broadcastTo_a1_ab_apply _ _ r j).trans ?_
  refine (divf_apply _ _ _).trans ?_
  refine congrArg₂ Ideal.div ?_ (pay5_apply x4 r 0)
  refine (shapeCast_a_a1_apply _ _ r 0).trans ?_
  exact rowsum_apply _ _ _ _ r

/-- The third channel less its row mean. -/
theorem pay8_apply (x2 : Vec Ideal S400x100 .f32) (x4 : Vec Ideal S400x1 .i32) (r : Fin 400) (j : Fin 100) :
    (k0_pay8 x2 x4 : FVec Ideal S400x100 .f32) (ix2 r j)
      = (x2 : S400x100.Idx → EReal) (ix2 r j) - mean (cur2 (x2 : S400x100.Idx → EReal)) (col (x4 : S400x1.Idx → BitVec 32)) r := by
  unfold k0_pay8 mean
  refine (subf_apply _ _ _).trans ?_
  refine congrArg (fun t => (x2 : S400x100.Idx → EReal) (ix2 r j) - t) ?_
  refine (broadcastTo_a1_ab_apply _ _ r j).trans ?_
  refine (divf_apply _ _ _).trans ?_
  refine congrArg₂ Ideal.div ?_ (pay5_apply x4 r 0)
  refine (shapeCast_a_a1_apply _ _ r 0).trans ?_
  exact rowsum_apply _ _ _ _ r

/-- The y centre of a row's cell, the same at every point of the row. -/
theorem pay13_apply (x5 : Vec Ideal S400x4 .i32) (r : Fin 400) (j : Fin 100) :
    (k0_pay13 (k0_pay9 x5) : FVec Ideal S400x100 .f32) (ix2 r j) = bevy (cur2 (x5 : S400x4.Idx → BitVec 32)) r := by
  unfold k0_pay13 k0_pay9 bevy
  refine (broadcastTo_a1_ab_apply _ _ r j).trans ?_
  rw [shapeCast_self]
  refine (addf_apply _ _ _).trans ?_
  refine congrArg₂ (· + ·) ?_ rfl
  refine (addf_apply _ _ _).trans ?_
  refine congrArg₂ (· + ·) ?_ rfl
  refine (mulf_apply _ _ _).trans ?_
  refine congrArg₂ (· * ·) ?_ rfl
  refine (sitofp_apply _ _).trans ?_
  exact congrArg (FloatOps.sitofp (F := Ideal) .f32) (Cert.Columns.slice_col_apply 2 _ _ r 0 2 rfl)

/-- The x centre of a row's cell, the same at every point of the row. -/
theorem pay12_apply (x5 : Vec Ideal S400x4 .i32) (r : Fin 400) (j : Fin 100) :
    (k0_pay12 (k0_pay10 x5) k0_pay11 : FVec Ideal S400x100 .f32) (ix2 r j) = bevx (cur2 (x5 : S400x4.Idx → BitVec 32)) r := by
  unfold k0_pay12 k0_pay10 k0_pay11 bevx
  refine (broadcastTo_a1_ab_apply _ _ r j).trans ?_
  rw [shapeCast_self]
  refine (addf_apply _ _ _).trans ?_
  refine congrArg₂ (· + ·) ?_ rfl
  refine (addf_apply _ _ _).trans ?_
  refine congrArg₂ (· + ·) ?_ rfl
  refine (mulf_apply _ _ _).trans ?_
  refine congrArg₂ (· * ·) ?_ rfl
  refine (sitofp_apply _ _).trans ?_
  exact congrArg (FloatOps.sitofp (F := Ideal) .f32) (Cert.Columns.slice_col_apply 3 _ _ r 0 3 rfl)

/-- The validity mask: point number below the row's count, as 0 or 1. -/
theorem pay14_apply (x4 : Vec Ideal S400x1 .i32) (r : Fin 400) (j : Fin 100) :
    (k0_pay14 (k0_pay4 x4) : FVec Ideal S400x100 .f32) (ix2 r j) = mask (col (x4 : S400x1.Idx → BitVec 32)) r j := by
  unfold k0_pay14 k0_pay4 mask
  rw [shapeCast_self]
  refine (sitofp_apply _ _).trans ?_
  refine congrArg (FloatOps.sitofp (F := Ideal) .f32) ?_
  refine (extui_apply _ _ _).trans ?_
  refine congrArg (fun b : BitVec 1 => b.setWidth 32) ?_
  show IntOp.cmpi .slt _ _ = _
  refine congrArg₂ (IntOp.cmpi .slt) ?_ ?_
  · exact iota_single_apply .tc S400x100 32 1 _ (ix2 r j)
  · exact broadcastTo_a1_ab_apply _ _ r j

/-- One term of the layer: a masked feature on rows and points, spread along the channels, against row k of the
    weight, spread along rows and points. -/
theorem term_apply (f m : FVec Ideal S400x100 .f32) (w : Vec Ideal S9x64 .f32) (off : Nat) (k : Fin 9) (hk : k.val = off)
    (hs : S9x64.Slices ![off, 0] S1x64) (h3 : S1x64.ShapeCasts S64) (h4 : S64.ShapeCasts S1x1x64)
    (h5 : S1x1x64.Broadcasts S400x100x64) (h1 : S400x100.ShapeCasts S400x100x1) (h2 : S400x100x1.Broadcasts S400x100x64)
    (r : Fin 400) (j : Fin 100) (d : Fin 64) :
    mulf (broadcastTo S400x100x64 (shapeCast S400x100x1 (mulf f m) h1) h2)
        (broadcastTo S400x100x64 (shapeCast S1x1x64 (shapeCast S64 (extractStridedSlice S1x64 ![off, 0] w hs) h3) h4) h5)
        (ix3 r j d)
      = (f (ix2 r j) * m (ix2 r j)) * (w : S9x64.Idx → EReal) (ix2 k d) := by
  refine (mulf_apply _ _ _).trans ?_
  refine congrArg₂ (· * ·) ?_ ?_
  · refine (broadcastTo_apply _ h2 (ix3 r j d) (ix3 r j (0 : Fin 1)) fun a => ?_).trans ?_
    · match a with
      | ⟨0, _⟩ => rfl
      | ⟨1, _⟩ => rfl
      | ⟨2, _⟩ => rfl
    refine (shapeCast_apply _ h1 (ix3 r j (0 : Fin 1)) (ix2 r j) ?_).trans ?_
    · rw [Shape.rowMajor_val_two, Shape.rowMajor_val_three]
      show r.val * 100 + j.val = (r.val * 100 + j.val) * 1 + 0
      omega
    exact mulf_apply _ _ _
  · refine (broadcastTo_apply _ h5 (ix3 r j d) (ix3 (0 : Fin 1) (0 : Fin 1) d) fun a => ?_).trans ?_
    · match a with
      | ⟨0, _⟩ => rfl
      | ⟨1, _⟩ => rfl
      | ⟨2, _⟩ => rfl
    refine (shapeCast_apply _ h4 (ix3 (0 : Fin 1) (0 : Fin 1) d) (ix1 d) ?_).trans ?_
    · rw [Shape.rowMajor_val_one, Shape.rowMajor_val_three]
      show d.val = (0 * 1 + 0) * 64 + d.val
      omega
    refine (shapeCast_apply _ h3 (ix1 d) (ix2 (0 : Fin 1) d) ?_).trans ?_
    · rw [Shape.rowMajor_val_one, Shape.rowMajor_val_two]
      show 0 * 64 + d.val = d.val
      omega
    refine extractStridedSlice_apply _ w hs (ix2 (0 : Fin 1) d) (ix2 k d) fun a => ?_
    match a with
    | ⟨0, _⟩ => show k.val = off + 0; omega
    | ⟨1, _⟩ => show d.val = 0 + d.val; omega

/-- The first four terms of the chain, from zero. -/
theorem pay15_apply (x0 x1 x2 x3 : Vec Ideal S400x100 .f32) (v8 : IVec S400x1 32) (w : Vec Ideal S9x64 .f32)
    (r : Fin 400) (j : Fin 100) (d : Fin 64) :
    (k0_pay15 x0 x1 x2 x3 v8 w : FVec Ideal S400x100x64 .f32) (ix3 r j d)
      = ((((0 : EReal)
          + ((x0 : S400x100.Idx → EReal) (ix2 r j) * (k0_pay14 (F := Ideal) v8) (ix2 r j)) * (w : S9x64.Idx → EReal) (ix2 (0 : Fin 9) d))
          + ((x1 : S400x100.Idx → EReal) (ix2 r j) * (k0_pay14 (F := Ideal) v8) (ix2 r j)) * (w : S9x64.Idx → EReal) (ix2 (1 : Fin 9) d))
          + ((x2 : S400x100.Idx → EReal) (ix2 r j) * (k0_pay14 (F := Ideal) v8) (ix2 r j)) * (w : S9x64.Idx → EReal) (ix2 (2 : Fin 9) d))
          + ((x3 : S400x100.Idx → EReal) (ix2 r j) * (k0_pay14 (F := Ideal) v8) (ix2 r j)) * (w : S9x64.Idx → EReal) (ix2 (3 : Fin 9) d) := by
  unfold k0_pay15
  refine (addf_apply _ _ _).trans ?_
  refine congrArg₂ (· + ·) ?_ (term_apply _ _ w 3 3 rfl _ _ _ _ _ _ r j d)
  refine (addf_apply _ _ _).trans ?_
  refine congrArg₂ (· + ·) ?_ (term_apply _ _ w 2 2 rfl _ _ _ _ _ _ r j d)
  refine (addf_apply _ _ _).trans ?_
  refine congrArg₂ (· + ·) ?_ (term_apply _ _ w 1 1 rfl _ _ _ _ _ _ r j d)
  refine (addf_apply _ _ _).trans ?_
  exact congrArg₂ (· + ·) Ideal.ofBits_zero_f32 (term_apply _ _ w 0 0 rfl _ _ _ _ _ _ r j d)

/-- The full chain: the last five terms added to the first four. -/
theorem pay16_apply (w : Vec Ideal S9x64 .f32) (v24 v26 v28 v40 v48 v53 : FVec Ideal S400x100 .f32)
    (v90 : FVec Ideal S400x100x64 .f32) (r : Fin 400) (j : Fin 100) (d : Fin 64) :
    (k0_pay16 w v24 v26 v28 v40 v48 v53 v90 : FVec Ideal S400x100x64 .f32) (ix3 r j d)
      = ((((v90 (ix3 r j d)
          + (v24 (ix2 r j) * v53 (ix2 r j)) * (w : S9x64.Idx → EReal) (ix2 (4 : Fin 9) d))
          + (v26 (ix2 r j) * v53 (ix2 r j)) * (w : S9x64.Idx → EReal) (ix2 (5 : Fin 9) d))
          + (v28 (ix2 r j) * v53 (ix2 r j)) * (w : S9x64.Idx → EReal) (ix2 (6 : Fin 9) d))
          + (v40 (ix2 r j) * v53 (ix2 r j)) * (w : S9x64.Idx → EReal) (ix2 (7 : Fin 9) d))
          + (v48 (ix2 r j) * v53 (ix2 r j)) * (w : S9x64.Idx → EReal) (ix2 (8 : Fin 9) d) := by
  unfold k0_pay16
  refine (addf_apply _ _ _).trans ?_
  refine congrArg₂ (· + ·) ?_ (term_apply _ _ w 8 8 rfl _ _ _ _ _ _ r j d)
  refine (addf_apply _ _ _).trans ?_
  refine congrArg₂ (· + ·) ?_ (term_apply _ _ w 7 7 rfl _ _ _ _ _ _ r j d)
  refine (addf_apply _ _ _).trans ?_
  refine congrArg₂ (· + ·) ?_ (term_apply _ _ w 6 6 rfl _ _ _ _ _ _ r j d)
  refine (addf_apply _ _ _).trans ?_
  refine congrArg₂ (· + ·) ?_ (term_apply _ _ w 5 5 rfl _ _ _ _ _ _ r j d)
  refine (addf_apply _ _ _).trans ?_
  exact congrArg₂ (· + ·) rfl (term_apply _ _ w 4 4 rfl _ _ _ _ _ _ r j d)

/-- A sum of nine terms, added one by one from zero. -/
theorem sum_nine (f : Fin 9 → EReal) :
    ∑ k : Fin 9, f k = 0 + f 0 + f 1 + f 2 + f 3 + f 4 + f 5 + f 6 + f 7 + f 8 := by
  rw [Fin.sum_univ_castSucc, Fin.sum_univ_eight, zero_add]
  rfl

/-- A sum over the points of a row, channel by channel. -/
theorem sum_points_apply (v : FVec Ideal S400x100x64 .f32) (h : S400x100x64.Reduces [1] S400x64) (hφ : FKind.Formats .f32)
    (hacc : (0x00000000#32 : BitVec 32) = FKind.add.neutral .f32 hφ) (r : Fin 400) (d : Fin 64) :
    multiReduction (F := Ideal) .add [1] S400x64 v 0x00000000#32 h hφ hacc (ix2 r d) = ∑ j : Fin 100, v (ix3 r j d) :=
  (Ideal.multiReduction_add_single v _ h hφ hacc (ix2 r d)).trans
    (Finset.sum_congr rfl fun j _ => congrArg v (funext fun a => Fin.ext (by
      match a with | ⟨0, _⟩ => rfl | ⟨1, _⟩ => rfl | ⟨2, _⟩ => rfl)))

/-- A sum over the rows, channel by channel. -/
theorem sum_rows_apply (v : FVec Ideal S400x64 .f32) (h : S400x64.Reduces [0] S64) (hφ : FKind.Formats .f32)
    (hacc : (0x00000000#32 : BitVec 32) = FKind.add.neutral .f32 hφ) (d : Fin 64) :
    multiReduction (F := Ideal) .add [0] S64 v 0x00000000#32 h hφ hacc (ix1 d) = ∑ r : Fin 400, v (ix2 r d) :=
  (Ideal.multiReduction_add_single v _ h hφ hacc (ix1 d)).trans
    (Finset.sum_congr rfl fun r _ => congrArg v (funext fun a => Fin.ext (by
      match a with | ⟨0, _⟩ => rfl | ⟨1, _⟩ => rfl)))

/-- The block's total per channel: points first, then rows. -/
theorem total_apply (v : FVec Ideal S400x100x64 .f32) (h1 : S400x100x64.Reduces [1] S400x64) (h0 : S400x64.Reduces [0] S64)
    (hφ hφ' : FKind.Formats .f32) (hacc : (0x00000000#32 : BitVec 32) = FKind.add.neutral .f32 hφ)
    (hacc' : (0x00000000#32 : BitVec 32) = FKind.add.neutral .f32 hφ') (d : Fin 64) :
    multiReduction (F := Ideal) .add [0] S64 (multiReduction (F := Ideal) .add [1] S400x64 v 0x00000000#32 h1 hφ hacc)
        0x00000000#32 h0 hφ' hacc' (ix1 d)
      = ∑ r : Fin 400, ∑ j : Fin 100, v (ix3 r j d) :=
  (sum_rows_apply _ h0 hφ' hacc' d).trans (Finset.sum_congr rfl fun r _ => sum_points_apply v h1 hφ hacc r d)

/-- A vector of 64 channels read as a row. -/
theorem shapeCast_64_1x64_apply (v : FVec Ideal S64 .f32) (h : S64.ShapeCasts S1x64) (d : Fin 64) :
    shapeCast S1x64 v h (ix2 (0 : Fin 1) d) = v (ix1 d) :=
  shapeCast_apply v h _ _ (by
    rw [Shape.rowMajor_val_one, Shape.rowMajor_val_two]
    show d.val = 0 * 64 + d.val
    omega)

/-- The running sum: what was there plus the block's total of the layer values. -/
theorem pay18_apply (w : Vec Ideal S9x64 .f32) (v24 v26 v28 v40 v48 v53 : FVec Ideal S400x100 .f32)
    (v90 : FVec Ideal S400x100x64 .f32) (acc : Vec Ideal S1x64 .f32) (d : Fin 64) :
    (k0_pay18 w v24 v26 v28 v40 v48 v53 v90 acc : FVec Ideal S1x64 .f32) (ix2 (0 : Fin 1) d)
      = (acc : S1x64.Idx → EReal) (ix2 (0 : Fin 1) d)
        + ∑ r : Fin 400, ∑ j : Fin 100, (k0_pay16 w v24 v26 v28 v40 v48 v53 v90 : FVec Ideal S400x100x64 .f32) (ix3 r j d) := by
  unfold k0_pay18
  refine (addf_apply _ _ _).trans ?_
  refine congrArg₂ (· + ·) ?_ ?_
  · rw [shapeCast_self]
  · refine (shapeCast_64_1x64_apply _ _ d).trans ?_
    exact total_apply _ _ _ _ _ _ _ d

/-- The block's total of the squared layer values per channel. -/
theorem pay17_apply (w : Vec Ideal S9x64 .f32) (v24 v26 v28 v40 v48 v53 : FVec Ideal S400x100 .f32)
    (v90 : FVec Ideal S400x100x64 .f32) (d : Fin 64) :
    (k0_pay17 w v24 v26 v28 v40 v48 v53 v90 : FVec Ideal S64 .f32) (ix1 d)
      = ∑ r : Fin 400, ∑ j : Fin 100,
          (k0_pay16 w v24 v26 v28 v40 v48 v53 v90 : FVec Ideal S400x100x64 .f32) (ix3 r j d)
            * (k0_pay16 w v24 v26 v28 v40 v48 v53 v90 : FVec Ideal S400x100x64 .f32) (ix3 r j d) := by
  unfold k0_pay17
  refine (total_apply _ _ _ _ _ _ _ d).trans ?_
  exact Finset.sum_congr rfl fun r _ => Finset.sum_congr rfl fun j _ => mulf_apply _ _ _

/-- A row of 64 channels plus a vector of 64 channels, channel by channel. -/
theorem pay1_apply (v140 : FVec Ideal S64 .f32) (acc : Vec Ideal S1x64 .f32) (d : Fin 64) :
    (k0_pay1 v140 acc : FVec Ideal S1x64 .f32) (ix2 (0 : Fin 1) d)
      = (acc : S1x64.Idx → EReal) (ix2 (0 : Fin 1) d) + v140 (ix1 d) := by
  unfold k0_pay1
  refine (addf_apply _ _ _).trans ?_
  refine congrArg₂ (· + ·) ?_ (shapeCast_64_1x64_apply _ _ d)
  rw [shapeCast_self]

/-- The statistics kernel's layer value at row `r`, point `j`, channel `d` of its block. -/
theorem X0_apply (x0 x1 x2 x3 : Vec Ideal S400x100 .f32) (x4 : Vec Ideal S400x1 .i32) (x5 : Vec Ideal S400x4 .i32)
    (x6 : Vec Ideal S9x64 .f32) (r : Fin 400) (j : Fin 100) (d : Fin 64) :
    X0 x0 x1 x2 x3 x4 x5 x6 (ix3 r j d)
      = X (cur2 (x0 : S400x100.Idx → EReal)) (cur2 (x1 : S400x100.Idx → EReal)) (cur2 (x2 : S400x100.Idx → EReal))
          (cur2 (x3 : S400x100.Idx → EReal)) (col (x4 : S400x1.Idx → BitVec 32)) (cur2 (x5 : S400x4.Idx → BitVec 32))
          (cur2 (x6 : S9x64.Idx → EReal)) r j d := by
  unfold X0
  refine (pay16_apply _ _ _ _ _ _ _ _ r j d).trans ?_
  rw [pay15_apply, pay6_apply, pay7_apply, pay8_apply, pay12_apply, pay13_apply, pay14_apply]
  unfold X
  rw [sum_nine]
  rfl

/-- The running sum after a block, at channel `d`: what was there plus the block's total. -/
theorem acc1_apply (x0 x1 x2 x3 : Vec Ideal S400x100 .f32) (x4 : Vec Ideal S400x1 .i32) (x5 : Vec Ideal S400x4 .i32)
    (x6 : Vec Ideal S9x64 .f32) (acc : Vec Ideal S1x64 .f32) (d : Fin 64) :
    (acc1 x0 x1 x2 x3 x4 x5 x6 acc : S1x64.Idx → EReal) (ix2 (0 : Fin 1) d)
      = (acc : S1x64.Idx → EReal) (ix2 (0 : Fin 1) d)
        + ∑ r : Fin 400, ∑ j : Fin 100, (X0 x0 x1 x2 x3 x4 x5 x6 : S400x100x64.Idx → EReal) (ix3 r j d) := by
  unfold acc1 X0
  exact pay18_apply _ _ _ _ _ _ _ _ acc d

/-- The running sum of squares after a block, at channel `d`. -/
theorem acc2_apply (x0 x1 x2 x3 : Vec Ideal S400x100 .f32) (x4 : Vec Ideal S400x1 .i32) (x5 : Vec Ideal S400x4 .i32)
    (x6 : Vec Ideal S9x64 .f32) (acc : Vec Ideal S1x64 .f32) (d : Fin 64) :
    (acc2 x0 x1 x2 x3 x4 x5 x6 acc : S1x64.Idx → EReal) (ix2 (0 : Fin 1) d)
      = (acc : S1x64.Idx → EReal) (ix2 (0 : Fin 1) d)
        + ∑ r : Fin 400, ∑ j : Fin 100, (X0 x0 x1 x2 x3 x4 x5 x6 : S400x100x64.Idx → EReal) (ix3 r j d)
            * (X0 x0 x1 x2 x3 x4 x5 x6 : S400x100x64.Idx → EReal) (ix3 r j d) := by
  unfold acc2 X0
  refine (pay1_apply _ acc d).trans ?_
  exact congrArg (fun t => (acc : S1x64.Idx → EReal) (ix2 (0 : Fin 1) d) + t) (pay17_apply _ _ _ _ _ _ _ _ d)

end Cert.KernelIdeal.Blk

end
-- ==== Proof.KRegion0Acc.lean ====
/-
  The statistics region's accumulation: its two result arrays end holding, per channel, the sum over the grid points
  of each block's totals. The body resets the two `[1, 64]` buffers at the first grid point and adds a block's totals at
  every point; the buffers are written back once, after the last point.
-/
import proofs.«173197_j214748364885_1_alg».proof.Proof.KRegion0Defs
import proofs.«173197_j214748364885_1_alg».proof.Proof.KPay0
import Idealize.ShloMosaic.Lib.Pipeline.Value
import Idealize.ShloMosaic.Lib.Tactic

set_option maxRecDepth 16384

noncomputable section

namespace Cert.KernelIdeal.R0

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.KV Cert.Pillar

/-! ## What one grid point leaves in the two buffers -/

section Pieces
variable {F : FTy → Type} [FloatOps F]

theorem hz2 : (![0, 0] : Fin 2 → Nat) = fun _ => 0 := funext fun a => by fin_cases a <;> rfl

/-- Away from the first grid point, the first buffer holding `p7` is left at `p7` plus the block's totals. -/
theorem piece_B_7 (c : Dev nD) (i : grid0.Coords) (a1 : Memref sig .tc .vmem S400x100 .f32) (h1 : a1.IsWhole) (a2 : Memref sig .tc .vmem S400x100 .f32) (h2 : a2.IsWhole)
    (a3 : Memref sig .tc .vmem S400x100 .f32) (h3 : a3.IsWhole) (a4 : Memref sig .tc .vmem S400x100 .f32) (h4 : a4.IsWhole)
    (a5 : Memref sig .tc .vmem S400x1 .i32) (h5 : a5.IsWhole) (a6 : Memref sig .tc .vmem S400x4 .i32) (h6 : a6.IsWhole)
    (a7 : Memref sig .tc .vmem S9x64 .f32) (h7 : a7.IsWhole) (a8 : Memref sig .tc .vmem S1x64 .f32) (h8 : a8.IsWhole)
    (a9 : Memref sig .tc .vmem S1x64 .f32) (h9 : a9.IsWhole) (hc : ¬cond0_0 i)
    (x0 x1 x2 x3 : Vec F S400x100 .f32) (x4 : Vec F S400x1 .i32) (x5 : Vec F S400x4 .i32) (x6 : Vec F S9x64 .f32) (p7 p8 : Vec F S1x64 .f32) :
    out0_B_7 c i a1 h1 a2 h2 a3 h3 a4 h4 a5 h5 a6 h6 a7 h7 a8 h8 a9 h9 hc x0 x1 x2 x3 x4 x5 x6 p7 p8 = Blk.acc1 x0 x1 x2 x3 x4 x5 x6 p7 := by
  unfold out0_B_7
  rw [View.read_writes_eq_canon _ _ _ (cover0_B_7 c i a1 h1 a2 h2 a3 h3 a4 h4 a5 h5 a6 h6 a7 h7 a8 h8 a9 h9 hc x0 x1 x2 x3 x4 x5 x6 p7 p8)]
  unfold kernelRun0_B
  dsimp only
  sl_unfold_words
  rw [View.canon_unit_zero hz2]
  simp only [View.readAt_eq_ld, h1.read_unread, h2.read_unread, h3.read_unread, h4.read_unread, h5.read_unread, h6.read_unread,
    h7.read_unread, h8.read_unread, h9.read_unread, View.ld_unit_zero (S := S400x100) hz2, View.ld_unit_zero (S := S400x1) hz2,
    View.ld_unit_zero (S := S400x4) hz2, View.ld_unit_zero (S := S9x64) hz2, View.ld_unit_zero (S := S1x64) hz2]
  rfl

/-- Away from the first grid point, the second buffer holding `p8` is left at `p8` plus the block's totals of squares. -/
theorem piece_B_8 (c : Dev nD) (i : grid0.Coords) (a1 : Memref sig .tc .vmem S400x100 .f32) (h1 : a1.IsWhole) (a2 : Memref sig .tc .vmem S400x100 .f32) (h2 : a2.IsWhole)
    (a3 : Memref sig .tc .vmem S400x100 .f32) (h3 : a3.IsWhole) (a4 : Memref sig .tc .vmem S400x100 .f32) (h4 : a4.IsWhole)
    (a5 : Memref sig .tc .vmem S400x1 .i32) (h5 : a5.IsWhole) (a6 : Memref sig .tc .vmem S400x4 .i32) (h6 : a6.IsWhole)
    (a7 : Memref sig .tc .vmem S9x64 .f32) (h7 : a7.IsWhole) (a8 : Memref sig .tc .vmem S1x64 .f32) (h8 : a8.IsWhole)
    (a9 : Memref sig .tc .vmem S1x64 .f32) (h9 : a9.IsWhole) (hc : ¬cond0_0 i)
    (x0 x1 x2 x3 : Vec F S400x100 .f32) (x4 : Vec F S400x1 .i32) (x5 : Vec F S400x4 .i32) (x6 : Vec F S9x64 .f32) (p7 p8 : Vec F S1x64 .f32) :
    out0_B_8 c i a1 h1 a2 h2 a3 h3 a4 h4 a5 h5 a6 h6 a7 h7 a8 h8 a9 h9 hc x0 x1 x2 x3 x4 x5 x6 p7 p8 = Blk.acc2 x0 x1 x2 x3 x4 x5 x6 p8 := by
  unfold out0_B_8
  rw [View.read_writes_eq_canon _ _ _ (cover0_B_8 c i a1 h1 a2 h2 a3 h3 a4 h4 a5 h5 a6 h6 a7 h7 a8 h8 a9 h9 hc x0 x1 x2 x3 x4 x5 x6 p7 p8)]
  unfold kernelRun0_B
  dsimp only
  sl_unfold_words
  rw [View.canon_unit_zero hz2]
  simp only [View.readAt_eq_ld, h1.read_unread, h2.read_unread, h3.read_unread, h4.read_unread, h5.read_unread, h6.read_unread,
    h7.read_unread, h8.read_unread, h9.read_unread, View.ld_unit_zero (S := S400x100) hz2, View.ld_unit_zero (S := S400x1) hz2,
    View.ld_unit_zero (S := S400x4) hz2, View.ld_unit_zero (S := S9x64) hz2, View.ld_unit_zero (S := S1x64) hz2]
  rfl

/-- At the first grid point the first buffer is reset to zero and then left at zero plus the block's totals. -/
theorem piece_A_7 (c : Dev nD) (i : grid0.Coords) (a1 : Memref sig .tc .vmem S400x100 .f32) (h1 : a1.IsWhole) (a2 : Memref sig .tc .vmem S400x100 .f32) (h2 : a2.IsWhole)
    (a3 : Memref sig .tc .vmem S400x100 .f32) (h3 : a3.IsWhole) (a4 : Memref sig .tc .vmem S400x100 .f32) (h4 : a4.IsWhole)
    (a5 : Memref sig .tc .vmem S400x1 .i32) (h5 : a5.IsWhole) (a6 : Memref sig .tc .vmem S400x4 .i32) (h6 : a6.IsWhole)
    (a7 : Memref sig .tc .vmem S9x64 .f32) (h7 : a7.IsWhole) (a8 : Memref sig .tc .vmem S1x64 .f32) (h8 : a8.IsWhole)
    (a9 : Memref sig .tc .vmem S1x64 .f32) (h9 : a9.IsWhole) (hc : cond0_0 i)
    (x0 x1 x2 x3 : Vec F S400x100 .f32) (x4 : Vec F S400x1 .i32) (x5 : Vec F S400x4 .i32) (x6 : Vec F S9x64 .f32) :
    out0_A_7 c i a1 h1 a2 h2 a3 h3 a4 h4 a5 h5 a6 h6 a7 h7 a8 h8 a9 h9 hc x0 x1 x2 x3 x4 x5 x6 = Blk.acc1 x0 x1 x2 x3 x4 x5 x6 k0_pay2 := by
  unfold out0_A_7
  rw [View.read_writes_eq_canon _ _ _ (cover0_A_7 c i a1 h1 a2 h2 a3 h3 a4 h4 a5 h5 a6 h6 a7 h7 a8 h8 a9 h9 hc x0 x1 x2 x3 x4 x5 x6)]
  unfold kernelRun0_A
  dsimp only
  sl_unfold_words
  rw [View.canon_cons_unit_zero (S := S1x64) hz2]
  simp only [View.readCov_unit_zero (S := S1x64) _ hz2, View.readAt_eq_ld, h1.read_unread, h2.read_unread, h3.read_unread, h4.read_unread, h5.read_unread, h6.read_unread,
    h7.read_unread, h8.read_unread, h9.read_unread, View.ld_unit_zero (S := S400x100) hz2, View.ld_unit_zero (S := S400x1) hz2,
    View.ld_unit_zero (S := S400x4) hz2, View.ld_unit_zero (S := S9x64) hz2, View.ld_unit_zero (S := S1x64) hz2]
  rfl

/-- At the first grid point the second buffer is reset to zero and then left at zero plus the block's totals of squares. -/
theorem piece_A_8 (c : Dev nD) (i : grid0.Coords) (a1 : Memref sig .tc .vmem S400x100 .f32) (h1 : a1.IsWhole) (a2 : Memref sig .tc .vmem S400x100 .f32) (h2 : a2.IsWhole)
    (a3 : Memref sig .tc .vmem S400x100 .f32) (h3 : a3.IsWhole) (a4 : Memref sig .tc .vmem S400x100 .f32) (h4 : a4.IsWhole)
    (a5 : Memref sig .tc .vmem S400x1 .i32) (h5 : a5.IsWhole) (a6 : Memref sig .tc .vmem S400x4 .i32) (h6 : a6.IsWhole)
    (a7 : Memref sig .tc .vmem S9x64 .f32) (h7 : a7.IsWhole) (a8 : Memref sig .tc .vmem S1x64 .f32) (h8 : a8.IsWhole)
    (a9 : Memref sig .tc .vmem S1x64 .f32) (h9 : a9.IsWhole) (hc : cond0_0 i)
    (x0 x1 x2 x3 : Vec F S400x100 .f32) (x4 : Vec F S400x1 .i32) (x5 : Vec F S400x4 .i32) (x6 : Vec F S9x64 .f32) :
    out0_A_8 c i a1 h1 a2 h2 a3 h3 a4 h4 a5 h5 a6 h6 a7 h7 a8 h8 a9 h9 hc x0 x1 x2 x3 x4 x5 x6 = Blk.acc2 x0 x1 x2 x3 x4 x5 x6 k0_pay3 := by
  unfold out0_A_8
  rw [View.read_writes_eq_canon _ _ _ (cover0_A_8 c i a1 h1 a2 h2 a3 h3 a4 h4 a5 h5 a6 h6 a7 h7 a8 h8 a9 h9 hc x0 x1 x2 x3 x4 x5 x6)]
  unfold kernelRun0_A
  dsimp only
  sl_unfold_words
  rw [View.canon_cons_unit_zero (S := S1x64) hz2]
  simp only [View.readCov_unit_zero (S := S1x64) _ hz2, View.readAt_eq_ld, h1.read_unread, h2.read_unread, h3.read_unread, h4.read_unread, h5.read_unread, h6.read_unread,
    h7.read_unread, h8.read_unread, h9.read_unread, View.ld_unit_zero (S := S400x100) hz2, View.ld_unit_zero (S := S400x1) hz2,
    View.ld_unit_zero (S := S400x4) hz2, View.ld_unit_zero (S := S9x64) hz2, View.ld_unit_zero (S := S1x64) hz2]
  rfl

end Pieces

variable (V : (c : Dev nD) → (b : Ref sig .tc) → Buf (Elt Ideal) ((c : Thread nD τ).loc b))

/-! ## The two buffers point by point -/

/-- The zero block of buffer 1 at an entry. -/
theorem zero7_apply (d : Fin 64) : ((k0_pay2 (F := Ideal)) : S1x64.Idx → EReal) (ix2 (0 : Fin 1) d) = 0 := by
  unfold k0_pay2
  exact Ideal.ofBits_zero_f32

/-- At the first grid point buffer 1 is left at the block's total. -/
theorem acc7_first (c : Dev nD) (d : Fin 64) (t : Fin cfg0.N) (h0 : t.val % 100 = 0) :
    ((outsAt0 V c t.val t.isLt).1 : S1x64.Idx → EReal) (ix2 (0 : Fin 1) d) = tile1 V c t d := by
  rw [outsAt0_A V c t h0]
  dsimp only
  refine (congrFun (piece_A_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (iblk0 V c 0 t) (iblk0 V c 1 t) (iblk0 V c 2 t) (iblk0 V c 3 t) (iblk0 V c 4 t) (iblk0 V c 5 t) (iblk0 V c 6 t)) (ix2 (0 : Fin 1) d)).trans ?_
  refine (Blk.acc1_apply (iblk0 V c 0 t) (iblk0 V c 1 t) (iblk0 V c 2 t) (iblk0 V c 3 t) (iblk0 V c 4 t) (iblk0 V c 5 t) (iblk0 V c 6 t) (k0_pay2 (F := Ideal)) d).trans ?_
  rw [zero7_apply, zero_add]
  unfold tile1
  rfl

/-- At any later grid point buffer 1 grows by the block's total. -/
theorem acc7_step (c : Dev nD) (d : Fin 64) (t : Fin cfg0.N) (h0 : ¬t.val % 100 = 0) :
    ((outsAt0 V c t.val t.isLt).1 : S1x64.Idx → EReal) (ix2 (0 : Fin 1) d)
      = ((outsAt0 V c (t.val - 1) (Nat.lt_of_le_of_lt (Nat.sub_le _ _) t.isLt)).1 : S1x64.Idx → EReal) (ix2 (0 : Fin 1) d) + tile1 V c t d := by
  rw [outsAt0_B V c t h0]
  dsimp only
  refine (congrFun (piece_B_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (iblk0 V c 0 t) (iblk0 V c 1 t) (iblk0 V c 2 t) (iblk0 V c 3 t) (iblk0 V c 4 t) (iblk0 V c 5 t) (iblk0 V c 6 t) (outsAt0 V c (t.val - 1) (Nat.lt_of_le_of_lt (Nat.sub_le _ _) t.isLt)).1 (outsAt0 V c (t.val - 1) (Nat.lt_of_le_of_lt (Nat.sub_le _ _) t.isLt)).2) (ix2 (0 : Fin 1) d)).trans ?_
  unfold tile1
  exact Blk.acc1_apply (iblk0 V c 0 t) (iblk0 V c 1 t) (iblk0 V c 2 t) (iblk0 V c 3 t) (iblk0 V c 4 t) (iblk0 V c 5 t) (iblk0 V c 6 t) (outsAt0 V c (t.val - 1) (Nat.lt_of_le_of_lt (Nat.sub_le _ _) t.isLt)).1 d

/-- After grid point `n` buffer 1 holds the totals of the blocks at the points up to `n`. -/
theorem acc7_inv (c : Dev nD) (d : Fin 64) : ∀ (n : ℕ) (h : n < cfg0.N),
    ((outsAt0 V c n h).1 : S1x64.Idx → EReal) (ix2 (0 : Fin 1) d)
      = ∑ k ∈ Finset.range (n + 1), if hk : k < cfg0.N then tile1 V c ⟨k, hk⟩ d else 0
  | 0, h => by
    rw [Finset.sum_range_one, dif_pos h]
    exact acc7_first V c d ⟨0, h⟩ rfl
  | n + 1, h => by
    have hN : cfg0.N = 100 := N_0
    have hB : ¬(⟨n + 1, h⟩ : Fin cfg0.N).val % 100 = 0 := by dsimp only; omega
    rw [Finset.sum_range_succ, dif_pos h, ← acc7_inv c d n (Nat.lt_of_succ_lt h)]
    exact acc7_step V c d ⟨n + 1, h⟩ hB

/-- The zero block of buffer 2 at an entry. -/
theorem zero8_apply (d : Fin 64) : ((k0_pay3 (F := Ideal)) : S1x64.Idx → EReal) (ix2 (0 : Fin 1) d) = 0 := by
  unfold k0_pay3
  exact Ideal.ofBits_zero_f32

/-- At the first grid point buffer 2 is left at the block's total. -/
theorem acc8_first (c : Dev nD) (d : Fin 64) (t : Fin cfg0.N) (h0 : t.val % 100 = 0) :
    ((outsAt0 V c t.val t.isLt).2 : S1x64.Idx → EReal) (ix2 (0 : Fin 1) d) = tile2 V c t d := by
  rw [outsAt0_A V c t h0]
  dsimp only
  refine (congrFun (piece_A_8 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (iblk0 V c 0 t) (iblk0 V c 1 t) (iblk0 V c 2 t) (iblk0 V c 3 t) (iblk0 V c 4 t) (iblk0 V c 5 t) (iblk0 V c 6 t)) (ix2 (0 : Fin 1) d)).trans ?_
  refine (Blk.acc2_apply (iblk0 V c 0 t) (iblk0 V c 1 t) (iblk0 V c 2 t) (iblk0 V c 3 t) (iblk0 V c 4 t) (iblk0 V c 5 t) (iblk0 V c 6 t) (k0_pay3 (F := Ideal)) d).trans ?_
  rw [zero8_apply, zero_add]
  unfold tile2
  rfl

/-- At any later grid point buffer 2 grows by the block's total. -/
theorem acc8_step (c : Dev nD) (d : Fin 64) (t : Fin cfg0.N) (h0 : ¬t.val % 100 = 0) :
    ((outsAt0 V c t.val t.isLt).2 : S1x64.Idx → EReal) (ix2 (0 : Fin 1) d)
      = ((outsAt0 V c (t.val - 1) (Nat.lt_of_le_of_lt (Nat.sub_le _ _) t.isLt)).2 : S1x64.Idx → EReal) (ix2 (0 : Fin 1) d) + tile2 V c t d := by
  rw [outsAt0_B V c t h0]
  dsimp only
  refine (congrFun (piece_B_8 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (iblk0 V c 0 t) (iblk0 V c 1 t) (iblk0 V c 2 t) (iblk0 V c 3 t) (iblk0 V c 4 t) (iblk0 V c 5 t) (iblk0 V c 6 t) (outsAt0 V c (t.val - 1) (Nat.lt_of_le_of_lt (Nat.sub_le _ _) t.isLt)).1 (outsAt0 V c (t.val - 1) (Nat.lt_of_le_of_lt (Nat.sub_le _ _) t.isLt)).2) (ix2 (0 : Fin 1) d)).trans ?_
  unfold tile2
  exact Blk.acc2_apply (iblk0 V c 0 t) (iblk0 V c 1 t) (iblk0 V c 2 t) (iblk0 V c 3 t) (iblk0 V c 4 t) (iblk0 V c 5 t) (iblk0 V c 6 t) (outsAt0 V c (t.val - 1) (Nat.lt_of_le_of_lt (Nat.sub_le _ _) t.isLt)).2 d

/-- After grid point `n` buffer 2 holds the totals of the blocks at the points up to `n`. -/
theorem acc8_inv (c : Dev nD) (d : Fin 64) : ∀ (n : ℕ) (h : n < cfg0.N),
    ((outsAt0 V c n h).2 : S1x64.Idx → EReal) (ix2 (0 : Fin 1) d)
      = ∑ k ∈ Finset.range (n + 1), if hk : k < cfg0.N then tile2 V c ⟨k, hk⟩ d else 0
  | 0, h => by
    rw [Finset.sum_range_one, dif_pos h]
    exact acc8_first V c d ⟨0, h⟩ rfl
  | n + 1, h => by
    have hN : cfg0.N = 100 := N_0
    have hB : ¬(⟨n + 1, h⟩ : Fin cfg0.N).val % 100 = 0 := by dsimp only; omega
    rw [Finset.sum_range_succ, dif_pos h, ← acc8_inv c d n (Nat.lt_of_succ_lt h)]
    exact acc8_step V c d ⟨n + 1, h⟩ hB

/-! ## The write-back at the last grid point, and the result arrays -/

/-- A sum over the first hundred naturals of a function of the grid point is the sum over the grid points. -/
theorem sum_range_grid (f : Fin cfg0.N → EReal) :
    (∑ k ∈ Finset.range (99 + 1), if hk : k < cfg0.N then f ⟨k, hk⟩ else 0) = ∑ t : Fin cfg0.N, f t := by
  have hN : cfg0.N = 100 := N_0
  rw [show (99 + 1 : ℕ) = cfg0.N from hN.symm,
    ← Fin.sum_univ_eq_sum_range (fun k => if hk : k < cfg0.N then f ⟨k, hk⟩ else 0) cfg0.N]
  exact Finset.sum_congr rfl fun t _ => dif_pos t.isLt

theorem lt99 : 99 < cfg0.N := Nat.lt_of_lt_of_eq (by decide : 99 < 100) N_0.symm

/-- The buffers after a grid point depend on the point's number only. -/
theorem outsAt0_congr (c : Dev nD) {n n' : ℕ} (e : n = n') (h : n < cfg0.N) (h' : n' < cfg0.N) :
    outsAt0 V c n h = outsAt0 V c n' h' := by subst e; rfl

/-- Window 7's block index is (0, 0) at every grid point. -/
theorem idx7 : ∀ t : Fin cfg0.N, win0_7.index t (0 : Fin 2) = 0 ∧ win0_7.index t (1 : Fin 2) = 0 :=
  (by decide +kernel : ∀ t : Fin grid0.N, _)

/-- Window 7's block is the whole `[1, 64]` array: any contents, written back at any point, read back unchanged. -/
theorem cut7_eq (c : Dev nD) (t : Fin cfg0.N) (X : Buf (Elt Ideal) ((c : Thread nD τ).loc main_v3_0)) :
    (cfg0.win 7).cut (grid0.coords t) X = ((cfg0.win 7).blk t).view.read (Elt Ideal) X := by
  obtain ⟨e0, e1⟩ := idx7 t
  have hz' : (fun a => win0_7.index t a * main_v3_0.ty.shape.size a) = fun _ => 0 :=
    funext fun a => by
      match a with
      | ⟨0, _⟩ => show win0_7.index t (0 : Fin 2) * 1 = 0; omega
      | ⟨1, _⟩ => show win0_7.index t (1 : Fin 2) * 64 = 0; omega
  exact (Memref.read_access_unit_zero (Elt Ideal) main_v3_0 hz' (fun a => by rw [congrFun hz' a]; simp) X).symm

/-- What buffer 1 holds after the last grid point, as contents of its result array. -/
abbrev res7 (c : Dev nD) : Buf (Elt Ideal) ((c : Thread nD τ).loc main_v3_0) := (outsAt0 V c 99 lt99).1

/-- The one write-back, at the last grid point, writes it. -/
theorem flushed7_eq (c : Dev nD) (t : Fin cfg0.N) (hf : (cfg0.win 7).flush t = true) :
    (dat0 V c).flushed 7 t = ((cfg0.win 7).blk t).view.read (Elt Ideal) (res7 V c) := by
  have hN : cfg0.N = 100 := N_0
  have h99 : t.val = 99 := by have := (flush0_7 t).mp hf; have := t.isLt; omega
  have e : (dat0 V c).after 7 t = res7 V c := by
    rw [after0_7]
    exact congrArg Prod.fst (outsAt0_congr V c h99 t.isLt lt99)
  show (cfg0.win 7).cut (grid0.coords t) ((dat0 V c).after 7 t) = _
  rw [e]
  generalize res7 V c = X
  exact cut7_eq c t X

/-- An index of result array 7 is in a point's block iff each coordinate is in the block's range on its axis. -/
theorem mem_blk7 (t : Fin cfg0.N) (i : S1x64.Idx) :
    i ∈ ((cfg0.win 7).blk t).view.set ↔ ∀ a : Fin 2, win0_7.index t a * S1x64.size a ≤ (i a).val ∧ (i a).val < win0_7.index t a * S1x64.size a + S1x64.size a := by
  show i ∈ ((View.whole main_v3_0).slice (win0_7.rect t)).set ↔ _
  rw [View.set_slice_whole, Rect.mem_set_unit]
  exact Iff.rfl

/-- So result array 7 ends holding what its buffer holds after the last grid point: that point's block is the whole array. -/
theorem arr7_eq (c : Dev nD) : (dat0 V c).arrAt 7 cfg0.N = res7 V c :=
  (dat0 V c).arrAt_eq_of_cover 7 (res7 V c) (flushed7_eq V c) fun i => by
    obtain ⟨e0, e1⟩ := idx7 ⟨99, lt99⟩
    refine ⟨⟨99, lt99⟩, (flush0_7 ⟨99, lt99⟩).mpr rfl, ?_⟩
    rw [mem_blk7]
    intro a
    have h0 : (i 0).val < 1 := (i 0).isLt
    have h1 : (i 1).val < 64 := (i 1).isLt
    match a with
    | ⟨0, _⟩ => show win0_7.index ⟨99, lt99⟩ (0 : Fin 2) * 1 ≤ (i 0).val ∧ (i 0).val < win0_7.index ⟨99, lt99⟩ (0 : Fin 2) * 1 + 1; omega
    | ⟨1, _⟩ => show win0_7.index ⟨99, lt99⟩ (1 : Fin 2) * 64 ≤ (i 1).val ∧ (i 1).val < win0_7.index ⟨99, lt99⟩ (1 : Fin 2) * 64 + 64; omega

/-- Window 8's block index is (0, 0) at every grid point. -/
theorem idx8 : ∀ t : Fin cfg0.N, win0_8.index t (0 : Fin 2) = 0 ∧ win0_8.index t (1 : Fin 2) = 0 :=
  (by decide +kernel : ∀ t : Fin grid0.N, _)

/-- Window 8's block is the whole `[1, 64]` array: any contents, written back at any point, read back unchanged. -/
theorem cut8_eq (c : Dev nD) (t : Fin cfg0.N) (X : Buf (Elt Ideal) ((c : Thread nD τ).loc main_v3_1)) :
    (cfg0.win 8).cut (grid0.coords t) X = ((cfg0.win 8).blk t).view.read (Elt Ideal) X := by
  obtain ⟨e0, e1⟩ := idx8 t
  have hz' : (fun a => win0_8.index t a * main_v3_1.ty.shape.size a) = fun _ => 0 :=
    funext fun a => by
      match a with
      | ⟨0, _⟩ => show win0_8.index t (0 : Fin 2) * 1 = 0; omega
      | ⟨1, _⟩ => show win0_8.index t (1 : Fin 2) * 64 = 0; omega
  exact (Memref.read_access_unit_zero (Elt Ideal) main_v3_1 hz' (fun a => by rw [congrFun hz' a]; simp) X).symm

/-- What buffer 2 holds after the last grid point, as contents of its result array. -/
abbrev res8 (c : Dev nD) : Buf (Elt Ideal) ((c : Thread nD τ).loc main_v3_1) := (outsAt0 V c 99 lt99).2

/-- The one write-back, at the last grid point, writes it. -/
theorem flushed8_eq (c : Dev nD) (t : Fin cfg0.N) (hf : (cfg0.win 8).flush t = true) :
    (dat0 V c).flushed 8 t = ((cfg0.win 8).blk t).view.read (Elt Ideal) (res8 V c) := by
  have hN : cfg0.N = 100 := N_0
  have h99 : t.val = 99 := by have := (flush0_8 t).mp hf; have := t.isLt; omega
  have e : (dat0 V c).after 8 t = res8 V c := by
    rw [after0_8]
    exact congrArg Prod.snd (outsAt0_congr V c h99 t.isLt lt99)
  show (cfg0.win 8).cut (grid0.coords t) ((dat0 V c).after 8 t) = _
  rw [e]
  generalize res8 V c = X
  exact cut8_eq c t X

/-- An index of result array 8 is in a point's block iff each coordinate is in the block's range on its axis. -/
theorem mem_blk8 (t : Fin cfg0.N) (i : S1x64.Idx) :
    i ∈ ((cfg0.win 8).blk t).view.set ↔ ∀ a : Fin 2, win0_8.index t a * S1x64.size a ≤ (i a).val ∧ (i a).val < win0_8.index t a * S1x64.size a + S1x64.size a := by
  show i ∈ ((View.whole main_v3_1).slice (win0_8.rect t)).set ↔ _
  rw [View.set_slice_whole, Rect.mem_set_unit]
  exact Iff.rfl

/-- So result array 8 ends holding what its buffer holds after the last grid point: that point's block is the whole array. -/
theorem arr8_eq (c : Dev nD) : (dat0 V c).arrAt 8 cfg0.N = res8 V c :=
  (dat0 V c).arrAt_eq_of_cover 8 (res8 V c) (flushed8_eq V c) fun i => by
    obtain ⟨e0, e1⟩ := idx8 ⟨99, lt99⟩
    refine ⟨⟨99, lt99⟩, (flush0_8 ⟨99, lt99⟩).mpr rfl, ?_⟩
    rw [mem_blk8]
    intro a
    have h0 : (i 0).val < 1 := (i 0).isLt
    have h1 : (i 1).val < 64 := (i 1).isLt
    match a with
    | ⟨0, _⟩ => show win0_8.index ⟨99, lt99⟩ (0 : Fin 2) * 1 ≤ (i 0).val ∧ (i 0).val < win0_8.index ⟨99, lt99⟩ (0 : Fin 2) * 1 + 1; omega
    | ⟨1, _⟩ => show win0_8.index ⟨99, lt99⟩ (1 : Fin 2) * 64 ≤ (i 1).val ∧ (i 1).val < win0_8.index ⟨99, lt99⟩ (1 : Fin 2) * 64 + 64; omega

/-- The first result array at channel `d`: the sum over the grid points of the blocks' totals. -/
theorem arr7_sum (c : Dev nD) (d : Fin 64) :
    ((dat0 (F := Ideal) V c).arrAt 7 cfg0.N : S1x64.Idx → EReal) (ix2 (0 : Fin 1) d) = ∑ t : Fin cfg0.N, tile1 V c t d := by
  rw [arr7_eq V c]
  exact (acc7_inv V c d 99 lt99).trans (sum_range_grid fun t => tile1 V c t d)

/-- The second result array at channel `d`: the sum over the grid points of the blocks' totals of squares. -/
theorem arr8_sum (c : Dev nD) (d : Fin 64) :
    ((dat0 (F := Ideal) V c).arrAt 8 cfg0.N : S1x64.Idx → EReal) (ix2 (0 : Fin 1) d) = ∑ t : Fin cfg0.N, tile2 V c t d := by
  rw [arr8_eq V c]
  exact (acc8_inv V c d 99 lt99).trans (sum_range_grid fun t => tile2 V c t d)

end Cert.KernelIdeal.R0

end
-- ==== Proof.LibVariance.lean ====
/-
  The variance identity on the extended reals, for real data.

  For a finite family of real numbers `x i`, read as extended reals, with `n` its cardinality (nonzero), write
  `μ = (Σ_j x_j)·(1/n)` for the mean.  The mean of the squared deviations equals the mean of the squares less the
  square of the mean:

      (Σ_i (x_i − μ)·(x_i − μ))·(1/n) = (Σ_i x_i·x_i)·(1/n) − μ·μ .

  Every division by `n` is written as the product with the reciprocal `1/n` (which is what a division of an extended
  real by a nonzero real is).  Since every term is the image of a real number, both sides are images of real numbers:
  the finite sum of images is the image of the finite sum, and so are differences and products; the identity is then the
  usual one over the reals, which follows from expanding the square termwise,
  `(x_i − μ)² = x_i² − 2μ·x_i + μ²`, summing, and using `Σ_i μ² = n·μ²` with `μ = S/n`.
-/
import Mathlib.Data.EReal.Inv
import Mathlib.Algebra.BigOperators.Group.Finset.Basic
import Mathlib.Algebra.BigOperators.Ring.Finset
import Mathlib.Tactic.Ring
import Mathlib.Tactic.FieldSimp
import Idealize.ShloMosaic.PureOps.Ideal

noncomputable section

namespace Cert.Bridge

/-- A finite sum of images of real numbers in the extended reals is the image of the real sum. -/
theorem coe_finset_sum {ι : Type} (s : Finset ι) (f : ι → ℝ) :
    (∑ i ∈ s, ((f i : ℝ) : EReal)) = ((∑ i ∈ s, f i : ℝ) : EReal) := by
  classical
  refine Finset.induction_on s (by simp) ?_
  intro a t ha ih
  rw [Finset.sum_insert ha, Finset.sum_insert ha, ih, EReal.coe_add]

/-- The variance identity over the reals: with `n` the number of terms and `S` their sum, the sum of the squared
    deviations from `S/n`, divided by `n`, is the sum of the squares divided by `n`, less `(S/n)²`. -/
theorem var_identity_real {ι : Type} [Fintype ι] (x : ι → ℝ) (n : ℝ) (hn : n ≠ 0)
    (hcard : (Fintype.card ι : ℝ) = n) :
    (∑ i, (x i - (∑ j, x j) * (1 / n)) * (x i - (∑ j, x j) * (1 / n))) * (1 / n)
      = (∑ i, x i * x i) * (1 / n) - ((∑ j, x j) * (1 / n)) * ((∑ j, x j) * (1 / n)) := by
  set S : ℝ := ∑ j, x j with hS
  set μ : ℝ := S * (1 / n) with hμ
  have hterm : ∀ i, (x i - μ) * (x i - μ) = x i * x i - 2 * μ * x i + μ * μ := fun i => by ring
  have hsum : (∑ i, (x i - μ) * (x i - μ)) = (∑ i, x i * x i) - 2 * μ * S + n * (μ * μ) := by
    rw [Finset.sum_congr rfl (fun i _ => hterm i), Finset.sum_add_distrib, Finset.sum_sub_distrib,
      ← Finset.mul_sum, Finset.sum_const, Finset.card_univ, nsmul_eq_mul, hcard]
  rw [hsum, hμ]
  field_simp
  ring

/-- The variance identity on the extended reals, for real data: the mean of the squared deviations from the mean is
    the mean of the squares less the square of the mean, each division by `n` being the product with `1/n`. -/
theorem var_identity {ι : Type} [Fintype ι] (x : ι → ℝ) (n : ℝ) (hn : n ≠ 0)
    (hcard : (Fintype.card ι : ℝ) = n) :
    (∑ i, ((x i : EReal) - (∑ j, (x j : EReal)) * ((1 / n : ℝ) : EReal))
          * ((x i : EReal) - (∑ j, (x j : EReal)) * ((1 / n : ℝ) : EReal))) * ((1 / n : ℝ) : EReal)
      = (∑ i, (x i : EReal) * (x i : EReal)) * ((1 / n : ℝ) : EReal)
        - ((∑ j, (x j : EReal)) * ((1 / n : ℝ) : EReal)) * ((∑ j, (x j : EReal)) * ((1 / n : ℝ) : EReal)) := by
  have hS : (∑ j, (x j : EReal)) = ((∑ j, x j : ℝ) : EReal) := coe_finset_sum _ _
  have hQ : (∑ i, (x i : EReal) * (x i : EReal)) = ((∑ i, x i * x i : ℝ) : EReal) := by
    exact (Finset.sum_congr rfl (fun i _ => (EReal.coe_mul (x i) (x i)).symm)).trans
      (coe_finset_sum Finset.univ (fun i => x i * x i))
  have hD : (∑ i, ((x i : EReal) - ((∑ j, x j : ℝ) : EReal) * ((1 / n : ℝ) : EReal))
          * ((x i : EReal) - ((∑ j, x j : ℝ) : EReal) * ((1 / n : ℝ) : EReal)))
      = ((∑ i, (x i - (∑ j, x j) * (1 / n)) * (x i - (∑ j, x j) * (1 / n)) : ℝ) : EReal) := by
    refine (Finset.sum_congr rfl (fun i _ => ?_)).trans
      (coe_finset_sum Finset.univ (fun i => (x i - (∑ j, x j) * (1 / n)) * (x i - (∑ j, x j) * (1 / n))))
    rw [← EReal.coe_mul, ← EReal.coe_sub, ← EReal.coe_mul]
  rw [hS, hD, hQ, ← EReal.coe_mul, ← EReal.coe_mul, ← EReal.coe_mul, ← EReal.coe_mul, ← EReal.coe_sub,
    var_identity_real x n hn hcard]

end Cert.Bridge

end
-- ==== Proof.LibIdealReal.lean ====
/-
  General lemmas: the extended-real operations of the ideal float instance on REAL operands give the real result.
  A finite sum of real numbers embedded in the extended reals is the embedded sum; the ideal quotient of two reals with
  a nonzero divisor is the real quotient; the ideal logarithm of a positive real is the real logarithm; an ordered
  compare of two reals is the bit of the real order; a one-bit word widened to 32 bits and converted to a float is the
  real 1 or 0; a maximum over a nonempty finite family of reals starting from minus infinity is the real maximum.
-/
import Idealize.ShloMosaic.PureOps.Ideal
import Idealize.ShloMosaic.PureOps.Ideal.Laws

noncomputable section

namespace Idealize.ShloMosaic.IdealReal

open Idealize.ShloMosaic

/-- A finite sum of embedded reals is the embedded sum. -/
theorem coe_sum {ι : Type*} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The ideal quotient of two reals, the divisor nonzero, is the real quotient. -/
theorem div_coe_coe (x y : ℝ) (hy : y ≠ 0) : Ideal.div (x : EReal) (y : EReal) = ((x / y : ℝ) : EReal) := by
  rw [Ideal.div_coe hy, ← EReal.coe_mul]
  congr 1
  field_simp

/-- The ideal logarithm of a positive real is the real logarithm. -/
theorem log_coe_pos {x : ℝ} (hx : 0 < x) : Ideal.log (x : EReal) = ((Real.log x : ℝ) : EReal) := by
  rw [Ideal.log_coe, if_neg (not_le.mpr hx)]

/-- The ideal exponential of a real is the real exponential. -/
theorem exp_coe' (x : ℝ) : Ideal.exp (x : EReal) = ((Real.exp x : ℝ) : EReal) := Ideal.exp_coe x

theorem cmp_ogt_coe (x y : ℝ) : Ideal.cmp .ogt (x : EReal) (y : EReal) = if y < x then 1#1 else 0#1 := by
  unfold Ideal.cmp
  by_cases h : y < x
  · simp [h, EReal.coe_lt_coe_iff]
  · simp [h, EReal.coe_lt_coe_iff]

theorem cmp_oge_coe (x y : ℝ) : Ideal.cmp .oge (x : EReal) (y : EReal) = if y ≤ x then 1#1 else 0#1 := by
  unfold Ideal.cmp
  by_cases h : y ≤ x
  · simp [h, EReal.coe_le_coe_iff]
  · simp [h, EReal.coe_le_coe_iff]

/-- A one-bit word widened to 32 bits and converted (signed) to a float is the real 1 or 0. -/
theorem sitofp_setWidth_bit (b : BitVec 1) :
    (FloatOps.sitofp (F := Ideal) .f32 (b.setWidth 32) : EReal) = if b = 1#1 then ((1 : ℝ) : EReal) else ((0 : ℝ) : EReal) := by
  have hb : b = 0#1 ∨ b = 1#1 := by
    have := b.isLt
    rcases Nat.lt_or_ge b.toNat 1 with h | h
    · left; apply BitVec.eq_of_toNat_eq; simp; omega
    · right; apply BitVec.eq_of_toNat_eq; simp; omega
  rcases hb with rfl | rfl
  · show ((((0#1 : BitVec 1).setWidth 32).toInt : ℝ) : EReal) = _
    simp
  · show ((((1#1 : BitVec 1).setWidth 32).toInt : ℝ) : EReal) = _
    norm_num [BitVec.toInt]

/-- The maximum of embedded reals is the embedded maximum. -/
theorem max_coe (x y : ℝ) : max (x : EReal) (y : EReal) = ((max x y : ℝ) : EReal) := by
  rcases le_total x y with h | h
  · rw [max_eq_right h, max_eq_right (EReal.coe_le_coe_iff.mpr h)]
  · rw [max_eq_left h, max_eq_left (EReal.coe_le_coe_iff.mpr h)]

/-- A product with an embedded 1-or-0 selects. -/
theorem coe_ite {p : Prop} [Decidable p] (a b : ℝ) :
    (if p then ((a : ℝ) : EReal) else ((b : ℝ) : EReal)) = (((if p then a else b) : ℝ) : EReal) := by
  split <;> rfl

end Idealize.ShloMosaic.IdealReal

end
-- ==== Proof.Algebra.lean ====
/-
  The algebra between the two programs' arrangements, over the extended reals.
-/
import proofs.«173197_j214748364885_1_alg».proof.Proof.Spec
import proofs.«173197_j214748364885_1_alg».proof.Proof.LibVariance
import proofs.«173197_j214748364885_1_alg».proof.Proof.LibIdealReal
import Mathlib.Algebra.BigOperators.Fin

noncomputable section

namespace Cert.Pillar

open Idealize.ShloMosaic

variable {R R' : Nat}

namespace AlgebraAux

/-! ## Extended reals that are real numbers -/

/-- An extended real that is the image of a real number. -/
def IsR (x : EReal) : Prop := ∃ r : ℝ, x = (r : EReal)

theorem IsR.coe (r : ℝ) : IsR (r : EReal) := ⟨r, rfl⟩
theorem IsR.add {x y : EReal} (hx : IsR x) (hy : IsR y) : IsR (x + y) := by
  obtain ⟨a, rfl⟩ := hx; obtain ⟨b, rfl⟩ := hy; exact ⟨a + b, (EReal.coe_add a b).symm⟩
theorem IsR.sub {x y : EReal} (hx : IsR x) (hy : IsR y) : IsR (x - y) := by
  obtain ⟨a, rfl⟩ := hx; obtain ⟨b, rfl⟩ := hy; exact ⟨a - b, (EReal.coe_sub a b).symm⟩
theorem IsR.mul {x y : EReal} (hx : IsR x) (hy : IsR y) : IsR (x * y) := by
  obtain ⟨a, rfl⟩ := hx; obtain ⟨b, rfl⟩ := hy; exact ⟨a * b, (EReal.coe_mul a b).symm⟩
theorem IsR.sum {ι : Type} (s : Finset ι) (f : ι → EReal) (h : ∀ i ∈ s, IsR (f i)) : IsR (∑ i ∈ s, f i) :=
  Finset.sum_induction f IsR (fun _ _ => IsR.add) ⟨0, rfl⟩ h

/-- A signed integer word converted to a float is that integer, a real. -/
theorem isR_sitofp {w : Nat} (b : BitVec w) : IsR (FloatOps.sitofp (F := Ideal) .f32 b) := ⟨(b.toInt : ℝ), rfl⟩

theorem isR_c016 : IsR c016 := by
  unfold c016; simp [Ideal.ofBits, Ideal.ieee, -EReal.coe_mul]; exact ⟨_, rfl⟩
theorem isR_c008 : IsR c008 := by
  unfold c008; simp [Ideal.ofBits, Ideal.ieee, -EReal.coe_mul]; exact ⟨_, rfl⟩
theorem isR_c000 : IsR c000 := by
  unfold c000; simp [Ideal.ofBits, Ideal.ieee, -EReal.coe_mul]; exact ⟨0, rfl⟩
theorem isR_cm3968 : IsR cm3968 := by
  unfold cm3968; simp [Ideal.ofBits, Ideal.ieee, -EReal.coe_mul]; exact ⟨_, rfl⟩

/-- The signed maximum with 1 is at least 1. -/
theorem one_le_toInt_maxsi_one (x : BitVec 32) : 1 ≤ (IntOp.maxsi x 1#32).toInt := by
  have h1 : (1#32 : BitVec 32).toInt = 1 := by decide
  unfold IntOp.maxsi
  by_cases h : (1#32 : BitVec 32).slt x = true
  · rw [if_pos h]; rw [BitVec.slt_iff_toInt_lt, h1] at h; omega
  · rw [if_neg h, h1]

/-- The clamped count is a nonzero real. -/
theorem cnt_eq (n : Fin R → BitVec 32) (p : Fin R) :
    cnt n p = (((IntOp.maxsi (n p) 1#32).toInt : ℝ) : EReal) ∧ ((IntOp.maxsi (n p) 1#32).toInt : ℝ) ≠ 0 := by
  refine ⟨rfl, ?_⟩
  have := one_le_toInt_maxsi_one (n p)
  have h : (0 : ℝ) < ((IntOp.maxsi (n p) 1#32).toInt : ℝ) := by exact_mod_cast (by omega : 0 < (IntOp.maxsi (n p) 1#32).toInt)
  exact h.ne'

/-- The mean of a real channel is real. -/
theorem isR_mean (x : Fin R → Fin 100 → EReal) (n : Fin R → BitVec 32) (hx : ∀ p j, IsR (x p j)) (p : Fin R) :
    IsR (mean x n p) := by
  obtain ⟨hc, hne⟩ := cnt_eq n p
  obtain ⟨s, hs⟩ := IsR.sum Finset.univ (fun j => x p j) (fun j _ => hx p j)
  unfold mean
  rw [hc, hs, Idealize.ShloMosaic.IdealReal.div_coe_coe _ _ hne]
  exact ⟨_, rfl⟩

/-- The mean of a channel over a row depends on that row's data only. -/
theorem mean_congr_row (x : Fin R → Fin 100 → EReal) (n : Fin R → BitVec 32) (x' : Fin R' → Fin 100 → EReal)
    (n' : Fin R' → BitVec 32) (p : Fin R) (p' : Fin R') (h : ∀ j, x p j = x' p' j) (hn : n p = n' p') :
    mean x n p = mean x' n' p' := by
  unfold mean cnt
  rw [hn, Finset.sum_congr rfl (fun j _ => h j)]

/-- The number of points of all rows, as a real. -/
theorem cN_eq : cN = ((4000000 : ℝ) : EReal) := by
  unfold cN; simp [Ideal.ofBits, Ideal.ieee, -EReal.coe_mul]; norm_num

end AlgebraAux

open AlgebraAux

/-- The layer's value at a point depends on its row's data only: two arrays (of any heights) that agree on a row of
    each give the same value there. -/
theorem X_congr_row (x0 x1 x2 x3 : Fin R → Fin 100 → EReal) (n : Fin R → BitVec 32) (co : Fin R → Fin 4 → BitVec 32)
    (x0' x1' x2' x3' : Fin R' → Fin 100 → EReal) (n' : Fin R' → BitVec 32) (co' : Fin R' → Fin 4 → BitVec 32)
    (w : Fin 9 → Fin 64 → EReal) (p : Fin R) (p' : Fin R')
    (h0 : ∀ j, x0 p j = x0' p' j) (h1 : ∀ j, x1 p j = x1' p' j) (h2 : ∀ j, x2 p j = x2' p' j) (h3 : ∀ j, x3 p j = x3' p' j)
    (hn : n p = n' p') (hco : ∀ k, co p k = co' p' k) (j : Fin 100) (d : Fin 64) :
    X x0 x1 x2 x3 n co w p j d = X x0' x1' x2' x3' n' co' w p' j d := by
  have hm0 := mean_congr_row x0 n x0' n' p p' h0 hn
  have hm1 := mean_congr_row x1 n x1' n' p p' h1 hn
  have hm2 := mean_congr_row x2 n x2' n' p p' h2 hn
  have hbx : bevx co p = bevx co' p' := by unfold bevx; rw [hco]
  have hby : bevy co p = bevy co' p' := by unfold bevy; rw [hco]
  have hmask : mask n p j = mask n' p' j := by unfold mask; rw [hn]
  unfold X
  refine Finset.sum_congr rfl (fun k _ => ?_)
  have hfeat : feat x0 x1 x2 x3 n co k p j = feat x0' x1' x2' x3' n' co' k p' j := by
    unfold feat
    rw [h0, h1, h2, h3, hm0, hm1, hm2, hbx, hby]
  rw [hfeat, hmask]

/-- Row `r` of the `t`-th block of 400 rows is row `400 t + r` of the array. -/
def tileRow (t : Fin 100) (r : Fin 400) : Fin 40000 := ⟨400 * t.val + r.val, by have := t.isLt; have := r.isLt; omega⟩

/-- Summing block by block, and inside each block row by row, is summing over all rows. -/
theorem sum_tiles {M : Type} [AddCommMonoid M] (f : Fin 40000 → M) :
    ∑ t : Fin 100, ∑ r : Fin 400, f (tileRow t r) = ∑ p : Fin 40000, f p := by
  rw [← Fintype.sum_prod_type' (fun t r => f (tileRow t r))]
  refine Fintype.sum_equiv (finProdFinEquiv.trans (finCongr (by norm_num))) _ _ (fun x => ?_)
  congr 1
  apply Fin.ext
  simp [tileRow, finProdFinEquiv]
  omega

/-- On real inputs and weights the layer's values are real. -/
theorem X_real (x0 x1 x2 x3 : Fin R → Fin 100 → EReal) (n : Fin R → BitVec 32) (co : Fin R → Fin 4 → BitVec 32)
    (w : Fin 9 → Fin 64 → EReal)
    (hx0 : ∀ p j, ∃ r : ℝ, x0 p j = (r : EReal)) (hx1 : ∀ p j, ∃ r : ℝ, x1 p j = (r : EReal))
    (hx2 : ∀ p j, ∃ r : ℝ, x2 p j = (r : EReal)) (hx3 : ∀ p j, ∃ r : ℝ, x3 p j = (r : EReal))
    (hw : ∀ k d, ∃ r : ℝ, w k d = (r : EReal)) (p : Fin R) (j : Fin 100) (d : Fin 64) :
    ∃ r : ℝ, X x0 x1 x2 x3 n co w p j d = (r : EReal) := by
  have hm0 : IsR (mean x0 n p) := isR_mean x0 n hx0 p
  have hm1 : IsR (mean x1 n p) := isR_mean x1 n hx1 p
  have hm2 : IsR (mean x2 n p) := isR_mean x2 n hx2 p
  have hbx : IsR (bevx co p) := by
    unfold bevx; exact ((((isR_sitofp _).mul isR_c016).add isR_c008).add isR_c000)
  have hby : IsR (bevy co p) := by
    unfold bevy; exact ((((isR_sitofp _).mul isR_c016).add isR_c008).add isR_cm3968)
  have hmask : IsR (mask n p j) := by unfold mask; exact isR_sitofp _
  have hfeat : ∀ k, IsR (feat x0 x1 x2 x3 n co k p j) := by
    intro k
    unfold feat
    fin_cases k
    · exact hx0 p j
    · exact hx1 p j
    · exact hx2 p j
    · exact hx3 p j
    · exact IsR.sub (hx0 p j) hm0
    · exact IsR.sub (hx1 p j) hm1
    · exact IsR.sub (hx2 p j) hm2
    · exact hbx
    · exact hby
  show IsR (X x0 x1 x2 x3 n co w p j d)
  unfold X
  exact IsR.sum _ _ (fun k _ => ((hfeat k).mul hmask).mul (hw k d))

/-- On real values the mean of the squared deviations is the mean of the squares less the squared mean. -/
theorem varR_eq_var (Xv : Fin 40000 → Fin 100 → Fin 64 → EReal) (hX : ∀ p j d, ∃ r : ℝ, Xv p j d = (r : EReal))
    (d : Fin 64) : varR Xv d = var Xv d := by
  choose xr hxr using hX
  have hXv : Xv = fun p j d => ((xr p j d : ℝ) : EReal) := by funext p j d; exact hxr p j d
  subst hXv
  have hN : (4000000 : ℝ) ≠ 0 := by norm_num
  have key := Cert.Bridge.var_identity (ι := Fin 40000 × Fin 100) (fun pj => xr pj.1 pj.2 d) 4000000 hN
    (by simp [Fintype.card_prod])
  simp only [Fintype.sum_prod_type] at key
  unfold varR var mu S1 S2
  rw [cN_eq, Ideal.div_coe hN, Ideal.div_coe hN, Ideal.div_coe hN]
  exact key

end Cert.Pillar

end
-- ==== Proof.KRegion0Sum.lean ====
/-
  The blocks' totals add up to the totals over every row: a block's layer values are the array's at the block's rows
  (the layer's value at a point depends on its row only), and the 100 blocks of 400 rows are all 40000 rows.
-/
import proofs.«173197_j214748364885_1_alg».proof.Proof.KRegion0Defs
import proofs.«173197_j214748364885_1_alg».proof.Proof.KPay0
import proofs.«173197_j214748364885_1_alg».proof.Proof.Algebra
import Idealize.ShloMosaic.Lib.Pipeline.Value

set_option maxRecDepth 16384

noncomputable section

namespace Cert.KernelIdeal.R0

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.KV Cert.Pillar

variable (V : (c : Dev nD) → (b : Ref sig .tc) → Buf (Elt Ideal) ((c : Thread nD τ).loc b))

/-! ## The index maps of the seven input windows, decided once over the grid -/

theorem sumtile_idx0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem sumtile_idx1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)
theorem sumtile_idx2 : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)
theorem sumtile_idx3 : ∀ t : Fin cfg0.N, win0_3.index t (0 : Fin 2) = t.val ∧ win0_3.index t (1 : Fin 2) = 0 :=
  (by decide +kernel : ∀ t : Fin grid0.N, win0_3.index t (0 : Fin 2) = t.val ∧ win0_3.index t (1 : Fin 2) = 0)
theorem sumtile_idx4 : ∀ t : Fin cfg0.N, win0_4.index t (0 : Fin 2) = t.val ∧ win0_4.index t (1 : Fin 2) = 0 :=
  (by decide +kernel : ∀ t : Fin grid0.N, win0_4.index t (0 : Fin 2) = t.val ∧ win0_4.index t (1 : Fin 2) = 0)
theorem sumtile_idx5 : ∀ t : Fin cfg0.N, win0_5.index t (0 : Fin 2) = t.val ∧ win0_5.index t (1 : Fin 2) = 0 :=
  (by decide +kernel : ∀ t : Fin grid0.N, win0_5.index t (0 : Fin 2) = t.val ∧ win0_5.index t (1 : Fin 2) = 0)
theorem sumtile_idx6 : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)

/-! ## A block's entry is the array's entry at the block's row -/

/-- Channel 0 of the points: row `r` of block `t` is row `400 t + r` of the array. -/
theorem sumtile_blk0 (c : Dev nD) (t : Fin cfg0.N) (r : Fin 400) (j : Fin 100) :
    (iblk0 V c 0 t : S400x100.Idx → EReal) (ix2 r j) = (V c main_arg0 : S40000x100.Idx → EReal) (ix2 (trow0 t r) j) := by
  unfold iblk0
  rw [View.read_apply]
  show (V c main_arg0 : S40000x100.Idx → EReal) _ = _
  congr 1
  funext a
  apply Fin.ext
  match a with
  | ⟨0, _⟩ =>
    show win0_0.index t 0 * 400 + 1 * r.val = 400 * t.val + r.val
    rw [(sumtile_idx0 t).1]; omega
  | ⟨1, _⟩ =>
    show win0_0.index t 1 * 100 + 1 * j.val = j.val
    rw [(sumtile_idx0 t).2]; omega

/-- Channel 1 of the points. -/
theorem sumtile_blk1 (c : Dev nD) (t : Fin cfg0.N) (r : Fin 400) (j : Fin 100) :
    (iblk0 V c 1 t : S400x100.Idx → EReal) (ix2 r j) = (V c main_arg1 : S40000x100.Idx → EReal) (ix2 (trow0 t r) j) := by
  unfold iblk0
  rw [View.read_apply]
  show (V c main_arg1 : S40000x100.Idx → EReal) _ = _
  congr 1
  funext a
  apply Fin.ext
  match a with
  | ⟨0, _⟩ =>
    show win0_1.index t 0 * 400 + 1 * r.val = 400 * t.val + r.val
    rw [(sumtile_idx1 t).1]; omega
  | ⟨1, _⟩ =>
    show win0_1.index t 1 * 100 + 1 * j.val = j.val
    rw [(sumtile_idx1 t).2]; omega

/-- Channel 2 of the points. -/
theorem sumtile_blk2 (c : Dev nD) (t : Fin cfg0.N) (r : Fin 400) (j : Fin 100) :
    (iblk0 V c 2 t : S400x100.Idx → EReal) (ix2 r j) = (V c main_arg2 : S40000x100.Idx → EReal) (ix2 (trow0 t r) j) := by
  unfold iblk0
  rw [View.read_apply]
  show (V c main_arg2 : S40000x100.Idx → EReal) _ = _
  congr 1
  funext a
  apply Fin.ext
  match a with
  | ⟨0, _⟩ =>
    show win0_2.index t 0 * 400 + 1 * r.val = 400 * t.val + r.val
    rw [(sumtile_idx2 t).1]; omega
  | ⟨1, _⟩ =>
    show win0_2.index t 1 * 100 + 1 * j.val = j.val
    rw [(sumtile_idx2 t).2]; omega

/-- Channel 3 of the points. -/
theorem sumtile_blk3 (c : Dev nD) (t : Fin cfg0.N) (r : Fin 400) (j : Fin 100) :
    (iblk0 V c 3 t : S400x100.Idx → EReal) (ix2 r j) = (V c main_arg3 : S40000x100.Idx → EReal) (ix2 (trow0 t r) j) := by
  unfold iblk0
  rw [View.read_apply]
  show (V c main_arg3 : S40000x100.Idx → EReal) _ = _
  congr 1
  funext a
  apply Fin.ext
  match a with
  | ⟨0, _⟩ =>
    show win0_3.index t 0 * 400 + 1 * r.val = 400 * t.val + r.val
    rw [(sumtile_idx3 t).1]; omega
  | ⟨1, _⟩ =>
    show win0_3.index t 1 * 100 + 1 * j.val = j.val
    rw [(sumtile_idx3 t).2]; omega

/-- The point counts, a column. -/
theorem sumtile_blk4 (c : Dev nD) (t : Fin cfg0.N) (r : Fin 400) :
    (iblk0 V c 4 t : S400x1.Idx → BitVec 32) (ix2 r (0 : Fin 1))
      = (V c main_v0 : S40000x1.Idx → BitVec 32) (ix2 (trow0 t r) (0 : Fin 1)) := by
  unfold iblk0
  rw [View.read_apply]
  show (V c main_v0 : S40000x1.Idx → BitVec 32) _ = _
  congr 1
  funext a
  apply Fin.ext
  match a with
  | ⟨0, _⟩ =>
    show win0_4.index t 0 * 400 + 1 * r.val = 400 * t.val + r.val
    rw [(sumtile_idx4 t).1]; omega
  | ⟨1, _⟩ =>
    show win0_4.index t 1 * 1 + 1 * (0 : Fin 1).val = (0 : Fin 1).val
    rw [(sumtile_idx4 t).2]; rfl

/-- The cell indices. -/
theorem sumtile_blk5 (c : Dev nD) (t : Fin cfg0.N) (r : Fin 400) (k : Fin 4) :
    (iblk0 V c 5 t : S400x4.Idx → BitVec 32) (ix2 r k) = (V c main_arg5 : S40000x4.Idx → BitVec 32) (ix2 (trow0 t r) k) := by
  unfold iblk0
  rw [View.read_apply]
  show (V c main_arg5 : S40000x4.Idx → BitVec 32) _ = _
  congr 1
  funext a
  apply Fin.ext
  match a with
  | ⟨0, _⟩ =>
    show win0_5.index t 0 * 400 + 1 * r.val = 400 * t.val + r.val
    rw [(sumtile_idx5 t).1]; omega
  | ⟨1, _⟩ =>
    show win0_5.index t 1 * 4 + 1 * k.val = k.val
    rw [(sumtile_idx5 t).2]; omega

/-- The weight: its one block is the whole array. -/
theorem sumtile_blk6 (c : Dev nD) (t : Fin cfg0.N) (k : Fin 9) (d : Fin 64) :
    (iblk0 V c 6 t : S9x64.Idx → EReal) (ix2 k d) = (V c main_arg6 : S9x64.Idx → EReal) (ix2 k d) := by
  unfold iblk0
  rw [View.read_apply]
  show (V c main_arg6 : S9x64.Idx → EReal) _ = _
  congr 1
  funext a
  apply Fin.ext
  match a with
  | ⟨0, _⟩ =>
    show win0_6.index t 0 * 9 + 1 * k.val = k.val
    rw [(sumtile_idx6 t).1]; omega
  | ⟨1, _⟩ =>
    show win0_6.index t 1 * 64 + 1 * d.val = d.val
    rw [(sumtile_idx6 t).2]; omega

/-! ## A block's layer values are the array's at the block's rows -/

/-- The layer's value depends on its row's data and on the weight: equal rows and equal weights, equal values. -/
theorem sumtile_X_congr {R R' : Nat} (x0 x1 x2 x3 : Fin R → Fin 100 → EReal) (n : Fin R → BitVec 32)
    (co : Fin R → Fin 4 → BitVec 32) (x0' x1' x2' x3' : Fin R' → Fin 100 → EReal) (n' : Fin R' → BitVec 32)
    (co' : Fin R' → Fin 4 → BitVec 32) (w w' : Fin 9 → Fin 64 → EReal) (p : Fin R) (p' : Fin R')
    (h0 : ∀ j, x0 p j = x0' p' j) (h1 : ∀ j, x1 p j = x1' p' j) (h2 : ∀ j, x2 p j = x2' p' j)
    (h3 : ∀ j, x3 p j = x3' p' j) (hn : n p = n' p') (hco : ∀ k, co p k = co' p' k) (hw : ∀ k d, w k d = w' k d)
    (j : Fin 100) (d : Fin 64) : X x0 x1 x2 x3 n co w p j d = X x0' x1' x2' x3' n' co' w' p' j d := by
  have e : w = w' := funext fun k => funext fun d => hw k d
  subst e
  exact X_congr_row x0 x1 x2 x3 n co x0' x1' x2' x3' n' co' w p p' h0 h1 h2 h3 hn hco j d

/-- Row `r`, point `j`, channel `d` of block `t`'s layer values is the array's layer value at row `400 t + r`. -/
theorem sumtile_X0_at (c : Dev nD) (t : Fin cfg0.N) (r : Fin 400) (j : Fin 100) (d : Fin 64) :
    (Blk.X0 (iblk0 V c 0 t) (iblk0 V c 1 t) (iblk0 V c 2 t) (iblk0 V c 3 t) (iblk0 V c 4 t) (iblk0 V c 5 t)
        (iblk0 V c 6 t) : S400x100x64.Idx → EReal) (ix3 r j d) = Xof V c (trow0 t r) j d := by
  refine (Blk.X0_apply (iblk0 V c 0 t) (iblk0 V c 1 t) (iblk0 V c 2 t) (iblk0 V c 3 t) (iblk0 V c 4 t) (iblk0 V c 5 t)
    (iblk0 V c 6 t) r j d).trans ?_
  unfold Xof
  exact sumtile_X_congr _ _ _ _ _ _ _ _ _ _ _ _ _ _ r (trow0 t r) (fun j => sumtile_blk0 V c t r j) (fun j => sumtile_blk1 V c t r j)
    (fun j => sumtile_blk2 V c t r j) (fun j => sumtile_blk3 V c t r j) (sumtile_blk4 V c t r) (fun k => sumtile_blk5 V c t r k)
    (fun k d => sumtile_blk6 V c t k d) j d

/-! ## The hundred blocks are all the rows -/

/-- A total over the blocks' rows, block by block, is the total over all rows. -/
theorem sumtile_blocks (f : Fin 40000 → EReal) : ∑ t : Fin cfg0.N, ∑ r : Fin 400, f (trow0 t r) = ∑ p : Fin 40000, f p := by
  rw [← sum_tiles f]
  exact (finCongr N_0).sum_comp (fun t' : Fin 100 => ∑ r : Fin 400, f (tileRow t' r))

/-- The blocks' totals of the layer's values add up to the total over every row and point. -/
theorem sum_tile1 (c : Dev nD) (d : Fin 64) : ∑ t : Fin cfg0.N, tile1 V c t d = S1 (Xof V c) d := by
  have h : ∀ t : Fin cfg0.N, tile1 V c t d = ∑ r : Fin 400, ∑ j : Fin 100, Xof V c (trow0 t r) j d := fun t => by
    unfold tile1
    exact Finset.sum_congr rfl fun r _ => Finset.sum_congr rfl fun j _ => sumtile_X0_at V c t r j d
  rw [Finset.sum_congr rfl fun t _ => h t]
  exact sumtile_blocks (fun p => ∑ j : Fin 100, Xof V c p j d)

/-- The blocks' totals of squares add up to the total of squares over every row and point. -/
theorem sum_tile2 (c : Dev nD) (d : Fin 64) : ∑ t : Fin cfg0.N, tile2 V c t d = S2 (Xof V c) d := by
  have h : ∀ t : Fin cfg0.N, tile2 V c t d
      = ∑ r : Fin 400, ∑ j : Fin 100, Xof V c (trow0 t r) j d * Xof V c (trow0 t r) j d := fun t => by
    unfold tile2
    exact Finset.sum_congr rfl fun r _ => Finset.sum_congr rfl fun j _ => by rw [sumtile_X0_at V c t r j d]
  rw [Finset.sum_congr rfl fun t _ => h t]
  exact sumtile_blocks (fun p => ∑ j : Fin 100, Xof V c p j d * Xof V c p j d)

end Cert.KernelIdeal.R0

end
-- ==== Proof.KRegion0.lean ====
/-
  What the statistics kernel's region leaves in its two result arrays: the per-channel sums of the layer's values and of
  their squares over every row and point.
-/
import proofs.«173197_j214748364885_1_alg».proof.Proof.KRegion0Acc
import proofs.«173197_j214748364885_1_alg».proof.Proof.KRegion0Sum

set_option maxRecDepth 16384

noncomputable section

namespace Cert.KernelIdeal.R0

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.KV Cert.Pillar

variable (V : (c : Dev nD) → (b : Ref sig .tc) → Buf (Elt Ideal) ((c : Thread nD τ).loc b))

/-- An index of a `[1, 64]` array is `(0, d)`. -/
theorem idx_1x64 (i : S1x64.Idx) : i = ix2 (0 : Fin 1) (i 1) := by
  funext a
  match a with
  | ⟨0, _⟩ => exact Fin.ext (by have h : (i 0).val < 1 := (i 0).isLt; show (i 0).val = 0; omega)
  | ⟨1, _⟩ => rfl

/-- After the region, its first result array holds, at channel `d`, the sum of the layer's values over every row and point. -/
theorem arr7 (c : Dev nD) :
    ((dat0 (F := Ideal) V c).arrAt 7 cfg0.N : S1x64.Idx → EReal) = fun i => S1 (Xof V c) (i 1) := by
  funext i
  rw [idx_1x64 i]
  exact (arr7_sum V c (i 1)).trans (sum_tile1 V c (i 1))

/-- … and its second the sum of their squares. -/
theorem arr8 (c : Dev nD) :
    ((dat0 (F := Ideal) V c).arrAt 8 cfg0.N : S1x64.Idx → EReal) = fun i => S2 (Xof V c) (i 1) := by
  funext i
  rw [idx_1x64 i]
  exact (arr8_sum V c (i 1)).trans (sum_tile2 V c (i 1))

end Cert.KernelIdeal.R0

end
-- ==== Proof.KPay1.lean ====
/-
  The output kernel's arithmetic read at an index, over the extended reals.
-/
import proofs.«173197_j214748364885_1_alg».proof.Proof.KBlocks
import proofs.«173197_j214748364885_1_alg».proof.Proof.Spec
import proofs.«173197_j214748364885_1_alg».proof.Proof.LibKeepdims
import proofs.«173197_j214748364885_1_alg».proof.Proof.LibColumns
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Blk

open Idealize.ShloMosaic Idealize.ShloMosaic.ValueIdx Cert.KernelIdeal Cert.KernelIdeal.Gen Cert.Pillar

namespace K1

/-! ## Layout operations at coordinates -/

section Layout
variable {α : Type}

/-- An `[a, b]` array cast to `[a, b, 1]` reads, at `(i, j, u)`, the operand at `(i, j)`. -/
theorem cast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- A `[c]` array cast to `[1, 1, c]` reads, at `(u, v, d)`, the operand at `d`. -/
theorem cast_c_11c_apply {c : ℕ} (x : (⟨1, ![c]⟩ : Shape).Idx → α)
    (h : (⟨1, ![c]⟩ : Shape).ShapeCasts ⟨3, ![1, 1, c]⟩) (u v : Fin 1) (d : Fin c) :
    shapeCast ⟨3, ![1, 1, c]⟩ x h (ix3 u v d) = x (ix1 d) :=
  shapeCast_apply x h _ _ (by
    have hu : u.val = 0 := by omega
    have hv : v.val = 0 := by omega
    rw [Shape.rowMajor_val_three, Shape.rowMajor_val_one]
    show d.val = (u.val * 1 + v.val) * c + d.val
    simp only [hu, hv, Nat.zero_mul, Nat.zero_add])

/-- A `[1, c]` array cast to `[1, 1, c]` reads, at `(u, v, d)`, the operand at `(0, d)`. -/
theorem cast_1c_11c_apply {c : ℕ} (x : (⟨2, ![1, c]⟩ : Shape).Idx → α)
    (h : (⟨2, ![1, c]⟩ : Shape).ShapeCasts ⟨3, ![1, 1, c]⟩) (u v : Fin 1) (d : Fin c) :
    shapeCast ⟨3, ![1, 1, c]⟩ x h (ix3 u v d) = x (ix2 (0 : Fin 1) d) :=
  shapeCast_apply x h _ _ (by
    have hu : u.val = 0 := by omega
    have hv : v.val = 0 := by omega
    rw [Shape.rowMajor_val_three, Shape.rowMajor_val_two]
    show 0 * c + d.val = (u.val * 1 + v.val) * c + d.val
    simp only [hu, hv, Nat.zero_mul, Nat.zero_add])

/-- An `[a, b, 1]` array broadcast to `[a, b, c]` reads, at `(i, j, d)`, the operand at `(i, j, 0)`. -/
theorem bcast_ab1_abc_apply {a b c : ℕ} (x : (⟨3, ![a, b, 1]⟩ : Shape).Idx → α)
    (h : (⟨3, ![a, b, 1]⟩ : Shape).Broadcasts ⟨3, ![a, b, c]⟩) (i : Fin a) (j : Fin b) (d : Fin c) :
    broadcastTo ⟨3, ![a, b, c]⟩ x h (ix3 i j d) = x (ix3 i j (0 : Fin 1)) := by
  refine broadcastTo_apply x h (ix3 i j d) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- A `[1, 1, c]` array broadcast to `[a, b, c]` reads, at `(i, j, d)`, the operand at `(0, 0, d)`. -/
theorem bcast_11c_abc_apply {a b c : ℕ} (x : (⟨3, ![1, 1, c]⟩ : Shape).Idx → α)
    (h : (⟨3, ![1, 1, c]⟩ : Shape).Broadcasts ⟨3, ![a, b, c]⟩) (i : Fin a) (j : Fin b) (d : Fin c) :
    broadcastTo ⟨3, ![a, b, c]⟩ x h (ix3 i j d) = x (ix3 (0 : Fin 1) (0 : Fin 1) d) := by
  refine broadcastTo_apply x h (ix3 i j d) (ix3 (0 : Fin 1) (0 : Fin 1) d) fun ax => ?_
  match ax with
  | ⟨0, _⟩ => rfl
  | ⟨1, _⟩ => rfl
  | ⟨2, _⟩ =>
    show d.val = if c = 1 then 0 else d.val
    split
    · have := d.isLt; omega
    · rfl

end Layout

/-! ## The row sum and the small blocks -/

/-- A sum along the points of a `[400, 100]` block, at row `r`. -/
theorem rowsum_apply (x : FVec Ideal S400x100 .f32) (hφ : FKind.Formats .f32)
    (hacc : (0x00000000#32 : BitVec 32) = FKind.add.neutral .f32 hφ) (r : Fin 400) :
    multiReduction (F := Ideal) .add [1] S400 x 0x00000000#32 reduces_S400x100_S400 hφ hacc (ix1 r)
      = ∑ k : Fin 100, x (ix2 r k) := by
  refine (Ideal.multiReduction_add_single x 0x00000000#32 reduces_S400x100_S400 hφ hacc (ix1 r)).trans ?_
  refine Finset.sum_congr rfl fun k _ => congrArg x ?_
  funext a
  match a with
  | ⟨0, _⟩ => rfl
  | ⟨1, _⟩ => rfl

/-- The counts block is the loaded column. -/
theorem pay2_eq (v4 : Vec Ideal S400x1 .i32) : k1_pay2 (F := Ideal) v4 = v4 := by
  unfold k1_pay2
  exact shapeCast_self _ _

/-- The clamped count of row `r` as a float. -/
theorem pay3_apply (v4 : Vec Ideal S400x1 .i32) (r : Fin 400) :
    k1_pay3 (F := Ideal) v4 (ix2 r (0 : Fin 1)) = cnt (col (v4 : S400x1.Idx → BitVec 32)) r := by
  unfold k1_pay3
  show FloatOps.sitofp (F := Ideal) .f32 (IntOp.maxsi (k1_pay2 (F := Ideal) v4 (ix2 r (0 : Fin 1))) 1#32) = _
  rw [pay2_eq]
  rfl

/-- A channel less its row mean, at `(r, j)`. -/
theorem centred_apply (x : Vec Ideal S400x100 .f32) (v4 : Vec Ideal S400x1 .i32) (hφ : FKind.Formats .f32)
    (hacc : (0x00000000#32 : BitVec 32) = FKind.add.neutral .f32 hφ) (r : Fin 400) (j : Fin 100) :
    subf (F := Ideal) x (broadcastTo S400x100
        (divf (shapeCast S400x1 (multiReduction (F := Ideal) .add [1] S400 x 0x00000000#32 reduces_S400x100_S400 hφ hacc)
          shapeCasts_S400_S400x1) (k1_pay3 v4)) broadcasts_S400x1_S400x100) (ix2 r j)
      = (x : S400x100.Idx → EReal) (ix2 r j)
          - mean (cur2 (x : S400x100.Idx → EReal)) (col (v4 : S400x1.Idx → BitVec 32)) r := by
  show (x : S400x100.Idx → EReal) (ix2 r j) - broadcastTo S400x100 _ broadcasts_S400x1_S400x100 (ix2 r j) = _
  refine congrArg (fun t => (x : S400x100.Idx → EReal) (ix2 r j) - t) ?_
  refine (broadcastTo_a1_ab_apply _ broadcasts_S400x1_S400x100 r j).trans ?_
  show Ideal.div (shapeCast S400x1 _ shapeCasts_S400_S400x1 (ix2 r (0 : Fin 1))) (k1_pay3 (F := Ideal) v4 (ix2 r (0 : Fin 1))) = _
  rw [pay3_apply]
  unfold mean
  refine congrArg (fun t => Ideal.div t _) ?_
  refine (shapeCast_a_a1_apply _ shapeCasts_S400_S400x1 r 0).trans ?_
  exact rowsum_apply x hφ hacc r

theorem pay4_apply (v0 : Vec Ideal S400x100 .f32) (v4 : Vec Ideal S400x1 .i32) (r : Fin 400) (j : Fin 100) :
    k1_pay4 (F := Ideal) v0 v4 (ix2 r j)
      = (v0 : S400x100.Idx → EReal) (ix2 r j)
          - mean (cur2 (v0 : S400x100.Idx → EReal)) (col (v4 : S400x1.Idx → BitVec 32)) r := by
  unfold k1_pay4
  exact centred_apply v0 v4 _ _ r j

theorem pay5_apply (v1 : Vec Ideal S400x100 .f32) (v4 : Vec Ideal S400x1 .i32) (r : Fin 400) (j : Fin 100) :
    k1_pay5 (F := Ideal) v1 v4 (ix2 r j)
      = (v1 : S400x100.Idx → EReal) (ix2 r j)
          - mean (cur2 (v1 : S400x100.Idx → EReal)) (col (v4 : S400x1.Idx → BitVec 32)) r := by
  unfold k1_pay5
  exact centred_apply v1 v4 _ _ r j

theorem pay6_apply (v2 : Vec Ideal S400x100 .f32) (v4 : Vec Ideal S400x1 .i32) (r : Fin 400) (j : Fin 100) :
    k1_pay6 (F := Ideal) v2 v4 (ix2 r j)
      = (v2 : S400x100.Idx → EReal) (ix2 r j)
          - mean (cur2 (v2 : S400x100.Idx → EReal)) (col (v4 : S400x1.Idx → BitVec 32)) r := by
  unfold k1_pay6
  exact centred_apply v2 v4 _ _ r j

/-! ## The cell centres and the mask -/

/-- The y cell index of row `r` as a float. -/
theorem pay7_apply (v6 : Vec Ideal S400x4 .i32) (r : Fin 400) :
    k1_pay7 (F := Ideal) v6 (ix2 r (0 : Fin 1))
      = FloatOps.sitofp (F := Ideal) .f32 (cur2 (v6 : S400x4.Idx → BitVec 32) r 2) := by
  unfold k1_pay7
  show FloatOps.sitofp (F := Ideal) .f32 (extractStridedSlice S400x1 ![0, 2] v6 slices_S400x4_o0_2_S400x1 (ix2 r (0 : Fin 1))) = _
  refine congrArg (FloatOps.sitofp (F := Ideal) .f32) ?_
  exact Cert.Columns.slice_col_apply 2 v6 slices_S400x4_o0_2_S400x1 r 0 2 rfl

/-- The x cell centre of row `r`, at every point. -/
theorem pay8_apply (v6 : Vec Ideal S400x4 .i32) (r : Fin 400) (j : Fin 100) :
    k1_pay8 (F := Ideal) v6 (ix2 r j) = bevx (cur2 (v6 : S400x4.Idx → BitVec 32)) r := by
  unfold k1_pay8
  refine (broadcastTo_a1_ab_apply _ broadcasts_S400x1_S400x100 r j).trans ?_
  rw [shapeCast_self]
  show (FloatOps.sitofp (F := Ideal) .f32 (extractStridedSlice S400x1 ![0, 3] v6 slices_S400x4_o0_3_S400x1 (ix2 r (0 : Fin 1)))
      * c016 + c008) + c000 = _
  rw [Cert.Columns.slice_col_apply 3 v6 slices_S400x4_o0_3_S400x1 r 0 3 rfl]
  rfl

/-- The y cell centre of row `r`, at every point, from the y cell index as a float. -/
theorem pay9_apply (v29 : FVec Ideal S400x1 .f32) (r : Fin 400) (j : Fin 100) :
    k1_pay9 (F := Ideal) v29 (ix2 r j) = (v29 (ix2 r (0 : Fin 1)) * c016 + c008) + cm3968 := by
  unfold k1_pay9
  refine (broadcastTo_a1_ab_apply _ broadcasts_S400x1_S400x100 r j).trans ?_
  rw [shapeCast_self]
  rfl

theorem pay9_pay7_apply (v6 : Vec Ideal S400x4 .i32) (r : Fin 400) (j : Fin 100) :
    k1_pay9 (F := Ideal) (k1_pay7 v6) (ix2 r j) = bevy (cur2 (v6 : S400x4.Idx → BitVec 32)) r := by
  rw [pay9_apply, pay7_apply]
  rfl

/-- The validity mask of point `j` of row `r`. -/
theorem pay10_apply (v5 : IVec S400x1 32) (r : Fin 400) (j : Fin 100) :
    k1_pay10 (F := Ideal) v5 (ix2 r j) = mask (col v5) r j := by
  unfold k1_pay10
  show FloatOps.sitofp (F := Ideal) .f32
      ((IntOp.cmpi .slt (iota .tc S400x100 32 [1] iota_S400x100_d1_w32 (ix2 r j))
        (broadcastTo S400x100 v5 broadcasts_S400x1_S400x100 (ix2 r j))).setWidth 32) = _
  rw [iota_single_apply, broadcastTo_a1_ab_apply]
  rfl

/-! ## One term of the chain -/

/-- Row `k` of the weight as a `[1, 1, 64]` block, at channel `d`. -/
theorem wrow_apply (v7 : Vec Ideal S9x64 .f32) (k : Nat) (kk : Fin 9) (hk : kk.val = k)
    (hs : S9x64.Slices ![k, 0] S1x64) (u v : Fin 1) (d : Fin 64) :
    shapeCast S1x1x64 (shapeCast S64 (extractStridedSlice S1x64 ![k, 0] v7 hs) shapeCasts_S1x64_S64) shapeCasts_S64_S1x1x64
        (ix3 u v d)
      = (v7 : S9x64.Idx → EReal) (ix2 kk d) := by
  refine (cast_c_11c_apply _ shapeCasts_S64_S1x1x64 u v d).trans ?_
  refine (shapeCast_1a_a_apply _ shapeCasts_S1x64_S64 d).trans ?_
  exact slice2_axis0_apply k v7 hs (0 : Fin 1) d kk (by rw [hk]; rfl)

/-- A masked feature against row `k` of the weight, at `(r, j, d)`. -/
theorem term_apply (f : FVec Ideal S400x100 .f32) (v7 : Vec Ideal S9x64 .f32) (k : Nat) (kk : Fin 9) (hk : kk.val = k)
    (hs : S9x64.Slices ![k, 0] S1x64) (r : Fin 400) (j : Fin 100) (d : Fin 64) :
    mulf (F := Ideal) (broadcastTo S400x100x64 (shapeCast S400x100x1 f shapeCasts_S400x100_S400x100x1) broadcasts_S400x100x1_S400x100x64)
        (broadcastTo S400x100x64
          (shapeCast S1x1x64 (shapeCast S64 (extractStridedSlice S1x64 ![k, 0] v7 hs) shapeCasts_S1x64_S64) shapeCasts_S64_S1x1x64)
          broadcasts_S1x1x64_S400x100x64) (ix3 r j d)
      = f (ix2 r j) * (v7 : S9x64.Idx → EReal) (ix2 kk d) := by
  show broadcastTo S400x100x64 (shapeCast S400x100x1 f shapeCasts_S400x100_S400x100x1) broadcasts_S400x100x1_S400x100x64 (ix3 r j d)
      * broadcastTo S400x100x64 _ broadcasts_S1x1x64_S400x100x64 (ix3 r j d) = _
  rw [bcast_ab1_abc_apply, cast_ab_ab1_apply, bcast_11c_abc_apply, wrow_apply v7 k kk hk hs]

/-! ## The chain of nine terms -/

/-- The first four terms from zero: the raw channels. -/
theorem pay11_apply (v0 v1 v2 v3 : Vec Ideal S400x100 .f32) (v5 : IVec S400x1 32) (v7 : Vec Ideal S9x64 .f32)
    (r : Fin 400) (j : Fin 100) (d : Fin 64) :
    k1_pay11 (F := Ideal) v0 v1 v2 v3 v5 v7 (ix3 r j d)
      = ((((0 + ((v0 : S400x100.Idx → EReal) (ix2 r j) * k1_pay10 (F := Ideal) v5 (ix2 r j)) * (v7 : S9x64.Idx → EReal) (ix2 0 d))
          + ((v1 : S400x100.Idx → EReal) (ix2 r j) * k1_pay10 (F := Ideal) v5 (ix2 r j)) * (v7 : S9x64.Idx → EReal) (ix2 1 d))
          + ((v2 : S400x100.Idx → EReal) (ix2 r j) * k1_pay10 (F := Ideal) v5 (ix2 r j)) * (v7 : S9x64.Idx → EReal) (ix2 2 d))
          + ((v3 : S400x100.Idx → EReal) (ix2 r j) * k1_pay10 (F := Ideal) v5 (ix2 r j)) * (v7 : S9x64.Idx → EReal) (ix2 3 d)) := by
  unfold k1_pay11
  refine (addf_apply _ _ _).trans (congrArg₂ (· + ·) ?_ (term_apply _ v7 3 3 rfl _ r j d))
  refine (addf_apply _ _ _).trans (congrArg₂ (· + ·) ?_ (term_apply _ v7 2 2 rfl _ r j d))
  refine (addf_apply _ _ _).trans (congrArg₂ (· + ·) ?_ (term_apply _ v7 1 1 rfl _ r j d))
  refine (addf_apply _ _ _).trans (congrArg₂ (· + ·) ?_ (term_apply _ v7 0 0 rfl _ r j d))
  exact Ideal.ofBits_zero_f32

/-- Row 4 of the weight as a `[1, 1, 64]` block. -/
theorem pay12_apply (v7 : Vec Ideal S9x64 .f32) (u v : Fin 1) (d : Fin 64) :
    k1_pay12 (F := Ideal) v7 (ix3 u v d) = (v7 : S9x64.Idx → EReal) (ix2 4 d) := by
  unfold k1_pay12
  exact wrow_apply v7 4 4 rfl _ u v d

/-- The fifth feature, masked, along the channels. -/
theorem pay13_apply (v5 : IVec S400x1 32) (v21 : FVec Ideal S400x100 .f32) (r : Fin 400) (j : Fin 100) (d : Fin 64) :
    k1_pay13 (F := Ideal) v5 v21 (ix3 r j d) = v21 (ix2 r j) * k1_pay10 (F := Ideal) v5 (ix2 r j) := by
  unfold k1_pay13
  rw [bcast_ab1_abc_apply, cast_ab_ab1_apply]
  rfl

/-- The last five terms on top of the first four. -/
theorem pay14_apply (v7 : Vec Ideal S9x64 .f32) (v23 v25 v37 v45 v50 : FVec Ideal S400x100 .f32)
    (v87 : FVec Ideal S400x100x64 .f32) (v92 : FVec Ideal S1x1x64 .f32) (v93 : FVec Ideal S400x100x64 .f32)
    (r : Fin 400) (j : Fin 100) (d : Fin 64) :
    k1_pay14 (F := Ideal) v7 v23 v25 v37 v45 v50 v87 v92 v93 (ix3 r j d)
      = (((((v87 (ix3 r j d) + v93 (ix3 r j d) * v92 (ix3 (0 : Fin 1) (0 : Fin 1) d))
          + (v23 (ix2 r j) * v50 (ix2 r j)) * (v7 : S9x64.Idx → EReal) (ix2 5 d))
          + (v25 (ix2 r j) * v50 (ix2 r j)) * (v7 : S9x64.Idx → EReal) (ix2 6 d))
          + (v37 (ix2 r j) * v50 (ix2 r j)) * (v7 : S9x64.Idx → EReal) (ix2 7 d))
          + (v45 (ix2 r j) * v50 (ix2 r j)) * (v7 : S9x64.Idx → EReal) (ix2 8 d)) := by
  unfold k1_pay14
  refine (addf_apply _ _ _).trans (congrArg₂ (· + ·) ?_ (term_apply _ v7 8 8 rfl _ r j d))
  refine (addf_apply _ _ _).trans (congrArg₂ (· + ·) ?_ (term_apply _ v7 7 7 rfl _ r j d))
  refine (addf_apply _ _ _).trans (congrArg₂ (· + ·) ?_ (term_apply _ v7 6 6 rfl _ r j d))
  refine (addf_apply _ _ _).trans (congrArg₂ (· + ·) ?_ (term_apply _ v7 5 5 rfl _ r j d))
  refine (addf_apply _ _ _).trans (congrArg₂ (· + ·) rfl ?_)
  refine (mulf_apply _ _ _).trans (congrArg₂ (· * ·) rfl ?_)
  exact bcast_11c_abc_apply _ _ r j d

/-! ## The layer's values -/

/-- The specification's nine-term sum written out from zero, left to right. -/
theorem X_expand {R : Nat} (x0 x1 x2 x3 : Fin R → Fin 100 → EReal) (n : Fin R → BitVec 32) (co : Fin R → Fin 4 → BitVec 32)
    (w : Fin 9 → Fin 64 → EReal) (p : Fin R) (j : Fin 100) (d : Fin 64) :
    X x0 x1 x2 x3 n co w p j d
      = (((((((((0 + (x0 p j * mask n p j) * w 0 d) + (x1 p j * mask n p j) * w 1 d) + (x2 p j * mask n p j) * w 2 d)
          + (x3 p j * mask n p j) * w 3 d) + ((x0 p j - mean x0 n p) * mask n p j) * w 4 d)
          + ((x1 p j - mean x1 n p) * mask n p j) * w 5 d) + ((x2 p j - mean x2 n p) * mask n p j) * w 6 d)
          + (bevx co p * mask n p j) * w 7 d) + (bevy co p * mask n p j) * w 8 d) := by
  unfold X
  simp only [Fin.sum_univ_castSucc, Fin.sum_univ_zero]
  rfl

/-! ## Normalisation and the maximum over the points -/

/-- A maximum along the points of a `[400, 100, 64]` block from −∞, at `(r, d)`. -/
theorem rowmax_apply (x : FVec Ideal S400x100x64 .f32) (hφ : FKind.Formats .f32)
    (hacc : (0xFF800000#32 : BitVec 32) = FKind.maximumf.neutral .f32 hφ) (r : Fin 400) (d : Fin 64) :
    multiReduction (F := Ideal) .maximumf [1] S400x64 x 0xFF800000#32 reduces_S400x100x64_S400x64 hφ hacc (ix2 r d)
      = (Finset.univ : Finset (Fin 100)).fold max cninf (fun j => x (ix3 r j d)) := by
  refine (Ideal.multiReduction_maximumf_single x 0xFF800000#32 reduces_S400x100x64_S400x64 hφ hacc (ix2 r d)).trans ?_
  refine congrArg (fun f : Fin 100 → EReal => Finset.fold max cninf f Finset.univ) (funext fun k => congrArg x ?_)
  funext a
  match a with
  | ⟨0, _⟩ => rfl
  | ⟨1, _⟩ => rfl
  | ⟨2, _⟩ => rfl

/-- A `[1, 64]` block recast to `[1, 1, 64]`, at channel `d`. -/
theorem pay15_apply (v : Vec Ideal S1x64 .f32) (u w : Fin 1) (d : Fin 64) :
    k1_pay15 (F := Ideal) v (ix3 u w d) = row (v : S1x64.Idx → EReal) d := by
  unfold k1_pay15
  rw [shapeCast_self]
  exact cast_1c_11c_apply _ _ u w d

theorem pay16_apply (v : Vec Ideal S1x64 .f32) (u w : Fin 1) (d : Fin 64) :
    k1_pay16 (F := Ideal) v (ix3 u w d) = row (v : S1x64.Idx → EReal) d := by
  unfold k1_pay16
  rw [shapeCast_self]
  exact cast_1c_11c_apply _ _ u w d

theorem pay17_apply (v : Vec Ideal S1x64 .f32) (u w : Fin 1) (d : Fin 64) :
    k1_pay17 (F := Ideal) v (ix3 u w d) = row (v : S1x64.Idx → EReal) d := by
  unfold k1_pay17
  rw [shapeCast_self]
  exact cast_1c_11c_apply _ _ u w d

theorem pay18_apply (v : Vec Ideal S1x64 .f32) (u w : Fin 1) (d : Fin 64) :
    k1_pay18 (F := Ideal) v (ix3 u w d) = row (v : S1x64.Idx → EReal) d := by
  unfold k1_pay18
  rw [shapeCast_self]
  exact cast_1c_11c_apply _ _ u w d

/-- Normalise, scale, shift, rectify, and the maximum over the points, at `(r, d)`. -/
theorem pay1_apply (v132 : FVec Ideal S400x100x64 .f32) (v135 v138 v141 v144 : FVec Ideal S1x1x64 .f32)
    (r : Fin 400) (d : Fin 64) :
    k1_pay1 (F := Ideal) v132 v135 v138 v141 v144 (Scalar.ofBits .f32 0x3727C5AC#32) (ix2 r d)
      = (Finset.univ : Finset (Fin 100)).fold max cninf (fun j =>
          act (v132 (ix3 r j d)) (v135 (ix3 (0 : Fin 1) (0 : Fin 1) d)) (v138 (ix3 (0 : Fin 1) (0 : Fin 1) d))
            (v141 (ix3 (0 : Fin 1) (0 : Fin 1) d)) (v144 (ix3 (0 : Fin 1) (0 : Fin 1) d))) := by
  unfold k1_pay1
  refine (rowmax_apply _ _ _ r d).trans ?_
  refine congrArg (fun f : Fin 100 → EReal => Finset.fold max cninf f Finset.univ) (funext fun j => ?_)
  show max (((v132 (ix3 r j d) - broadcastTo S400x100x64 v135 broadcasts_S1x1x64_S400x100x64 (ix3 r j d))
        * broadcastTo S400x100x64 (rsqrt (addf v138 (broadcast S1x1x64 (Scalar.ofBits (F := Ideal) .f32 0x3727C5AC#32))))
            broadcasts_S1x1x64_S400x100x64 (ix3 r j d))
        * broadcastTo S400x100x64 v141 broadcasts_S1x1x64_S400x100x64 (ix3 r j d)
        + broadcastTo S400x100x64 v144 broadcasts_S1x1x64_S400x100x64 (ix3 r j d)) c000 = _
  simp only [bcast_11c_abc_apply]
  rfl

end K1

open K1

/-- The output kernel's layer value at row `r`, point `j`, channel `d` of its block. -/
theorem X1_apply (x0 x1 x2 x3 : Vec Ideal S400x100 .f32) (x4 : Vec Ideal S400x1 .i32) (x5 : Vec Ideal S400x4 .i32)
    (x6 : Vec Ideal S9x64 .f32) (r : Fin 400) (j : Fin 100) (d : Fin 64) :
    X1 x0 x1 x2 x3 x4 x5 x6 (ix3 r j d)
      = X (cur2 (x0 : S400x100.Idx → EReal)) (cur2 (x1 : S400x100.Idx → EReal)) (cur2 (x2 : S400x100.Idx → EReal))
          (cur2 (x3 : S400x100.Idx → EReal)) (col (x4 : S400x1.Idx → BitVec 32)) (cur2 (x5 : S400x4.Idx → BitVec 32))
          (cur2 (x6 : S9x64.Idx → EReal)) r j d := by
  unfold X1
  rw [pay14_apply, pay11_apply, pay13_apply, pay12_apply, pay4_apply, pay5_apply, pay6_apply, pay8_apply, pay9_pay7_apply,
    pay10_apply, pay2_eq, X_expand]

/-- The stored block at row `r`, channel `d`: the maximum over the row's points, from −∞, of the normalised, scaled,
    shifted and rectified layer values. -/
theorem out1_apply (x0 x1 x2 x3 : Vec Ideal S400x100 .f32) (x4 : Vec Ideal S400x1 .i32) (x5 : Vec Ideal S400x4 .i32)
    (x6 : Vec Ideal S9x64 .f32) (x7 x8 x9 x10 : Vec Ideal S1x64 .f32) (r : Fin 400) (d : Fin 64) :
    (out1 x0 x1 x2 x3 x4 x5 x6 x7 x8 x9 x10 : S400x64.Idx → EReal) (ix2 r d)
      = (Finset.univ : Finset (Fin 100)).fold max cninf (fun j =>
          act ((X1 x0 x1 x2 x3 x4 x5 x6 : S400x100x64.Idx → EReal) (ix3 r j d))
            (row (x7 : S1x64.Idx → EReal) d) (row (x8 : S1x64.Idx → EReal) d) (row (x9 : S1x64.Idx → EReal) d)
            (row (x10 : S1x64.Idx → EReal) d)) := by
  unfold out1
  rw [pay1_apply, pay15_apply, pay16_apply, pay17_apply, pay18_apply]

end Cert.KernelIdeal.Blk

end
-- ==== Proof.KRegion1Blk.lean ====
/-
  The output kernel's stored block, entry by entry, in terms of the arrays the region is entered with: row `r` of the
  block at grid point `t` is row `400 t + r` of the array, the layer's value at a point depends on its row only, and the
  mean, variance, scale and shift windows are the whole `[1, 64]` arrays at every point.
-/
import proofs.«173197_j214748364885_1_alg».proof.Proof.Gen.KernelIdeal.Frame
import proofs.«173197_j214748364885_1_alg».proof.Proof.KCommon
import proofs.«173197_j214748364885_1_alg».proof.Proof.KBlocks
import proofs.«173197_j214748364885_1_alg».proof.Proof.KPay1
import proofs.«173197_j214748364885_1_alg».proof.Proof.Algebra
import Idealize.ShloMosaic.Lib.Pipeline.Value

set_option maxRecDepth 16384

noncomputable section

namespace Cert.KernelIdeal.R1

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.KV Cert.Pillar

variable (V : (c : Dev nD) → (b : Ref sig .tc) → Buf (Elt Ideal) ((c : Thread nD τ).loc b))

/-- Row `r` of the block at grid point `t` is row `400 t + r` of the array. -/
def trow1 (t : Fin cfg1.N) (r : Fin 400) : Fin 40000 :=
  ⟨400 * t.val + r.val, by have h : t.val < 100 := Nat.lt_of_lt_of_eq t.isLt N_1; have := r.isLt; omega⟩

/-- Window 0's block index at grid point `t` is `(t, 0)`. -/
theorem idx_facts0 : ∀ t : Fin grid1.N, win1_0.index t (0 : Fin 2) = t.val ∧ win1_0.index t (1 : Fin 2) = 0 := by decide +kernel

/-- Window 0's block at grid point `t`: its row `r` is row `400 t + r` of the `[40000, 100]` array. -/
theorem blk0_read (c : Dev nD) (t : Fin cfg1.N) (r : Fin 400) (j : Fin 100) :
    (iblk1 V c 0 t : S400x100.Idx → EReal) (ix2 r j) = (V c main_arg0 : S40000x100.Idx → EReal) (ix2 (trow1 t r) j) := by
  unfold iblk1
  rw [View.read_apply]
  show V c main_arg0 _ = V c main_arg0 _
  congr 1
  funext a
  apply Fin.ext
  match a with
  | ⟨0, _⟩ => show win1_0.index t 0 * 400 + 1 * r.val = 400 * t.val + r.val; rw [(idx_facts0 t).1]; omega
  | ⟨1, _⟩ => show win1_0.index t 1 * 100 + 1 * j.val = j.val; rw [(idx_facts0 t).2]; omega

/-- Window 1's block index at grid point `t` is `(t, 0)`. -/
theorem idx_facts1 : ∀ t : Fin grid1.N, win1_1.index t (0 : Fin 2) = t.val ∧ win1_1.index t (1 : Fin 2) = 0 := by decide +kernel

/-- Window 1's block at grid point `t`: its row `r` is row `400 t + r` of the `[40000, 100]` array. -/
theorem blk1_read (c : Dev nD) (t : Fin cfg1.N) (r : Fin 400) (j : Fin 100) :
    (iblk1 V c 1 t : S400x100.Idx → EReal) (ix2 r j) = (V c main_arg1 : S40000x100.Idx → EReal) (ix2 (trow1 t r) j) := by
  unfold iblk1
  rw [View.read_apply]
  show V c main_arg1 _ = V c main_arg1 _
  congr 1
  funext a
  apply Fin.ext
  match a with
  | ⟨0, _⟩ => show win1_1.index t 0 * 400 + 1 * r.val = 400 * t.val + r.val; rw [(idx_facts1 t).1]; omega
  | ⟨1, _⟩ => show win1_1.index t 1 * 100 + 1 * j.val = j.val; rw [(idx_facts1 t).2]; omega

/-- Window 2's block index at grid point `t` is `(t, 0)`. -/
theorem idx_facts2 : ∀ t : Fin grid1.N, win1_2.index t (0 : Fin 2) = t.val ∧ win1_2.index t (1 : Fin 2) = 0 := by decide +kernel

/-- Window 2's block at grid point `t`: its row `r` is row `400 t + r` of the `[40000, 100]` array. -/
theorem blk2_read (c : Dev nD) (t : Fin cfg1.N) (r : Fin 400) (j : Fin 100) :
    (iblk1 V c 2 t : S400x100.Idx → EReal) (ix2 r j) = (V c main_arg2 : S40000x100.Idx → EReal) (ix2 (trow1 t r) j) := by
  unfold iblk1
  rw [View.read_apply]
  show V c main_arg2 _ = V c main_arg2 _
  congr 1
  funext a
  apply Fin.ext
  match a with
  | ⟨0, _⟩ => show win1_2.index t 0 * 400 + 1 * r.val = 400 * t.val + r.val; rw [(idx_facts2 t).1]; omega
  | ⟨1, _⟩ => show win1_2.index t 1 * 100 + 1 * j.val = j.val; rw [(idx_facts2 t).2]; omega

/-- Window 3's block index at grid point `t` is `(t, 0)`. -/
theorem idx_facts3 : ∀ t : Fin grid1.N, win1_3.index t (0 : Fin 2) = t.val ∧ win1_3.index t (1 : Fin 2) = 0 := by decide +kernel

/-- Window 3's block at grid point `t`: its row `r` is row `400 t + r` of the `[40000, 100]` array. -/
theorem blk3_read (c : Dev nD) (t : Fin cfg1.N) (r : Fin 400) (j : Fin 100) :
    (iblk1 V c 3 t : S400x100.Idx → EReal) (ix2 r j) = (V c main_arg3 : S40000x100.Idx → EReal) (ix2 (trow1 t r) j) := by
  unfold iblk1
  rw [View.read_apply]
  show V c main_arg3 _ = V c main_arg3 _
  congr 1
  funext a
  apply Fin.ext
  match a with
  | ⟨0, _⟩ => show win1_3.index t 0 * 400 + 1 * r.val = 400 * t.val + r.val; rw [(idx_facts3 t).1]; omega
  | ⟨1, _⟩ => show win1_3.index t 1 * 100 + 1 * j.val = j.val; rw [(idx_facts3 t).2]; omega

/-- Window 4's block index at grid point `t` is `(t, 0)`. -/
theorem idx_facts4 : ∀ t : Fin grid1.N, win1_4.index t (0 : Fin 2) = t.val ∧ win1_4.index t (1 : Fin 2) = 0 := by decide +kernel

/-- Window 4's block at grid point `t`: its row `r` is row `400 t + r` of the `[40000, 1]` array. -/
theorem blk4_read (c : Dev nD) (t : Fin cfg1.N) (r : Fin 400) (j : Fin 1) :
    (iblk1 V c 4 t : S400x1.Idx → BitVec 32) (ix2 r j) = (V c main_v0 : S40000x1.Idx → BitVec 32) (ix2 (trow1 t r) j) := by
  unfold iblk1
  rw [View.read_apply]
  show V c main_v0 _ = V c main_v0 _
  congr 1
  funext a
  apply Fin.ext
  match a with
  | ⟨0, _⟩ => show win1_4.index t 0 * 400 + 1 * r.val = 400 * t.val + r.val; rw [(idx_facts4 t).1]; omega
  | ⟨1, _⟩ => show win1_4.index t 1 * 1 + 1 * j.val = j.val; rw [(idx_facts4 t).2]; omega

/-- Window 5's block index at grid point `t` is `(t, 0)`. -/
theorem idx_facts5 : ∀ t : Fin grid1.N, win1_5.index t (0 : Fin 2) = t.val ∧ win1_5.index t (1 : Fin 2) = 0 := by decide +kernel

/-- Window 5's block at grid point `t`: its row `r` is row `400 t + r` of the `[40000, 4]` array. -/
theorem blk5_read (c : Dev nD) (t : Fin cfg1.N) (r : Fin 400) (j : Fin 4) :
    (iblk1 V c 5 t : S400x4.Idx → BitVec 32) (ix2 r j) = (V c main_arg5 : S40000x4.Idx → BitVec 32) (ix2 (trow1 t r) j) := by
  unfold iblk1
  rw [View.read_apply]
  show V c main_arg5 _ = V c main_arg5 _
  congr 1
  funext a
  apply Fin.ext
  match a with
  | ⟨0, _⟩ => show win1_5.index t 0 * 400 + 1 * r.val = 400 * t.val + r.val; rw [(idx_facts5 t).1]; omega
  | ⟨1, _⟩ => show win1_5.index t 1 * 4 + 1 * j.val = j.val; rw [(idx_facts5 t).2]; omega

/-- Window 6's block index at every grid point is `(0, 0)`. -/
theorem idx_facts6 : ∀ t : Fin grid1.N, win1_6.index t (0 : Fin 2) = 0 ∧ win1_6.index t (1 : Fin 2) = 0 := by decide +kernel

/-- Window 6's block is the whole `[9, 64]` array at every grid point. -/
theorem blk6_read (c : Dev nD) (t : Fin cfg1.N) :
    (iblk1 V c 6 t : S9x64.Idx → EReal) = (V c main_arg6 : S9x64.Idx → EReal) := by
  funext y
  unfold iblk1
  rw [View.read_apply]
  show V c main_arg6 _ = V c main_arg6 y
  congr 1
  funext a
  apply Fin.ext
  match a with
  | ⟨0, _⟩ => show win1_6.index t 0 * 9 + 1 * (y 0).val = (y 0).val; rw [(idx_facts6 t).1]; omega
  | ⟨1, _⟩ => show win1_6.index t 1 * 64 + 1 * (y 1).val = (y 1).val; rw [(idx_facts6 t).2]; omega

/-- Window 7's block index at every grid point is `(0, 0)`. -/
theorem idx_facts7 : ∀ t : Fin grid1.N, win1_7.index t (0 : Fin 2) = 0 ∧ win1_7.index t (1 : Fin 2) = 0 := by decide +kernel

/-- Window 7's block is the whole `[1, 64]` array at every grid point. -/
theorem blk7_read (c : Dev nD) (t : Fin cfg1.N) :
    (iblk1 V c 7 t : S1x64.Idx → EReal) = (V c main_v5 : S1x64.Idx → EReal) := by
  funext y
  unfold iblk1
  rw [View.read_apply]
  show V c main_v5 _ = V c main_v5 y
  congr 1
  funext a
  apply Fin.ext
  match a with
  | ⟨0, _⟩ => show win1_7.index t 0 * 1 + 1 * (y 0).val = (y 0).val; rw [(idx_facts7 t).1]; omega
  | ⟨1, _⟩ => show win1_7.index t 1 * 64 + 1 * (y 1).val = (y 1).val; rw [(idx_facts7 t).2]; omega

/-- Window 8's block index at every grid point is `(0, 0)`. -/
theorem idx_facts8 : ∀ t : Fin grid1.N, win1_8.index t (0 : Fin 2) = 0 ∧ win1_8.index t (1 : Fin 2) = 0 := by decide +kernel

/-- Window 8's block is the whole `[1, 64]` array at every grid point. -/
theorem blk8_read (c : Dev nD) (t : Fin cfg1.N) :
    (iblk1 V c 8 t : S1x64.Idx → EReal) = (V c main_v9 : S1x64.Idx → EReal) := by
  funext y
  unfold iblk1
  rw [View.read_apply]
  show V c main_v9 _ = V c main_v9 y
  congr 1
  funext a
  apply Fin.ext
  match a with
  | ⟨0, _⟩ => show win1_8.index t 0 * 1 + 1 * (y 0).val = (y 0).val; rw [(idx_facts8 t).1]; omega
  | ⟨1, _⟩ => show win1_8.index t 1 * 64 + 1 * (y 1).val = (y 1).val; rw [(idx_facts8 t).2]; omega

/-- Window 9's block index at every grid point is `(0, 0)`. -/
theorem idx_facts9 : ∀ t : Fin grid1.N, win1_9.index t (0 : Fin 2) = 0 ∧ win1_9.index t (1 : Fin 2) = 0 := by decide +kernel

/-- Window 9's block is the whole `[1, 64]` array at every grid point. -/
theorem blk9_read (c : Dev nD) (t : Fin cfg1.N) :
    (iblk1 V c 9 t : S1x64.Idx → EReal) = (V c main_v1 : S1x64.Idx → EReal) := by
  funext y
  unfold iblk1
  rw [View.read_apply]
  show V c main_v1 _ = V c main_v1 y
  congr 1
  funext a
  apply Fin.ext
  match a with
  | ⟨0, _⟩ => show win1_9.index t 0 * 1 + 1 * (y 0).val = (y 0).val; rw [(idx_facts9 t).1]; omega
  | ⟨1, _⟩ => show win1_9.index t 1 * 64 + 1 * (y 1).val = (y 1).val; rw [(idx_facts9 t).2]; omega

/-- Window 10's block index at every grid point is `(0, 0)`. -/
theorem idx_facts10 : ∀ t : Fin grid1.N, win1_10.index t (0 : Fin 2) = 0 ∧ win1_10.index t (1 : Fin 2) = 0 := by decide +kernel

/-- Window 10's block is the whole `[1, 64]` array at every grid point. -/
theorem blk10_read (c : Dev nD) (t : Fin cfg1.N) :
    (iblk1 V c 10 t : S1x64.Idx → EReal) = (V c main_v2 : S1x64.Idx → EReal) := by
  funext y
  unfold iblk1
  rw [View.read_apply]
  show V c main_v2 _ = V c main_v2 y
  congr 1
  funext a
  apply Fin.ext
  match a with
  | ⟨0, _⟩ => show win1_10.index t 0 * 1 + 1 * (y 0).val = (y 0).val; rw [(idx_facts10 t).1]; omega
  | ⟨1, _⟩ => show win1_10.index t 1 * 64 + 1 * (y 1).val = (y 1).val; rw [(idx_facts10 t).2]; omega

/-- The layer's value on the block at grid point `t`, at row `r` of the block, is the layer's value on the arrays at
    row `400 t + r`: the two agree on that row's data, and the weight block is the whole weight. -/
theorem blk_X (c : Dev nD) (t : Fin cfg1.N) (r : Fin 400) (j : Fin 100) (d : Fin 64) :
    (Blk.X1 (iblk1 V c 0 t) (iblk1 V c 1 t) (iblk1 V c 2 t) (iblk1 V c 3 t) (iblk1 V c 4 t) (iblk1 V c 5 t) (iblk1 V c 6 t) : S400x100x64.Idx → EReal) (ix3 r j d)
      = Xof V c (trow1 t r) j d := by
  refine (Blk.X1_apply (iblk1 V c 0 t) (iblk1 V c 1 t) (iblk1 V c 2 t) (iblk1 V c 3 t) (iblk1 V c 4 t) (iblk1 V c 5 t) (iblk1 V c 6 t) r j d).trans ?_
  rw [blk6_read V c t]
  unfold Xof
  exact X_congr_row _ _ _ _ _ _ _ _ _ _ _ _ _ r (trow1 t r)
    (fun j => blk0_read V c t r j) (fun j => blk1_read V c t r j) (fun j => blk2_read V c t r j) (fun j => blk3_read V c t r j)
    (blk4_read V c t r 0) (fun k => blk5_read V c t r k) j d

/-- The stored block at grid point `t`, row `r`, channel `d`. -/
theorem blk_out (c : Dev nD) (t : Fin cfg1.N) (r : Fin 400) (d : Fin 64) :
    (Blk.out1 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) : S400x64.Idx → EReal) (ix2 r d)
      = outWith (Xof V c) (row (V c main_v5 : S1x64.Idx → EReal)) (row (V c main_v9 : S1x64.Idx → EReal))
          (row (V c main_v1 : S1x64.Idx → EReal)) (row (V c main_v2 : S1x64.Idx → EReal)) (trow1 t r) d := by
  refine (Blk.out1_apply (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) r d).trans ?_
  unfold outWith
  rw [blk7_read V c t, blk8_read V c t, blk9_read V c t, blk10_read V c t]
  congr 1
  funext j
  rw [blk_X V c t r j d]

end Cert.KernelIdeal.R1

end
-- ==== Proof.KRegion1.lean ====
/-
  What the output kernel's region leaves in its result array: block `t` of 400 rows is the kernel's stored block of the
  input blocks at `t`, and the blocks tile the array.
-/
import proofs.«173197_j214748364885_1_alg».proof.Proof.Gen.KernelIdeal.Frame
import proofs.«173197_j214748364885_1_alg».proof.Proof.KCommon
import proofs.«173197_j214748364885_1_alg».proof.Proof.KRegion1Blk
import Idealize.ShloMosaic.Lib.Pipeline.Value

set_option maxRecDepth 16384

noncomputable section

namespace Cert.KernelIdeal.R1

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.KV Cert.Pillar

variable (V : (c : Dev nD) → (b : Ref sig .tc) → Buf (Elt Ideal) ((c : Thread nD τ).loc b))

/-- The zero offsets on two axes. -/
theorem zero_offsets : (![0, 0] : Fin 2 → Nat) = fun _ => 0 := funext fun a => by fin_cases a <;> rfl

/-- The result array's block at grid point `t` is block `(t, 0)`: 400 rows from row `400 t`, all 64 channels. -/
theorem idx_out : ∀ t : Fin cfg1.N, win1_11.index t (0 : Fin 2) = t.val ∧ win1_11.index t (1 : Fin 2) = 0 :=
  (by decide +kernel : ∀ t : Fin grid1.N, win1_11.index t (0 : Fin 2) = t.val ∧ win1_11.index t (1 : Fin 2) = 0)

/-- The whole result array: at row `i 0`, channel `i 1`, the row's maximum over its points of the normalised, scaled,
    shifted and rectified layer values. -/
abbrev rowMax (c : Dev nD) : S40000x64.Idx → EReal :=
  fun i => outWith (Xof V c) (row (V c main_v5 : S1x64.Idx → EReal)) (row (V c main_v9 : S1x64.Idx → EReal))
          (row (V c main_v1 : S1x64.Idx → EReal)) (row (V c main_v2 : S1x64.Idx → EReal)) (i 0) (i 1)

/-- Block `t` of the whole array, at row `r` and channel `d` of the block, is the array at row `400 t + r`, channel `d`:
    a block's coordinate is its block index times the block's size plus the coordinate inside the block. -/
theorem read_rowMax (c : Dev nD) (t : Fin cfg1.N) (r : Fin 400) (d : Fin 64) :
    ((cfg1.win 11).blk t).view.read (Elt Ideal) (rowMax V c) (ix2 r d)
      = outWith (Xof V c) (row (V c main_v5 : S1x64.Idx → EReal)) (row (V c main_v9 : S1x64.Idx → EReal))
          (row (V c main_v1 : S1x64.Idx → EReal)) (row (V c main_v2 : S1x64.Idx → EReal)) (trow1 t r) d := by
  rw [View.read_apply]
  have h0 : ((((cfg1.win 11).blk t).view.emb (ix2 r d)) (0 : Fin 2) : Fin 40000) = trow1 t r :=
    Fin.ext (by
      show win1_11.index t (0 : Fin 2) * 400 + 1 * r.val = 400 * t.val + r.val
      rw [(idx_out t).1]; omega)
  have h1 : ((((cfg1.win 11).blk t).view.emb (ix2 r d)) (1 : Fin 2) : Fin 64) = d :=
    Fin.ext (by
      show win1_11.index t (1 : Fin 2) * 64 + 1 * d.val = d.val
      rw [(idx_out t).2]; omega)
  show outWith (Xof V c) (row (V c main_v5 : S1x64.Idx → EReal)) (row (V c main_v9 : S1x64.Idx → EReal))
          (row (V c main_v1 : S1x64.Idx → EReal)) (row (V c main_v2 : S1x64.Idx → EReal))
          ((((cfg1.win 11).blk t).view.emb (ix2 r d)) (0 : Fin 2) : Fin 40000)
          ((((cfg1.win 11).blk t).view.emb (ix2 r d)) (1 : Fin 2) : Fin 64) = _
  rw [h0, h1]

/-- What grid point `t` writes back is block `t` of the whole array `rowMax`: the stored block is the kernel's arithmetic
    on the input blocks at `t`, which at row `r`, channel `d` is the row maximum at row `400 t + r`. -/
theorem flushed_eq (c : Dev nD) (t : Fin cfg1.N) :
    (dat1 (F := Ideal) V c).flushed 11 t = ((cfg1.win 11).blk t).view.read (Elt Ideal) (rowMax V c) := by
  show (cfg1.win 11).cut (grid1.coords t) ((dat1 (F := Ideal) V c).after 11 t) = _
  rw [after1_11]
  unfold out1_11
  rw [View.canon_unit_zero zero_offsets]
  simp only [View.ld_unit_zero (S := S400x100) zero_offsets, View.ld_unit_zero (S := S400x1) zero_offsets,
    View.ld_unit_zero (S := S400x4) zero_offsets, View.ld_unit_zero (S := S9x64) zero_offsets,
    View.ld_unit_zero (S := S1x64) zero_offsets]
  funext y
  obtain ⟨r, d, rfl⟩ : ∃ (r : Fin 400) (d : Fin 64), y = ix2 r d := ⟨y 0, y 1, eq_ix2 y⟩
  refine Eq.trans ?_ (read_rowMax V c t r d).symm
  exact blk_out V c t r d

/-- The grid point whose block holds row `p`: `p / 400`. -/
def pointOf (p : Fin 40000) : Fin cfg1.N :=
  ⟨p.val / 400, by have h : cfg1.N = 100 := N_1; rw [h]; have := p.isLt; omega⟩

/-- An index of the array is in point `t`'s block iff each coordinate is in the block's range on its axis. -/
theorem mem_blk (t : Fin cfg1.N) (i : S40000x64.Idx) :
    i ∈ ((cfg1.win 11).blk t).view.set ↔ ∀ a : Fin 2, win1_11.index t a * S400x64.size a ≤ (i a).val ∧ (i a).val < win1_11.index t a * S400x64.size a + S400x64.size a := by
  show i ∈ ((View.whole main_v10).slice (win1_11.rect t)).set ↔ _
  rw [View.set_slice_whole, Rect.mem_set_unit]
  exact Iff.rfl

/-- The blocks tile the array: row `p`, any channel, lies in the block of point `p / 400`, since
    `400 (p / 400) ≤ p < 400 (p / 400) + 400`. -/
theorem cover (i : S40000x64.Idx) :
    ∃ t : Fin cfg1.N, (cfg1.win 11).flush t = true ∧ i ∈ ((cfg1.win 11).blk t).view.set := by
  have hi0 : (i 0).val < 40000 := (i 0).isLt
  have hi1 : (i 1).val < 64 := (i 1).isLt
  obtain ⟨e0, e1⟩ := idx_out (pointOf (i 0))
  have hv : (pointOf (i 0)).val = (i 0).val / 400 := rfl
  refine ⟨pointOf (i 0), flush1_11 _, ?_⟩
  rw [mem_blk]
  intro a
  match a with
  | ⟨0, _⟩ =>
    show win1_11.index (pointOf (i 0)) (0 : Fin 2) * 400 ≤ (i 0).val ∧ (i 0).val < win1_11.index (pointOf (i 0)) (0 : Fin 2) * 400 + 400
    rw [e0, hv]; omega
  | ⟨1, _⟩ =>
    show win1_11.index (pointOf (i 0)) (1 : Fin 2) * 64 ≤ (i 1).val ∧ (i 1).val < win1_11.index (pointOf (i 0)) (1 : Fin 2) * 64 + 64
    rw [e1]; omega

/-- After the region, the result array holds at row `p`, channel `d` the maximum over the row's points of the
    normalised, scaled, shifted, rectified layer values, the mean, variance, scale and shift read from the four
    `[1, 64]` arrays the region is entered with. -/
theorem arr11 (c : Dev nD) :
    ((dat1 (F := Ideal) V c).arrAt 11 cfg1.N : S40000x64.Idx → EReal)
      = fun i => outWith (Xof V c) (row (V c main_v5 : S1x64.Idx → EReal)) (row (V c main_v9 : S1x64.Idx → EReal))
          (row (V c main_v1 : S1x64.Idx → EReal)) (row (V c main_v2 : S1x64.Idx → EReal)) (i 0) (i 1) :=
  (dat1 (F := Ideal) V c).arrAt_eq_of_cover 11 (rowMax V c) (fun t _ => flushed_eq V c t) cover

end Cert.KernelIdeal.R1

end
-- ==== Proof.KGlue.lean ====
/-
  The host operations around the two regions, read: the reshapes before the first region, and between the regions the
  mean `sum / N` and the variance `sumsq / N − mean²` of the first region's two result arrays.
-/
import proofs.«173197_j214748364885_1_alg».proof.Proof.Gen.KernelIdeal.Frame
import proofs.«173197_j214748364885_1_alg».proof.Proof.KCommon
import proofs.«173197_j214748364885_1_alg».proof.Proof.LibKeepdims
import Idealize.ShloMosaic.Lib.Pipeline.Value
import Idealize.ShloMosaic.Lib.ValueLayout
import Idealize.ShloMosaic.Lib.StableHlo.Run

set_option maxRecDepth 16384

noncomputable section

namespace Cert.KernelIdeal.Glue

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.KV Cert.Pillar

variable (m : (ℓ : Loc nD τ sig) → Buf (Elt Ideal) ℓ) (ρ : Dev nD → PrngReg)

/-! ### Buffers a stretch of host operations leaves alone -/

/-- The reshapes before the first region write none of its windows' argument arrays. -/
theorem W1_keep (c : Dev nD) (b : Ref sig .tc) (h0 : b ≠ main_v0) (h1 : b ≠ main_v1) (h2 : b ≠ main_v2) :
    W1 m ρ c (Proc.devRef .tc b) = m ((c : Thread nD τ).loc b) :=
  (StableHlo.after_of_forall_not_mem (b := Proc.devRef .tc b) _ _ (List.forall_iff_forall_mem.mp (by
    simp only [hostOps0, List.Forall, StableHlo.reshape_writes, Finset.mem_singleton]
    exact ⟨StableHlo.devRef_ne_of_ne h0, StableHlo.devRef_ne_of_ne h1, StableHlo.devRef_ne_of_ne h2⟩))).trans rfl

/-- The operations between the regions write only the two constants, their broadcasts, the two quotients, the square
    and the difference. -/
theorem W3_keep (c : Dev nD) (b : Ref sig .tc) (h0 : b ≠ main_cst) (h1 : b ≠ main_v4) (h2 : b ≠ main_v5)
    (h3 : b ≠ main_cst_0) (h4 : b ≠ main_v6) (h5 : b ≠ main_v7) (h6 : b ≠ main_v8) (h7 : b ≠ main_v9) :
    W3 m ρ c (Proc.devRef .tc b) = W2 m ρ c (Proc.devRef .tc b) :=
  StableHlo.after_of_forall_not_mem (b := Proc.devRef .tc b) _ _ (List.forall_iff_forall_mem.mp (by
    simp only [hostOps1, List.Forall, StableHlo.nullary_writes, StableHlo.unary_writes, StableHlo.binary_writes,
      Finset.mem_singleton]
    exact ⟨StableHlo.devRef_ne_of_ne h0, StableHlo.devRef_ne_of_ne h1, StableHlo.devRef_ne_of_ne h2,
      StableHlo.devRef_ne_of_ne h3, StableHlo.devRef_ne_of_ne h4, StableHlo.devRef_ne_of_ne h5,
      StableHlo.devRef_ne_of_ne h6, StableHlo.devRef_ne_of_ne h7⟩))

/-- An input window's array is, at the first region's exit, what it was at its entry. -/
theorem W2_in (c : Dev nD) (w : Fin cfg0.W) (hin : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hin _).trans (A_eq0 (V1 m ρ) c w))

/-! ### The first region's entry contents `V1` -/

theorem V1_arg0 (c : Dev nD) : V1 m ρ c main_arg0 = m ((c : Thread nD τ).loc main_arg0) :=
  W1_keep m ρ c main_arg0 (by decide) (by decide) (by decide)
theorem V1_arg1 (c : Dev nD) : V1 m ρ c main_arg1 = m ((c : Thread nD τ).loc main_arg1) :=
  W1_keep m ρ c main_arg1 (by decide) (by decide) (by decide)
theorem V1_arg2 (c : Dev nD) : V1 m ρ c main_arg2 = m ((c : Thread nD τ).loc main_arg2) :=
  W1_keep m ρ c main_arg2 (by decide) (by decide) (by decide)
theorem V1_arg3 (c : Dev nD) : V1 m ρ c main_arg3 = m ((c : Thread nD τ).loc main_arg3) :=
  W1_keep m ρ c main_arg3 (by decide) (by decide) (by decide)
theorem V1_arg5 (c : Dev nD) : V1 m ρ c main_arg5 = m ((c : Thread nD τ).loc main_arg5) :=
  W1_keep m ρ c main_arg5 (by decide) (by decide) (by decide)
theorem V1_arg6 (c : Dev nD) : V1 m ρ c main_arg6 = m ((c : Thread nD τ).loc main_arg6) :=
  W1_keep m ρ c main_arg6 (by decide) (by decide) (by decide)
/-- The point counts reshaped to a column: its row `p` is count `p`. -/
theorem V1_v0 (c : Dev nD) :
    col (V1 m ρ c main_v0 : S40000x1.Idx → BitVec 32) = cur1 (m ((c : Thread nD τ).loc main_arg4) : S40000.Idx → BitVec 32) := by
  have e : (V1 m ρ c main_v0 : S40000x1.Idx → BitVec 32)
      = shapeCast S40000x1 (m ((c : Thread nD τ).loc main_arg4) : S40000.Idx → BitVec 32) shapeCasts_S40000_S40000x1 := by
    show StableHlo.after hostOps0 _ (Proc.devRef .tc main_v0) = _
    after_results
    rfl
  funext p
  show (V1 m ρ c main_v0 : S40000x1.Idx → BitVec 32) (ix2 p (0 : Fin 1)) = _
  rw [e]
  exact shapeCast_a_a1_apply _ _ p 0

/-! ### The two results of the first region, and the quotient by the number of points -/

/-- The first region's first result array at its exit. -/
theorem W2_v3_0 (c : Dev nD) :
    W2 m ρ c (Proc.devRef .tc main_v3_0) = (dat0 (F := Ideal) (V1 m ρ) c).arrAt 7 cfg0.N := W2_arr m ρ c 7
/-- The first region's second result array at its exit. -/
theorem W2_v3_1 (c : Dev nD) :
    W2 m ρ c (Proc.devRef .tc main_v3_1) = (dat0 (F := Ideal) (V1 m ρ) c).arrAt 8 cfg0.N := W2_arr m ρ c 8

/-- The number of points as a `[1, 64]` row: the scalar constant broadcast. -/
abbrev rowN : FVec Ideal S1x64 .f32 :=
  broadcastInDim S1x64 ![] bcast_S_S1x64 (constant (F := Ideal) S_ .f32 0x4A742400#32)

/-- A row over the number of points reads, at an index, the entry over `N`. -/
theorem div_rowN_apply (x : FVec Ideal S1x64 .f32) (i : S1x64.Idx) :
    Host.divf (F := Ideal) x rowN i = Ideal.div (x i) cN := rfl

/-- `y / N − (x / N)²` at an index. -/
theorem var_rowN_apply (x y : FVec Ideal S1x64 .f32) (i : S1x64.Idx) :
    subf (Host.divf (F := Ideal) y rowN) (mulf (Host.divf (F := Ideal) x rowN) (Host.divf (F := Ideal) x rowN)) i
      = Ideal.div (y i) cN - Ideal.div (x i) cN * Ideal.div (x i) cN := rfl

/-! ### The second region's entry contents `V3` -/

theorem V3_arg0 (c : Dev nD) : V3 m ρ c main_arg0 = m ((c : Thread nD τ).loc main_arg0) :=
  (W3_keep m ρ c main_arg0 (by decide) (by decide) (by decide) (by decide) (by decide) (by decide) (by decide) (by decide)).trans
    ((W2_in m ρ c 0 rfl).trans (V1_arg0 m ρ c))
theorem V3_arg1 (c : Dev nD) : V3 m ρ c main_arg1 = m ((c : Thread nD τ).loc main_arg1) :=
  (W3_keep m ρ c main_arg1 (by decide) (by decide) (by decide) (by decide) (by decide) (by decide) (by decide) (by decide)).trans
    ((W2_in m ρ c 1 rfl).trans (V1_arg1 m ρ c))
theorem V3_arg2 (c : Dev nD) : V3 m ρ c main_arg2 = m ((c : Thread nD τ).loc main_arg2) :=
  (W3_keep m ρ c main_arg2 (by decide) (by decide) (by decide) (by decide) (by decide) (by decide) (by decide) (by decide)).trans
    ((W2_in m ρ c 2 rfl).trans (V1_arg2 m ρ c))
theorem V3_arg3 (c : Dev nD) : V3 m ρ c main_arg3 = m ((c : Thread nD τ).loc main_arg3) :=
  (W3_keep m ρ c main_arg3 (by decide) (by decide) (by decide) (by decide) (by decide) (by decide) (by decide) (by decide)).trans
    ((W2_in m ρ c 3 rfl).trans (V1_arg3 m ρ c))
theorem V3_arg5 (c : Dev nD) : V3 m ρ c main_arg5 = m ((c : Thread nD τ).loc main_arg5) :=
  (W3_keep m ρ c main_arg5 (by decide) (by decide) (by decide) (by decide) (by decide) (by decide) (by decide) (by decide)).trans
    ((W2_in m ρ c 5 rfl).trans (V1_arg5 m ρ c))
theorem V3_arg6 (c : Dev nD) : V3 m ρ c main_arg6 = m ((c : Thread nD τ).loc main_arg6) :=
  (W3_keep m ρ c main_arg6 (by decide) (by decide) (by decide) (by decide) (by decide) (by decide) (by decide) (by decide)).trans
    ((W2_in m ρ c 6 rfl).trans (V1_arg6 m ρ c))
theorem V3_v0 (c : Dev nD) :
    col (V3 m ρ c main_v0 : S40000x1.Idx → BitVec 32) = cur1 (m ((c : Thread nD τ).loc main_arg4) : S40000.Idx → BitVec 32) := by
  have e : V3 m ρ c main_v0 = V1 m ρ c main_v0 :=
    (W3_keep m ρ c main_v0 (by decide) (by decide) (by decide) (by decide) (by decide) (by decide) (by decide) (by decide)).trans
      (W2_in m ρ c 4 rfl)
  rw [e]
  exact V1_v0 m ρ c
/-- The scale reshaped to a `[1, 64]` row. -/
theorem V3_v1 (c : Dev nD) :
    row (V3 m ρ c main_v1 : S1x64.Idx → EReal) = cur1 (m ((c : Thread nD τ).loc main_arg7) : S64.Idx → EReal) := by
  have e3 : V3 m ρ c main_v1 = V1 m ρ c main_v1 :=
    (W3_keep m ρ c main_v1 (by decide) (by decide) (by decide) (by decide) (by decide) (by decide) (by decide) (by decide)).trans
      (W2_of_ne m ρ c main_v1 (by decide))
  have e : (V1 m ρ c main_v1 : S1x64.Idx → EReal)
      = shapeCast S1x64 (m ((c : Thread nD τ).loc main_arg7) : S64.Idx → EReal) shapeCasts_S64_S1x64 := by
    show StableHlo.after hostOps0 _ (Proc.devRef .tc main_v1) = _
    after_results
    rfl
  funext d
  show (V3 m ρ c main_v1 : S1x64.Idx → EReal) (ix2 (0 : Fin 1) d) = _
  rw [e3, e]
  exact shapeCast_a_1a_apply _ _ 0 d
/-- The shift reshaped to a `[1, 64]` row. -/
theorem V3_v2 (c : Dev nD) :
    row (V3 m ρ c main_v2 : S1x64.Idx → EReal) = cur1 (m ((c : Thread nD τ).loc main_arg8) : S64.Idx → EReal) := by
  have e3 : V3 m ρ c main_v2 = V1 m ρ c main_v2 :=
    (W3_keep m ρ c main_v2 (by decide) (by decide) (by decide) (by decide) (by decide) (by decide) (by decide) (by decide)).trans
      (W2_of_ne m ρ c main_v2 (by decide))
  have e : (V1 m ρ c main_v2 : S1x64.Idx → EReal)
      = shapeCast S1x64 (m ((c : Thread nD τ).loc main_arg8) : S64.Idx → EReal) shapeCasts_S64_S1x64 := by
    show StableHlo.after hostOps0 _ (Proc.devRef .tc main_v2) = _
    after_results
    rfl
  funext d
  show (V3 m ρ c main_v2 : S1x64.Idx → EReal) (ix2 (0 : Fin 1) d) = _
  rw [e3, e]
  exact shapeCast_a_1a_apply _ _ 0 d
/-- The mean: the first region's first result over `N`. -/
theorem V3_v5 (c : Dev nD) :
    row (V3 m ρ c main_v5 : S1x64.Idx → EReal)
      = fun d => Ideal.div (((dat0 (F := Ideal) (V1 m ρ) c).arrAt 7 cfg0.N : S1x64.Idx → EReal) (ix2 (0 : Fin 1) d)) cN := by
  have e : (V3 m ρ c main_v5 : S1x64.Idx → EReal)
      = Host.divf (F := Ideal) ((dat0 (F := Ideal) (V1 m ρ) c).arrAt 7 cfg0.N : FVec Ideal S1x64 .f32) rowN := by
    show StableHlo.after hostOps1 (W2 m ρ c) (Proc.devRef .tc main_v5) = _
    after_results
    rw [W2_v3_0 m ρ c]
  funext d
  show (V3 m ρ c main_v5 : S1x64.Idx → EReal) (ix2 (0 : Fin 1) d) = _
  rw [e]
  exact div_rowN_apply _ _
/-- The variance: the first region's second result over `N`, less the squared mean. -/
theorem V3_v9 (c : Dev nD) :
    row (V3 m ρ c main_v9 : S1x64.Idx → EReal)
      = fun d => Ideal.div (((dat0 (F := Ideal) (V1 m ρ) c).arrAt 8 cfg0.N : S1x64.Idx → EReal) (ix2 (0 : Fin 1) d)) cN
          - Ideal.div (((dat0 (F := Ideal) (V1 m ρ) c).arrAt 7 cfg0.N : S1x64.Idx → EReal) (ix2 (0 : Fin 1) d)) cN
            * Ideal.div (((dat0 (F := Ideal) (V1 m ρ) c).arrAt 7 cfg0.N : S1x64.Idx → EReal) (ix2 (0 : Fin 1) d)) cN := by
  have e : (V3 m ρ c main_v9 : S1x64.Idx → EReal)
      = subf (Host.divf (F := Ideal) ((dat0 (F := Ideal) (V1 m ρ) c).arrAt 8 cfg0.N : FVec Ideal S1x64 .f32) rowN)
          (mulf (Host.divf (F := Ideal) ((dat0 (F := Ideal) (V1 m ρ) c).arrAt 7 cfg0.N : FVec Ideal S1x64 .f32) rowN)
            (Host.divf (F := Ideal) ((dat0 (F := Ideal) (V1 m ρ) c).arrAt 7 cfg0.N : FVec Ideal S1x64 .f32) rowN)) := by
    show StableHlo.after hostOps1 (W2 m ρ c) (Proc.devRef .tc main_v9) = _
    after_results
    rw [W2_v3_0 m ρ c, W2_v3_1 m ρ c]
  funext d
  show (V3 m ρ c main_v9 : S1x64.Idx → EReal) (ix2 (0 : Fin 1) d) = _
  rw [e]
  exact var_rowN_apply _ _ _

end Cert.KernelIdeal.Glue

end
-- ==== Proof.KValue.lean ====
/-
  The kernel program's result as a function of its argument arrays, over the extended reals: the output region's result
  array, its mean and variance operands computed by the host from the statistics region's two sums.
-/
import proofs.«173197_j214748364885_1_alg».proof.Proof.Gen.KernelIdeal.Frame
import proofs.«173197_j214748364885_1_alg».proof.Proof.KCommon
import proofs.«173197_j214748364885_1_alg».proof.Proof.KRegion0
import proofs.«173197_j214748364885_1_alg».proof.Proof.KRegion1
import proofs.«173197_j214748364885_1_alg».proof.Proof.KGlue

set_option maxRecDepth 16384

noncomputable section

namespace Cert.KernelIdeal.KVal

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.KV Cert.Pillar

variable (m : (ℓ : Loc nD τ sig) → Buf (Elt Ideal) ℓ) (ρ : Dev nD → PrngReg)

/-- The layer's values from the argument arrays as launched. -/
def Xm (c : Dev nD) : Fin 40000 → Fin 100 → Fin 64 → EReal :=
  X (cur2 (m ((c : Thread nD τ).loc main_arg0) : S40000x100.Idx → EReal)) (cur2 (m ((c : Thread nD τ).loc main_arg1) : S40000x100.Idx → EReal))
    (cur2 (m ((c : Thread nD τ).loc main_arg2) : S40000x100.Idx → EReal)) (cur2 (m ((c : Thread nD τ).loc main_arg3) : S40000x100.Idx → EReal))
    (cur1 (m ((c : Thread nD τ).loc main_arg4) : S40000.Idx → BitVec 32)) (cur2 (m ((c : Thread nD τ).loc main_arg5) : S40000x4.Idx → BitVec 32))
    (cur2 (m ((c : Thread nD τ).loc main_arg6) : S9x64.Idx → EReal))

/-- The layer's values from the first region's entry arrays are those from the launch arrays: no host operation
    before it touches them, and the count column is the counts reshaped. -/
theorem Xof_V1 (c : Dev nD) : Xof (V1 m ρ) c = Xm m c := by
  unfold Xof Xm
  rw [Glue.V1_arg0 m ρ c, Glue.V1_arg1 m ρ c, Glue.V1_arg2 m ρ c, Glue.V1_arg3 m ρ c, Glue.V1_arg5 m ρ c,
    Glue.V1_arg6 m ρ c, Glue.V1_v0 m ρ c]

/-- Likewise from the second region's entry arrays. -/
theorem Xof_V3 (c : Dev nD) : Xof (V3 m ρ) c = Xm m c := by
  unfold Xof Xm
  rw [Glue.V3_arg0 m ρ c, Glue.V3_arg1 m ρ c, Glue.V3_arg2 m ρ c, Glue.V3_arg3 m ρ c, Glue.V3_arg5 m ρ c,
    Glue.V3_arg6 m ρ c, Glue.V3_v0 m ρ c]

/-- The second region's mean operand is the mean of the layer's values: the first region's sum over `N`. -/
theorem row_v5 (c : Dev nD) : row (V3 m ρ c main_v5 : S1x64.Idx → EReal) = mu (Xm m c) := by
  rw [Glue.V3_v5 m ρ c, R0.arr7 (V1 m ρ) c, Xof_V1 m ρ c]
  rfl

/-- The second region's variance operand: the first region's sum of squares over `N`, less the squared mean. -/
theorem row_v9 (c : Dev nD) : row (V3 m ρ c main_v9 : S1x64.Idx → EReal) = var (Xm m c) := by
  rw [Glue.V3_v9 m ρ c, R0.arr7 (V1 m ρ) c, R0.arr8 (V1 m ρ) c, Xof_V1 m ρ c]
  rfl

/-- The program's result as a function of its argument arrays as launched: row `p`, channel `d` is the maximum over the
    row's points of the normalised, scaled, shifted, rectified layer values, with the mean and the variance (mean of
    squares less squared mean) of the layer's values over every row and point. -/
def result (c : Dev nD) : S40000x64.Idx → EReal :=
  fun i => outWith (Xm m c) (mu (Xm m c)) (var (Xm m c))
    (cur1 (m ((c : Thread nD τ).loc main_arg7) : S64.Idx → EReal)) (cur1 (m ((c : Thread nD τ).loc main_arg8) : S64.Idx → EReal))
    (i 0) (i 1)

/-- The result array at the last boundary is that function. -/
theorem value (c : Dev nD) : (W4 m ρ c (Proc.devRef .tc main_v10) : S40000x64.Idx → EReal) = result m c := by
  unfold result
  have h1 : (W4 m ρ c (Proc.devRef .tc main_v10) : S40000x64.Idx → EReal)
      = ((dat1 (F := Ideal) (V3 m ρ) c).arrAt 11 cfg1.N : S40000x64.Idx → EReal) := W4_arr m ρ c 11
  rw [h1, R1.arr11 (V3 m ρ) c, Xof_V3 m ρ c, row_v5 m ρ c, row_v9 m ρ c, Glue.V3_v1 m ρ c, Glue.V3_v2 m ρ c]
  rfl

end Cert.KernelIdeal.KVal

end
-- ==== Proof.RefTerm.lean ====
/-
  The reference program's result as a term of its argument arrays: the operations of @main composed in order, cut into
  named stages — the clamped point count as a column, a channel's mean column and its offsets, the two cell-centre
  arrays, the validity mask, the masked nine-feature array, the linear layer (a contraction over the nine features),
  the per-channel mean and variance over all rows and points (the variance as the mean of the squared deviations, selected
  against a not-a-number word by a comparison of constants), and the normalised, rectified maximum over the points.
  Generic in the float values.
-/
import proofs.«173197_j214748364885_1_alg».proof.ReferenceIdeal

noncomputable section

namespace Cert.ReferenceIdeal.RefTerm

open Idealize.ShloMosaic Cert.ReferenceIdeal Cert.ReferenceIdeal.Facts₀ Cert.ReferenceIdeal.Facts

variable {F : FTy → Type} [FloatOps F] [Facts]

/-- The clamped point count as a float column: `max(1, n)`. -/
def cntCol (a4 : IVec S40000 32) : FVec F S40000x1 .f32 :=
  broadcastInDim S40000x1 ![0] bcast_S40000_S40000x1_0
    (sitofp .f32 (maxsi (broadcastInDim S40000 ![] bcast_S_S40000 (id (constantI S_ 32 1#32))) a4))

/-- A channel's row sums from zero, as a column, over the clamped count. -/
def meanCol (a : FVec F S40000x100 .f32) (a4 : IVec S40000 32) : FVec F S40000x1 .f32 :=
  Host.divf
    (broadcastInDim S40000x1 ![0] bcast_S40000_S40000x1_0
      (Host.reduceAdd a (constant S_ .f32 0x00000000#32) reducesTo_S40000x100_S40000_d1 h_S_))
    (cntCol a4)

/-- A channel less its row mean. -/
def offs (a : FVec F S40000x100 .f32) (a4 : IVec S40000 32) : FVec F S40000x100 .f32 :=
  subf a (broadcastInDim S40000x100 ![0, 1] bcast_S40000x1_S40000x100_0_1 (meanCol a a4))

/-- The all-ones `[40000, 100]` array the cell centres are multiplied by. -/
def ones : FVec F S40000x100 .f32 :=
  broadcastInDim S40000x100 ![0, 1] bcast_S1x100_S40000x100_0_1
    (broadcastInDim S1x100 ![] bcast_S_S1x100 (constant S_ .f32 0x3F800000#32))

/-- The x cell centre of every row, over the points. -/
def bevxArr (a5 : IVec S40000x4 32) : FVec F S40000x100 .f32 :=
  mulf
    (broadcastInDim S40000x100 ![0, 1] bcast_S40000x1_S40000x100_0_1
      (broadcastInDim S40000x1 ![0] bcast_S40000_S40000x1_0
        (addf
          (addf
            (mulf
              (sitofp .f32 (shapeCast S40000 (extractStridedSlice S40000x1 ![0, 3] a5 slices_S40000x4_S40000x1_0_3) shapeCasts_S40000x1_S40000))
              (broadcastInDim S40000 ![] bcast_S_S40000 (constant S_ .f32 0x3E23D70A#32)))
            (broadcastInDim S40000 ![] bcast_S_S40000 (constant S_ .f32 0x3DA3D70A#32)))
          (broadcastInDim S40000 ![] bcast_S_S40000 (constant S_ .f32 0x00000000#32)))))
    ones

/-- The y cell centre of every row, over the points. -/
def bevyArr (a5 : IVec S40000x4 32) : FVec F S40000x100 .f32 :=
  mulf
    (broadcastInDim S40000x100 ![0, 1] bcast_S40000x1_S40000x100_0_1
      (broadcastInDim S40000x1 ![0] bcast_S40000_S40000x1_0
        (addf
          (addf
            (mulf
              (sitofp .f32 (shapeCast S40000 (extractStridedSlice S40000x1 ![0, 2] a5 slices_S40000x4_S40000x1_0_2) shapeCasts_S40000x1_S40000))
              (broadcastInDim S40000 ![] bcast_S_S40000 (constant S_ .f32 0x3E23D70A#32)))
            (broadcastInDim S40000 ![] bcast_S_S40000 (constant S_ .f32 0x3DA3D70A#32)))
          (broadcastInDim S40000 ![] bcast_S_S40000 (constant S_ .f32 0xC21EB852#32)))))
    ones

/-- The validity mask `j < n p`, as 0 or 1. -/
def maskArr (a4 : IVec S40000 32) : FVec F S40000x100 .f32 :=
  uitofp .f32
    (cmpi .slt
      (broadcastInDim S40000x100 ![0, 1] bcast_S1x100_S40000x100_0_1
        (broadcastInDim S1x100 ![1] bcast_S100_S1x100_1 (iotaInDim S100 32 0)))
      (broadcastInDim S40000x100 ![0, 1] bcast_S40000x1_S40000x100_0_1
        (broadcastInDim S40000x1 ![0] bcast_S40000_S40000x1_0 a4)))

/-- A `[40000, 100]` array with a trailing unit axis. -/
def unit3 (a : FVec F S40000x100 .f32) : FVec F S40000x100x1 .f32 :=
  broadcastInDim S40000x100x1 ![0, 1] bcast_S40000x100_S40000x100x1_0_1 a

/-- The nine features stacked on the last axis, each multiplied by the mask. -/
def featsArr (a0 a1 a2 a3 : FVec F S40000x100 .f32) (a4 : IVec S40000 32) (a5 : IVec S40000x4 32) : FVec F S40000x100x9 .f32 :=
  mulf
    (concatenate S40000x100x9 2
      [⟨S40000x100x1, unit3 a0⟩, ⟨S40000x100x1, unit3 a1⟩, ⟨S40000x100x1, unit3 a2⟩, ⟨S40000x100x1, unit3 a3⟩,
       ⟨S40000x100x1, unit3 (offs a0 a4)⟩, ⟨S40000x100x1, unit3 (offs a1 a4)⟩, ⟨S40000x100x1, unit3 (offs a2 a4)⟩,
       ⟨S40000x100x1, unit3 (bevxArr a5)⟩, ⟨S40000x100x1, unit3 (bevyArr a5)⟩]
      concatenates_S40000x100x1_S40000x100x1_S40000x100x1_S40000x100x1_S40000x100x1_S40000x100x1_S40000x100x1_S40000x100x1_S40000x100x1_S40000x100x9_d2)
    (broadcastInDim S40000x100x9 ![0, 1, 2] bcast_S40000x100x1_S40000x100x9_0_1_2 (unit3 (maskArr a4)))

/-- The linear layer: the masked features contracted with the weight. -/
def xArr (a0 a1 a2 a3 : FVec F S40000x100 .f32) (a4 : IVec S40000 32) (a5 : IVec S40000x4 32) (a6 : FVec F S9x64 .f32) :
    FVec F S40000x100x64 .f32 :=
  Host.dotGeneral dot_S40000x100x9_S9x64_S40000x100x64_2_0_01_1_n_n none (featsArr a0 a1 a2 a3 a4 a5) a6

/-- A per-channel vector over every row and point. -/
def chan3 (v : FVec F S64 .f32) : FVec F S40000x100x64 .f32 :=
  broadcastInDim S40000x100x64 ![0, 1, 2] bcast_S1x1x64_S40000x100x64_0_1_2
    (broadcastInDim S1x1x64 ![2] bcast_S64_S1x1x64_2 v)

/-- The per-channel mean of the layer's values. -/
def muVec (x : FVec F S40000x100x64 .f32) : FVec F S64 .f32 :=
  Host.divf (Host.reduceAdd x (constant S_ .f32 0x00000000#32) reducesTo_S40000x100x64_S64_d0_1 h_S_)
    (broadcastInDim S64 ![] bcast_S_S64 (constant S_ .f32 0x4A742400#32))

/-- The divisor of the variance: the count less the (zero) degrees-of-freedom correction. -/
def varDen : FVec F S_ .f32 :=
  subf (constant S_ .f32 0x4A742400#32) (sitofp .f32 (constantI S_ 32 0#32))

/-- The squared deviations from the mean (the mean here through a `[1, 1, 64]` array). -/
def devSq (x : FVec F S40000x100x64 .f32) : FVec F S40000x100x64 .f32 :=
  mulf
    (subf x (broadcastInDim S40000x100x64 ![0, 1, 2] bcast_S1x1x64_S40000x100x64_0_1_2
      (Host.divf
        (broadcastInDim S1x1x64 ![2] bcast_S64_S1x1x64_2
          (Host.reduceAdd x (constant S_ .f32 0x00000000#32) reducesTo_S40000x100x64_S64_d0_1 h_S_))
        (broadcastInDim S1x1x64 ![] bcast_S_S1x1x64 (constant S_ .f32 0x4A742400#32)))))
    (subf x (broadcastInDim S40000x100x64 ![0, 1, 2] bcast_S1x1x64_S40000x100x64_0_1_2
      (Host.divf
        (broadcastInDim S1x1x64 ![2] bcast_S64_S1x1x64_2
          (Host.reduceAdd x (constant S_ .f32 0x00000000#32) reducesTo_S40000x100x64_S64_d0_1 h_S_))
        (broadcastInDim S1x1x64 ![] bcast_S_S1x1x64 (constant S_ .f32 0x4A742400#32)))))

/-- The per-channel variance: the mean of the squared deviations where the divisor is positive, else the not-a-number word. -/
def varVec (x : FVec F S40000x100x64 .f32) : FVec F S64 .f32 :=
  select (broadcastInDim S64 ![] bcast_S_S64 (cmpf .ogt (varDen (F := F)) (constant S_ .f32 0x00000000#32)))
    (Host.divf (Host.reduceAdd (devSq x) (constant S_ .f32 0x00000000#32) reducesTo_S40000x100x64_S64_d0_1 h_S_)
      (broadcastInDim S64 ![] bcast_S_S64 (varDen (F := F))))
    (broadcastInDim S64 ![] bcast_S_S64 (id (constant S_ .f32 0x7FC00000#32)))

/-- Normalise, scale, shift, rectify, and take each row's maximum over its points from −∞. -/
def outArr (x : FVec F S40000x100x64 .f32) (a7 a8 : FVec F S64 .f32) : FVec F S40000x64 .f32 :=
  Host.reduce FloatOps.maximumf
    (maximumf
      (addf
        (mulf
          (mulf (subf x (chan3 (muVec x)))
            (chan3 (Host.rsqrt (addf (varVec x) (broadcastInDim S64 ![] bcast_S_S64 (constant S_ .f32 0x3727C5AC#32))))))
          (chan3 a7))
        (chan3 a8))
      (broadcastInDim S40000x100x64 ![] bcast_S_S40000x100x64 (constant S_ .f32 0x00000000#32)))
    (constant S_ .f32 0xFF800000#32) reducesTo_S40000x100x64_S40000x64_d1 h_S_

/-- The reference's result as a function of its nine argument arrays. -/
def refOut (a0 a1 a2 a3 : FVec F S40000x100 .f32) (a4 : IVec S40000 32) (a5 : IVec S40000x4 32) (a6 : FVec F S9x64 .f32)
    (a7 a8 : FVec F S64 .f32) : FVec F S40000x64 .f32 :=
  outArr (xArr a0 a1 a2 a3 a4 a5 a6) a7 a8

end Cert.ReferenceIdeal.RefTerm

end
-- ==== Proof.RefRun.lean ====
/-
  The reference program's run: @main is a straight line of host operations (the three outlined functions' operations
  in place at their call sites), so every weakly fair execution terminates with the result buffer at the operations'
  composed term of the argument arrays and the arguments unchanged.
-/
import proofs.«173197_j214748364885_1_alg».proof.ReferenceIdeal
import proofs.«173197_j214748364885_1_alg».proof.Proof.Gen.ReferenceIdeal
import proofs.«173197_j214748364885_1_alg».proof.Proof.RefTerm
import Idealize.ShloMosaic.Lib.StableHlo.Run

noncomputable section

namespace Cert.ReferenceIdeal.RefRun

open Idealize.ShloMosaic Idealize.ShloMosaic.TcCoe Idealize.SL.Sem Idealize.ShloMosaic.StableHlo
open Cert.ReferenceIdeal Cert.ReferenceIdeal.Facts₀ Cert.ReferenceIdeal.Facts

variable {F : FTy → Type} [FloatOps F] [Facts]

/-- @main's operations in order, each callee's operations in place at its call site over that call's buffers. -/
abbrev ops : List (HloOp τ sig (Elt F)) :=
  [ nullary main_c (constantI S_ 32 1#32),
    unary main_c main_call0_v0 id,
    unary main_call0_v0 main_call0_v1 (broadcastInDim S40000 ![] bcast_S_S40000),
    binary main_call0_v1 main_arg4 main_v0 maxsi,
    unary main_v0 main_v1 (sitofp .f32 : (⟨S40000, .i32⟩ : BufTy).Contents (Elt F) → (⟨S40000, .f32⟩ : BufTy).Contents (Elt F)),
    unary main_v1 main_v2 (broadcastInDim S40000x1 ![0] bcast_S40000_S40000x1_0 : (⟨S40000, .f32⟩ : BufTy).Contents (Elt F) → (⟨S40000x1, .f32⟩ : BufTy).Contents (Elt F)),
    nullary main_cst (constant S_ .f32 0x00000000#32),
    binary main_arg0 main_cst main_v3 ((fun x v => Host.reduceAdd x v reducesTo_S40000x100_S40000_d1 h_S_) : (⟨S40000x100, .f32⟩ : BufTy).Contents (Elt F) → (⟨S_, .f32⟩ : BufTy).Contents (Elt F) → (⟨S40000, .f32⟩ : BufTy).Contents (Elt F)),
    unary main_v3 main_v4 (broadcastInDim S40000x1 ![0] bcast_S40000_S40000x1_0 : (⟨S40000, .f32⟩ : BufTy).Contents (Elt F) → (⟨S40000x1, .f32⟩ : BufTy).Contents (Elt F)),
    binary main_v4 main_v2 main_v5 (Host.divf : (⟨S40000x1, .f32⟩ : BufTy).Contents (Elt F) → (⟨S40000x1, .f32⟩ : BufTy).Contents (Elt F) → (⟨S40000x1, .f32⟩ : BufTy).Contents (Elt F)),
    nullary main_cst_0 (constant S_ .f32 0x00000000#32),
    binary main_arg1 main_cst_0 main_v6 ((fun x v => Host.reduceAdd x v reducesTo_S40000x100_S40000_d1 h_S_) : (⟨S40000x100, .f32⟩ : BufTy).Contents (Elt F) → (⟨S_, .f32⟩ : BufTy).Contents (Elt F) → (⟨S40000, .f32⟩ : BufTy).Contents (Elt F)),
    unary main_v6 main_v7 (broadcastInDim S40000x1 ![0] bcast_S40000_S40000x1_0 : (⟨S40000, .f32⟩ : BufTy).Contents (Elt F) → (⟨S40000x1, .f32⟩ : BufTy).Contents (Elt F)),
    binary main_v7 main_v2 main_v8 (Host.divf : (⟨S40000x1, .f32⟩ : BufTy).Contents (Elt F) → (⟨S40000x1, .f32⟩ : BufTy).Contents (Elt F) → (⟨S40000x1, .f32⟩ : BufTy).Contents (Elt F)),
    nullary main_cst_1 (constant S_ .f32 0x00000000#32),
    binary main_arg2 main_cst_1 main_v9 ((fun x v => Host.reduceAdd x v reducesTo_S40000x100_S40000_d1 h_S_) : (⟨S40000x100, .f32⟩ : BufTy).Contents (Elt F) → (⟨S_, .f32⟩ : BufTy).Contents (Elt F) → (⟨S40000, .f32⟩ : BufTy).Contents (Elt F)),
    unary main_v9 main_v10 (broadcastInDim S40000x1 ![0] bcast_S40000_S40000x1_0 : (⟨S40000, .f32⟩ : BufTy).Contents (Elt F) → (⟨S40000x1, .f32⟩ : BufTy).Contents (Elt F)),
    binary main_v10 main_v2 main_v11 (Host.divf : (⟨S40000x1, .f32⟩ : BufTy).Contents (Elt F) → (⟨S40000x1, .f32⟩ : BufTy).Contents (Elt F) → (⟨S40000x1, .f32⟩ : BufTy).Contents (Elt F)),
    unary main_v5 main_v12 (broadcastInDim S40000x100 ![0, 1] bcast_S40000x1_S40000x100_0_1 : (⟨S40000x1, .f32⟩ : BufTy).Contents (Elt F) → (⟨S40000x100, .f32⟩ : BufTy).Contents (Elt F)),
    binary main_arg0 main_v12 main_v13 (subf : (⟨S40000x100, .f32⟩ : BufTy).Contents (Elt F) → (⟨S40000x100, .f32⟩ : BufTy).Contents (Elt F) → (⟨S40000x100, .f32⟩ : BufTy).Contents (Elt F)),
    unary main_v8 main_v14 (broadcastInDim S40000x100 ![0, 1] bcast_S40000x1_S40000x100_0_1 : (⟨S40000x1, .f32⟩ : BufTy).Contents (Elt F) → (⟨S40000x100, .f32⟩ : BufTy).Contents (Elt F)),
    binary main_arg1 main_v14 main_v15 (subf : (⟨S40000x100, .f32⟩ : BufTy).Contents (Elt F) → (⟨S40000x100, .f32⟩ : BufTy).Contents (Elt F) → (⟨S40000x100, .f32⟩ : BufTy).Contents (Elt F)),
    unary main_v11 main_v16 (broadcastInDim S40000x100 ![0, 1] bcast_S40000x1_S40000x100_0_1 : (⟨S40000x1, .f32⟩ : BufTy).Contents (Elt F) → (⟨S40000x100, .f32⟩ : BufTy).Contents (Elt F)),
    binary main_arg2 main_v16 main_v17 (subf : (⟨S40000x100, .f32⟩ : BufTy).Contents (Elt F) → (⟨S40000x100, .f32⟩ : BufTy).Contents (Elt F) → (⟨S40000x100, .f32⟩ : BufTy).Contents (Elt F)),
    unary main_arg5 main_v18 ((extractStridedSlice S40000x1 ![0, 3] · slices_S40000x4_S40000x1_0_3) : (⟨S40000x4, .i32⟩ : BufTy).Contents (Elt F) → (⟨S40000x1, .i32⟩ : BufTy).Contents (Elt F)),
    reshape main_v18 main_v19 rfl shapeCasts_S40000x1_S40000,
    unary main_v19 main_v20 (sitofp .f32 : (⟨S40000, .i32⟩ : BufTy).Contents (Elt F) → (⟨S40000, .f32⟩ : BufTy).Contents (Elt F)),
    nullary main_cst_2 (constant S_ .f32 0x3E23D70A#32),
    unary main_cst_2 main_v21 (broadcastInDim S40000 ![] bcast_S_S40000 : (⟨S_, .f32⟩ : BufTy).Contents (Elt F) → (⟨S40000, .f32⟩ : BufTy).Contents (Elt F)),
    binary main_v20 main_v21 main_v22 (mulf : (⟨S40000, .f32⟩ : BufTy).Contents (Elt F) → (⟨S40000, .f32⟩ : BufTy).Contents (Elt F) → (⟨S40000, .f32⟩ : BufTy).Contents (Elt F)),
    nullary main_cst_3 (constant S_ .f32 0x3DA3D70A#32),
    unary main_cst_3 main_v23 (broadcastInDim S40000 ![] bcast_S_S40000 : (⟨S_, .f32⟩ : BufTy).Contents (Elt F) → (⟨S40000, .f32⟩ : BufTy).Contents (Elt F)),
    binary main_v22 main_v23 main_v24 (addf : (⟨S40000, .f32⟩ : BufTy).Contents (Elt F) → (⟨S40000, .f32⟩ : BufTy).Contents (Elt F) → (⟨S40000, .f32⟩ : BufTy).Contents (Elt F)),
    nullary main_cst_4 (constant S_ .f32 0x00000000#32),
    unary main_cst_4 main_v25 (broadcastInDim S40000 ![] bcast_S_S40000 : (⟨S_, .f32⟩ : BufTy).Contents (Elt F) → (⟨S40000, .f32⟩ : BufTy).Contents (Elt F)),
    binary main_v24 main_v25 main_v26 (addf : (⟨S40000, .f32⟩ : BufTy).Contents (Elt F) → (⟨S40000, .f32⟩ : BufTy).Contents (Elt F) → (⟨S40000, .f32⟩ : BufTy).Contents (Elt F)),
    unary main_v26 main_v27 (broadcastInDim S40000x1 ![0] bcast_S40000_S40000x1_0 : (⟨S40000, .f32⟩ : BufTy).Contents (Elt F) → (⟨S40000x1, .f32⟩ : BufTy).Contents (Elt F)),
    nullary main_cst_5 (constant S_ .f32 0x3F800000#32),
    unary main_cst_5 main_v28 (broadcastInDim S1x100 ![] bcast_S_S1x100 : (⟨S_, .f32⟩ : BufTy).Contents (Elt F) → (⟨S1x100, .f32⟩ : BufTy).Contents (Elt F)),
    unary main_v27 main_v29 (broadcastInDim S40000x100 ![0, 1] bcast_S40000x1_S40000x100_0_1 : (⟨S40000x1, .f32⟩ : BufTy).Contents (Elt F) → (⟨S40000x100, .f32⟩ : BufTy).Contents (Elt F)),
    unary main_v28 main_v30 (broadcastInDim S40000x100 ![0, 1] bcast_S1x100_S40000x100_0_1 : (⟨S1x100, .f32⟩ : BufTy).Contents (Elt F) → (⟨S40000x100, .f32⟩ : BufTy).Contents (Elt F)),
    binary main_v29 main_v30 main_v31 (mulf : (⟨S40000x100, .f32⟩ : BufTy).Contents (Elt F) → (⟨S40000x100, .f32⟩ : BufTy).Contents (Elt F) → (⟨S40000x100, .f32⟩ : BufTy).Contents (Elt F)),
    unary main_arg5 main_v32 ((extractStridedSlice S40000x1 ![0, 2] · slices_S40000x4_S40000x1_0_2) : (⟨S40000x4, .i32⟩ : BufTy).Contents (Elt F) → (⟨S40000x1, .i32⟩ : BufTy).Contents (Elt F)),
    reshape main_v32 main_v33 rfl shapeCasts_S40000x1_S40000,
    unary main_v33 main_v34 (sitofp .f32 : (⟨S40000, .i32⟩ : BufTy).Contents (Elt F) → (⟨S40000, .f32⟩ : BufTy).Contents (Elt F)),
    nullary main_cst_6 (constant S_ .f32 0x3E23D70A#32),
    unary main_cst_6 main_v35 (broadcastInDim S40000 ![] bcast_S_S40000 : (⟨S_, .f32⟩ : BufTy).Contents (Elt F) → (⟨S40000, .f32⟩ : BufTy).Contents (Elt F)),
    binary main_v34 main_v35 main_v36 (mulf : (⟨S40000, .f32⟩ : BufTy).Contents (Elt F) → (⟨S40000, .f32⟩ : BufTy).Contents (Elt F) → (⟨S40000, .f32⟩ : BufTy).Contents (Elt F)),
    nullary main_cst_7 (constant S_ .f32 0x3DA3D70A#32),
    unary main_cst_7 main_v37 (broadcastInDim S40000 ![] bcast_S_S40000 : (⟨S_, .f32⟩ : BufTy).Contents (Elt F) → (⟨S40000, .f32⟩ : BufTy).Contents (Elt F)),
    binary main_v36 main_v37 main_v38 (addf : (⟨S40000, .f32⟩ : BufTy).Contents (Elt F) → (⟨S40000, .f32⟩ : BufTy).Contents (Elt F) → (⟨S40000, .f32⟩ : BufTy).Contents (Elt F)),
    nullary main_cst_8 (constant S_ .f32 0xC21EB852#32),
    unary main_cst_8 main_v39 (broadcastInDim S40000 ![] bcast_S_S40000 : (⟨S_, .f32⟩ : BufTy).Contents (Elt F) → (⟨S40000, .f32⟩ : BufTy).Contents (Elt F)),
    binary main_v38 main_v39 main_v40 (addf : (⟨S40000, .f32⟩ : BufTy).Contents (Elt F) → (⟨S40000, .f32⟩ : BufTy).Contents (Elt F) → (⟨S40000, .f32⟩ : BufTy).Contents (Elt F)),
    unary main_v40 main_v41 (broadcastInDim S40000x1 ![0] bcast_S40000_S40000x1_0 : (⟨S40000, .f32⟩ : BufTy).Contents (Elt F) → (⟨S40000x1, .f32⟩ : BufTy).Contents (Elt F)),
    nullary main_cst_9 (constant S_ .f32 0x3F800000#32),
    unary main_cst_9 main_v42 (broadcastInDim S1x100 ![] bcast_S_S1x100 : (⟨S_, .f32⟩ : BufTy).Contents (Elt F) → (⟨S1x100, .f32⟩ : BufTy).Contents (Elt F)),
    unary main_v41 main_v43 (broadcastInDim S40000x100 ![0, 1] bcast_S40000x1_S40000x100_0_1 : (⟨S40000x1, .f32⟩ : BufTy).Contents (Elt F) → (⟨S40000x100, .f32⟩ : BufTy).Contents (Elt F)),
    unary main_v42 main_v44 (broadcastInDim S40000x100 ![0, 1] bcast_S1x100_S40000x100_0_1 : (⟨S1x100, .f32⟩ : BufTy).Contents (Elt F) → (⟨S40000x100, .f32⟩ : BufTy).Contents (Elt F)),
    binary main_v43 main_v44 main_v45 (mulf : (⟨S40000x100, .f32⟩ : BufTy).Contents (Elt F) → (⟨S40000x100, .f32⟩ : BufTy).Contents (Elt F) → (⟨S40000x100, .f32⟩ : BufTy).Contents (Elt F)),
    nullary main_v46 (iotaInDim S100 32 0),
    unary main_v46 main_v47 (broadcastInDim S1x100 ![1] bcast_S100_S1x100_1 : (⟨S100, .i32⟩ : BufTy).Contents (Elt F) → (⟨S1x100, .i32⟩ : BufTy).Contents (Elt F)),
    unary main_arg4 main_v48 (broadcastInDim S40000x1 ![0] bcast_S40000_S40000x1_0 : (⟨S40000, .i32⟩ : BufTy).Contents (Elt F) → (⟨S40000x1, .i32⟩ : BufTy).Contents (Elt F)),
    unary main_v47 main_v49 (broadcastInDim S40000x100 ![0, 1] bcast_S1x100_S40000x100_0_1 : (⟨S1x100, .i32⟩ : BufTy).Contents (Elt F) → (⟨S40000x100, .i32⟩ : BufTy).Contents (Elt F)),
    unary main_v48 main_v50 (broadcastInDim S40000x100 ![0, 1] bcast_S40000x1_S40000x100_0_1 : (⟨S40000x1, .i32⟩ : BufTy).Contents (Elt F) → (⟨S40000x100, .i32⟩ : BufTy).Contents (Elt F)),
    binary main_v49 main_v50 main_v51 (cmpi .slt : (⟨S40000x100, .i32⟩ : BufTy).Contents (Elt F) → (⟨S40000x100, .i32⟩ : BufTy).Contents (Elt F) → (⟨S40000x100, .i1⟩ : BufTy).Contents (Elt F)),
    unary main_v51 main_v52 (uitofp .f32 : (⟨S40000x100, .i1⟩ : BufTy).Contents (Elt F) → (⟨S40000x100, .f32⟩ : BufTy).Contents (Elt F)),
    unary main_arg0 main_v53 (broadcastInDim S40000x100x1 ![0, 1] bcast_S40000x100_S40000x100x1_0_1 : (⟨S40000x100, .f32⟩ : BufTy).Contents (Elt F) → (⟨S40000x100x1, .f32⟩ : BufTy).Contents (Elt F)),
    unary main_arg1 main_v54 (broadcastInDim S40000x100x1 ![0, 1] bcast_S40000x100_S40000x100x1_0_1 : (⟨S40000x100, .f32⟩ : BufTy).Contents (Elt F) → (⟨S40000x100x1, .f32⟩ : BufTy).Contents (Elt F)),
    unary main_arg2 main_v55 (broadcastInDim S40000x100x1 ![0, 1] bcast_S40000x100_S40000x100x1_0_1 : (⟨S40000x100, .f32⟩ : BufTy).Contents (Elt F) → (⟨S40000x100x1, .f32⟩ : BufTy).Contents (Elt F)),
    unary main_arg3 main_v56 (broadcastInDim S40000x100x1 ![0, 1] bcast_S40000x100_S40000x100x1_0_1 : (⟨S40000x100, .f32⟩ : BufTy).Contents (Elt F) → (⟨S40000x100x1, .f32⟩ : BufTy).Contents (Elt F)),
    unary main_v13 main_v57 (broadcastInDim S40000x100x1 ![0, 1] bcast_S40000x100_S40000x100x1_0_1 : (⟨S40000x100, .f32⟩ : BufTy).Contents (Elt F) → (⟨S40000x100x1, .f32⟩ : BufTy).Contents (Elt F)),
    unary main_v15 main_v58 (broadcastInDim S40000x100x1 ![0, 1] bcast_S40000x100_S40000x100x1_0_1 : (⟨S40000x100, .f32⟩ : BufTy).Contents (Elt F) → (⟨S40000x100x1, .f32⟩ : BufTy).Contents (Elt F)),
    unary main_v17 main_v59 (broadcastInDim S40000x100x1 ![0, 1] bcast_S40000x100_S40000x100x1_0_1 : (⟨S40000x100, .f32⟩ : BufTy).Contents (Elt F) → (⟨S40000x100x1, .f32⟩ : BufTy).Contents (Elt F)),
    unary main_v31 main_v60 (broadcastInDim S40000x100x1 ![0, 1] bcast_S40000x100_S40000x100x1_0_1 : (⟨S40000x100, .f32⟩ : BufTy).Contents (Elt F) → (⟨S40000x100x1, .f32⟩ : BufTy).Contents (Elt F)),
    unary main_v45 main_v61 (broadcastInDim S40000x100x1 ![0, 1] bcast_S40000x100_S40000x100x1_0_1 : (⟨S40000x100, .f32⟩ : BufTy).Contents (Elt F) → (⟨S40000x100x1, .f32⟩ : BufTy).Contents (Elt F)),
    nary ![main_v53, main_v54, main_v55, main_v56, main_v57, main_v58, main_v59, main_v60, main_v61] main_v62 (fun u => concatenate S40000x100x9 2 [⟨S40000x100x1, u 0⟩, ⟨S40000x100x1, u 1⟩, ⟨S40000x100x1, u 2⟩, ⟨S40000x100x1, u 3⟩, ⟨S40000x100x1, u 4⟩, ⟨S40000x100x1, u 5⟩, ⟨S40000x100x1, u 6⟩, ⟨S40000x100x1, u 7⟩, ⟨S40000x100x1, u 8⟩] concatenates_S40000x100x1_S40000x100x1_S40000x100x1_S40000x100x1_S40000x100x1_S40000x100x1_S40000x100x1_S40000x100x1_S40000x100x1_S40000x100x9_d2),
    unary main_v52 main_v63 (broadcastInDim S40000x100x1 ![0, 1] bcast_S40000x100_S40000x100x1_0_1 : (⟨S40000x100, .f32⟩ : BufTy).Contents (Elt F) → (⟨S40000x100x1, .f32⟩ : BufTy).Contents (Elt F)),
    unary main_v63 main_v64 (broadcastInDim S40000x100x9 ![0, 1, 2] bcast_S40000x100x1_S40000x100x9_0_1_2 : (⟨S40000x100x1, .f32⟩ : BufTy).Contents (Elt F) → (⟨S40000x100x9, .f32⟩ : BufTy).Contents (Elt F)),
    binary main_v62 main_v64 main_v65 (mulf : (⟨S40000x100x9, .f32⟩ : BufTy).Contents (Elt F) → (⟨S40000x100x9, .f32⟩ : BufTy).Contents (Elt F) → (⟨S40000x100x9, .f32⟩ : BufTy).Contents (Elt F)),
    binary main_v65 main_arg6 main_v66 ((fun l r => Host.dotGeneral dot_S40000x100x9_S9x64_S40000x100x64_2_0_01_1_n_n none l r) : (⟨S40000x100x9, .f32⟩ : BufTy).Contents (Elt F) → (⟨S9x64, .f32⟩ : BufTy).Contents (Elt F) → (⟨S40000x100x64, .f32⟩ : BufTy).Contents (Elt F)),
    nullary main_cst_10 (constant S_ .f32 0x00000000#32),
    binary main_v66 main_cst_10 main_v67 ((fun x v => Host.reduceAdd x v reducesTo_S40000x100x64_S64_d0_1 h_S_) : (⟨S40000x100x64, .f32⟩ : BufTy).Contents (Elt F) → (⟨S_, .f32⟩ : BufTy).Contents (Elt F) → (⟨S64, .f32⟩ : BufTy).Contents (Elt F)),
    nullary main_cst_11 (constant S_ .f32 0x4A742400#32),
    unary main_cst_11 main_v68 (broadcastInDim S64 ![] bcast_S_S64 : (⟨S_, .f32⟩ : BufTy).Contents (Elt F) → (⟨S64, .f32⟩ : BufTy).Contents (Elt F)),
    binary main_v67 main_v68 main_v69 (Host.divf : (⟨S64, .f32⟩ : BufTy).Contents (Elt F) → (⟨S64, .f32⟩ : BufTy).Contents (Elt F) → (⟨S64, .f32⟩ : BufTy).Contents (Elt F)),
    nullary main_c_12 (constantI S_ 32 0#32),
    nullary main_call1_cst (constant S_ .f32 0x00000000#32),
    binary main_v66 main_call1_cst main_call1_v0 (fun x v => Host.reduceAdd x v reducesTo_S40000x100x64_S64_d0_1 h_S_),
    unary main_call1_v0 main_call1_v1 (broadcastInDim S1x1x64 ![2] bcast_S64_S1x1x64_2),
    nullary main_call1_cst_0 (constant S_ .f32 0x4A742400#32),
    unary main_call1_cst_0 main_call1_v2 (broadcastInDim S1x1x64 ![] bcast_S_S1x1x64),
    binary main_call1_v1 main_call1_v2 main_call1_v3 Host.divf,
    unary main_call1_v3 main_call1_v4 (broadcastInDim S40000x100x64 ![0, 1, 2] bcast_S1x1x64_S40000x100x64_0_1_2),
    binary main_v66 main_call1_v4 main_call1_v5 subf,
    binary main_call1_v5 main_call1_v5 main_call1_v6 mulf,
    unary main_c_12 main_call1_v7 (sitofp .f32),
    nullary main_call1_cst_1 (constant S_ .f32 0x4A742400#32),
    binary main_call1_cst_1 main_call1_v7 main_call1_v8 subf,
    nullary main_call1_cst_2 (constant S_ .f32 0x00000000#32),
    binary main_call1_v6 main_call1_cst_2 main_call1_v9 (fun x v => Host.reduceAdd x v reducesTo_S40000x100x64_S64_d0_1 h_S_),
    unary main_call1_v8 main_call1_v10 (broadcastInDim S64 ![] bcast_S_S64),
    binary main_call1_v9 main_call1_v10 main_call1_v11 Host.divf,
    nullary main_call1_cst_3 (constant S_ .f32 0x00000000#32),
    binary main_call1_v8 main_call1_cst_3 main_call1_v12 (cmpf .ogt),
    nullary main_call1_cst_4 (constant S_ .f32 0x7FC00000#32),
    unary main_call1_cst_4 main_call1_call0_v0 id,
    unary main_call1_call0_v0 main_call1_call0_v1 (broadcastInDim S64 ![] bcast_S_S64),
    ternary main_call1_v12 main_call1_v11 main_call1_call0_v1 main_v70 (fun p a b => select (broadcastInDim S64 ![] bcast_S_S64 p) a b),
    unary main_v69 main_v71 (broadcastInDim S1x1x64 ![2] bcast_S64_S1x1x64_2 : (⟨S64, .f32⟩ : BufTy).Contents (Elt F) → (⟨S1x1x64, .f32⟩ : BufTy).Contents (Elt F)),
    unary main_v71 main_v72 (broadcastInDim S40000x100x64 ![0, 1, 2] bcast_S1x1x64_S40000x100x64_0_1_2 : (⟨S1x1x64, .f32⟩ : BufTy).Contents (Elt F) → (⟨S40000x100x64, .f32⟩ : BufTy).Contents (Elt F)),
    binary main_v66 main_v72 main_v73 (subf : (⟨S40000x100x64, .f32⟩ : BufTy).Contents (Elt F) → (⟨S40000x100x64, .f32⟩ : BufTy).Contents (Elt F) → (⟨S40000x100x64, .f32⟩ : BufTy).Contents (Elt F)),
    nullary main_cst_13 (constant S_ .f32 0x3727C5AC#32),
    unary main_cst_13 main_v74 (broadcastInDim S64 ![] bcast_S_S64 : (⟨S_, .f32⟩ : BufTy).Contents (Elt F) → (⟨S64, .f32⟩ : BufTy).Contents (Elt F)),
    binary main_v70 main_v74 main_v75 (addf : (⟨S64, .f32⟩ : BufTy).Contents (Elt F) → (⟨S64, .f32⟩ : BufTy).Contents (Elt F) → (⟨S64, .f32⟩ : BufTy).Contents (Elt F)),
    unary main_v75 main_v76 (Host.rsqrt : (⟨S64, .f32⟩ : BufTy).Contents (Elt F) → (⟨S64, .f32⟩ : BufTy).Contents (Elt F)),
    unary main_v76 main_v77 (broadcastInDim S1x1x64 ![2] bcast_S64_S1x1x64_2 : (⟨S64, .f32⟩ : BufTy).Contents (Elt F) → (⟨S1x1x64, .f32⟩ : BufTy).Contents (Elt F)),
    unary main_v77 main_v78 (broadcastInDim S40000x100x64 ![0, 1, 2] bcast_S1x1x64_S40000x100x64_0_1_2 : (⟨S1x1x64, .f32⟩ : BufTy).Contents (Elt F) → (⟨S40000x100x64, .f32⟩ : BufTy).Contents (Elt F)),
    binary main_v73 main_v78 main_v79 (mulf : (⟨S40000x100x64, .f32⟩ : BufTy).Contents (Elt F) → (⟨S40000x100x64, .f32⟩ : BufTy).Contents (Elt F) → (⟨S40000x100x64, .f32⟩ : BufTy).Contents (Elt F)),
    unary main_arg7 main_v80 (broadcastInDim S1x1x64 ![2] bcast_S64_S1x1x64_2 : (⟨S64, .f32⟩ : BufTy).Contents (Elt F) → (⟨S1x1x64, .f32⟩ : BufTy).Contents (Elt F)),
    unary main_v80 main_v81 (broadcastInDim S40000x100x64 ![0, 1, 2] bcast_S1x1x64_S40000x100x64_0_1_2 : (⟨S1x1x64, .f32⟩ : BufTy).Contents (Elt F) → (⟨S40000x100x64, .f32⟩ : BufTy).Contents (Elt F)),
    binary main_v79 main_v81 main_v82 (mulf : (⟨S40000x100x64, .f32⟩ : BufTy).Contents (Elt F) → (⟨S40000x100x64, .f32⟩ : BufTy).Contents (Elt F) → (⟨S40000x100x64, .f32⟩ : BufTy).Contents (Elt F)),
    unary main_arg8 main_v83 (broadcastInDim S1x1x64 ![2] bcast_S64_S1x1x64_2 : (⟨S64, .f32⟩ : BufTy).Contents (Elt F) → (⟨S1x1x64, .f32⟩ : BufTy).Contents (Elt F)),
    unary main_v83 main_v84 (broadcastInDim S40000x100x64 ![0, 1, 2] bcast_S1x1x64_S40000x100x64_0_1_2 : (⟨S1x1x64, .f32⟩ : BufTy).Contents (Elt F) → (⟨S40000x100x64, .f32⟩ : BufTy).Contents (Elt F)),
    binary main_v82 main_v84 main_v85 (addf : (⟨S40000x100x64, .f32⟩ : BufTy).Contents (Elt F) → (⟨S40000x100x64, .f32⟩ : BufTy).Contents (Elt F) → (⟨S40000x100x64, .f32⟩ : BufTy).Contents (Elt F)),
    nullary main_call2_cst (constant S_ .f32 0x00000000#32),
    unary main_call2_cst main_call2_v0 (broadcastInDim S40000x100x64 ![] bcast_S_S40000x100x64),
    binary main_v85 main_call2_v0 main_v86 maximumf,
    nullary main_cst_14 (constant S_ .f32 0xFF800000#32),
    binary main_v86 main_cst_14 main_v87 ((fun x v => Host.reduce FloatOps.maximumf x v reducesTo_S40000x100x64_S40000x64_d1 h_S_) : (⟨S40000x100x64, .f32⟩ : BufTy).Contents (Elt F) → (⟨S_, .f32⟩ : BufTy).Contents (Elt F) → (⟨S40000x64, .f32⟩ : BufTy).Contents (Elt F)) ]

/-- The nine `[40000, 100, 1]` arrays stacked along the last axis. -/
def cat9 (x0 x1 x2 x3 x4 x5 x6 x7 x8 : (⟨S40000x100x1, .f32⟩ : BufTy).Contents (Elt F)) : (⟨S40000x100x9, .f32⟩ : BufTy).Contents (Elt F) :=
  concatenate S40000x100x9 2 [⟨S40000x100x1, x0⟩, ⟨S40000x100x1, x1⟩, ⟨S40000x100x1, x2⟩, ⟨S40000x100x1, x3⟩, ⟨S40000x100x1, x4⟩, ⟨S40000x100x1, x5⟩, ⟨S40000x100x1, x6⟩, ⟨S40000x100x1, x7⟩, ⟨S40000x100x1, x8⟩] concatenates_S40000x100x1_S40000x100x1_S40000x100x1_S40000x100x1_S40000x100x1_S40000x100x1_S40000x100x1_S40000x100x1_S40000x100x1_S40000x100x9_d2

/-- The nine-operand concatenation's result, each operand's contents at its own buffer. -/
theorem concat9_result (hxs hy) (V : Valuation τ sig (Elt F)) :
    (nary (τ := τ) ![main_v53, main_v54, main_v55, main_v56, main_v57, main_v58, main_v59, main_v60, main_v61] main_v62 (fun u => concatenate S40000x100x9 2 [⟨S40000x100x1, u 0⟩, ⟨S40000x100x1, u 1⟩, ⟨S40000x100x1, u 2⟩, ⟨S40000x100x1, u 3⟩, ⟨S40000x100x1, u 4⟩, ⟨S40000x100x1, u 5⟩, ⟨S40000x100x1, u 6⟩, ⟨S40000x100x1, u 7⟩, ⟨S40000x100x1, u 8⟩] concatenates_S40000x100x1_S40000x100x1_S40000x100x1_S40000x100x1_S40000x100x1_S40000x100x1_S40000x100x1_S40000x100x1_S40000x100x1_S40000x100x9_d2) hxs hy).result V (Proc.devRef .tc main_v62)
      = cat9 (V (Proc.devRef .tc main_v53)) (V (Proc.devRef .tc main_v54)) (V (Proc.devRef .tc main_v55)) (V (Proc.devRef .tc main_v56)) (V (Proc.devRef .tc main_v57)) (V (Proc.devRef .tc main_v58)) (V (Proc.devRef .tc main_v59)) (V (Proc.devRef .tc main_v60)) (V (Proc.devRef .tc main_v61)) :=
  nary_result _ _ _ hxs hy V

theorem concat9_result' (hxs hy) (V : Valuation τ sig (Elt F)) :
    (nary (τ := τ) ![main_v53, main_v54, main_v55, main_v56, main_v57, main_v58, main_v59, main_v60, main_v61] main_v62 (fun u => concatenate S40000x100x9 2 [⟨S40000x100x1, u 0⟩, ⟨S40000x100x1, u 1⟩, ⟨S40000x100x1, u 2⟩, ⟨S40000x100x1, u 3⟩, ⟨S40000x100x1, u 4⟩, ⟨S40000x100x1, u 5⟩, ⟨S40000x100x1, u 6⟩, ⟨S40000x100x1, u 7⟩, ⟨S40000x100x1, u 8⟩] concatenates_S40000x100x1_S40000x100x1_S40000x100x1_S40000x100x1_S40000x100x1_S40000x100x1_S40000x100x1_S40000x100x1_S40000x100x1_S40000x100x9_d2) hxs hy).result V (no_index (Proc.devRef .tc main_v62))
      = cat9 (V (Proc.devRef .tc main_v53)) (V (Proc.devRef .tc main_v54)) (V (Proc.devRef .tc main_v55)) (V (Proc.devRef .tc main_v56)) (V (Proc.devRef .tc main_v57)) (V (Proc.devRef .tc main_v58)) (V (Proc.devRef .tc main_v59)) (V (Proc.devRef .tc main_v60)) (V (Proc.devRef .tc main_v61)) :=
  concat9_result hxs hy V

-- one hundred and thirty binds re-associated: the rewrite under the chain recurses once per operation
set_option maxRecDepth 8192 in
set_option maxHeartbeats 4000000 in
/-- @main is that straight line: the callees' definitions unfolded at their calls and the records at their fields, both
    sides are one chain of steps once sequencing is re-associated. -/
theorem main_eq (c : Dev nD) : main (F := F) c = seq ops := by
  simp only [main, main_part0, main_part1, fn_clip.body, fn_var.body, fn_where.body, fn_relu.body, seq, bind_assoc, pure_bind] <;> rfl

theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., unary_bufs_sub .., unary_bufs_sub .., binary_bufs_sub .., unary_bufs_sub .., unary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., unary_bufs_sub .., binary_bufs_sub .., unary_bufs_sub .., binary_bufs_sub .., unary_bufs_sub .., binary_bufs_sub .., unary_bufs_sub .., reshape_bufs_sub .., unary_bufs_sub .., nullary_bufs_sub .., unary_bufs_sub .., binary_bufs_sub .., nullary_bufs_sub .., unary_bufs_sub .., binary_bufs_sub .., nullary_bufs_sub .., unary_bufs_sub .., binary_bufs_sub .., unary_bufs_sub .., nullary_bufs_sub .., unary_bufs_sub .., unary_bufs_sub .., unary_bufs_sub .., binary_bufs_sub .., unary_bufs_sub .., reshape_bufs_sub .., unary_bufs_sub .., nullary_bufs_sub .., unary_bufs_sub .., binary_bufs_sub .., nullary_bufs_sub .., unary_bufs_sub .., binary_bufs_sub .., nullary_bufs_sub .., unary_bufs_sub .., binary_bufs_sub .., unary_bufs_sub .., nullary_bufs_sub .., unary_bufs_sub .., unary_bufs_sub .., unary_bufs_sub .., binary_bufs_sub .., nullary_bufs_sub .., unary_bufs_sub .., unary_bufs_sub .., unary_bufs_sub .., unary_bufs_sub .., binary_bufs_sub .., unary_bufs_sub .., unary_bufs_sub .., unary_bufs_sub .., unary_bufs_sub .., unary_bufs_sub .., unary_bufs_sub .., unary_bufs_sub .., unary_bufs_sub .., unary_bufs_sub .., unary_bufs_sub .., nary_bufs_sub .., unary_bufs_sub .., unary_bufs_sub .., binary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., nullary_bufs_sub .., binary_bufs_sub ..⟩

set_option maxRecDepth 16384 in
set_option maxHeartbeats 8000000 in
/-- The result buffer after the line: each operation's result at its own buffer is its function's value, at any other
    what was there; the composed term is the staged one by unfolding. -/
theorem out_eq (V : Valuation τ sig (Elt F)) :
    after ops V (Proc.devRef .tc main_v87) = RefTerm.refOut (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) := by
  simp (disch := decide) only [after_cons, after_nil,
      nullary_result', unary_result', binary_result', ternary_result', reshape_result', concat9_result',
      nullary_result_ne', unary_result_ne', binary_result_ne', ternary_result_ne', reshape_result_ne', nary_result_ne']
  rfl

set_option maxRecDepth 16384 in
set_option maxHeartbeats 8000000 in
/-- No operation of the line writes an argument buffer. -/
theorem arg_eq (V : Valuation τ sig (Elt F)) :
    after ops V (Proc.devRef .tc main_arg0) = V (Proc.devRef .tc main_arg0)
    ∧ after ops V (Proc.devRef .tc main_arg1) = V (Proc.devRef .tc main_arg1)
    ∧ after ops V (Proc.devRef .tc main_arg2) = V (Proc.devRef .tc main_arg2)
    ∧ after ops V (Proc.devRef .tc main_arg3) = V (Proc.devRef .tc main_arg3)
    ∧ after ops V (Proc.devRef .tc main_arg4) = V (Proc.devRef .tc main_arg4)
    ∧ after ops V (Proc.devRef .tc main_arg5) = V (Proc.devRef .tc main_arg5)
    ∧ after ops V (Proc.devRef .tc main_arg6) = V (Proc.devRef .tc main_arg6)
    ∧ after ops V (Proc.devRef .tc main_arg7) = V (Proc.devRef .tc main_arg7)
    ∧ after ops V (Proc.devRef .tc main_arg8) = V (Proc.devRef .tc main_arg8) := by
  refine ⟨?_, ?_, ?_, ?_, ?_, ?_, ?_, ?_, ?_⟩ <;>
    simp (disch := decide) only [after_cons, after_nil,
      nullary_result', unary_result', binary_result', ternary_result', reshape_result', concat9_result',
      nullary_result_ne', unary_result_ne', binary_result_ne', ternary_result_ne', reshape_result_ne', nary_result_ne']

/-- Every weakly fair execution of the reference terminates, nothing faulting, with the result buffer at the composed
    term of the argument arrays as launched, and the argument arrays unchanged. -/
theorem run (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v87) = RefTerm.refOut (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c =>
      have ha := arg_eq (F := F) (launchContents _ c)
      ⟨(h c main_v87).trans (out_eq _), (h c main_arg0).trans ha.1, (h c main_arg1).trans ha.2.1,
        (h c main_arg2).trans ha.2.2.1, (h c main_arg3).trans ha.2.2.2.1, (h c main_arg4).trans ha.2.2.2.2.1,
        (h c main_arg5).trans ha.2.2.2.2.2.1, (h c main_arg6).trans ha.2.2.2.2.2.2.1,
        (h c main_arg7).trans ha.2.2.2.2.2.2.2.1, (h c main_arg8).trans ha.2.2.2.2.2.2.2.2⟩)
    (run_seq scopedRefs_eq scopedSems_eq defs main (fun _ => ops) main_eq (fun _ => ops_sub) m ρ)

end Cert.ReferenceIdeal.RefRun

end
-- ==== Proof.RefReadX.lean ====
/-
  The reference's linear layer read at an index: the nine stacked features, each times the mask, contracted with the
  weight, is the sum over the nine features of the masked feature times the weight's entry.
-/
import proofs.«173197_j214748364885_1_alg».proof.ReferenceIdeal
import proofs.«173197_j214748364885_1_alg».proof.Proof.RefTerm
import proofs.«173197_j214748364885_1_alg».proof.Proof.Spec
import proofs.«173197_j214748364885_1_alg».proof.Proof.LibKeepdims
import proofs.«173197_j214748364885_1_alg».proof.Proof.LibColumns
import proofs.«173197_j214748364885_1_alg».proof.Proof.LibIdealReal
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RefRead

open Idealize.ShloMosaic Idealize.ShloMosaic.ValueIdx
open Cert.ReferenceIdeal Cert.ReferenceIdeal.Facts₀ Cert.ReferenceIdeal.Facts Cert.Pillar

variable [Facts]

namespace XLayer

/-! ## Layout operations of the reference read at coordinates -/

section Layout
variable {α : Type}

/-- A scalar broadcast to any shape reads the scalar. -/
theorem bcast_scalar_apply {t : Shape} (dims : Fin S_.rank → Fin t.rank) (h : S_.BroadcastsInDim t dims) (x : S_.Idx → α)
    (i : t.Idx) : broadcastInDim t dims h x i = x ix0 :=
  broadcastInDim_apply dims h x i ix0 fun a => a.elim0

/-- A vector `[40000]` placed as the column `[40000, 1]` reads, at row `p`, the vector's entry `p`. -/
theorem col_of_vec_apply (x : S40000.Idx → α) (p : Fin 40000) (z : Fin 1) :
    broadcastInDim S40000x1 ![0] bcast_S40000_S40000x1_0 x (ix2 p z) = x (ix1 p) := by
  refine broadcastInDim_apply _ _ x _ (ix1 p) fun a => ?_
  match a with
  | ⟨0, _⟩ =>
    show p.val = if (40000 : ℕ) = 1 then 0 else p.val
    rw [if_neg (by decide)]

/-- A column `[40000, 1]` spread over the 100 points reads, at `(p, j)`, the column's entry of row `p`. -/
theorem full_of_col_apply (v : S40000x1.Idx → α) (p : Fin 40000) (j : Fin 100) :
    broadcastInDim S40000x100 ![0, 1] bcast_S40000x1_S40000x100_0_1 v (ix2 p j) = v (ix2 p (0 : Fin 1)) := by
  refine broadcastInDim_apply _ _ v _ (ix2 p (0 : Fin 1)) fun a => ?_
  match a with
  | ⟨0, _⟩ =>
    show p.val = if (40000 : ℕ) = 1 then 0 else p.val
    rw [if_neg (by decide)]
  | ⟨1, _⟩ => rfl

/-- A row `[1, 100]` spread over the rows reads, at `(p, j)`, the row's entry `j`. -/
theorem full_of_row_apply (v : S1x100.Idx → α) (p : Fin 40000) (j : Fin 100) :
    broadcastInDim S40000x100 ![0, 1] bcast_S1x100_S40000x100_0_1 v (ix2 p j) = v (ix2 (0 : Fin 1) j) := by
  refine broadcastInDim_apply _ _ v _ (ix2 (0 : Fin 1) j) fun a => ?_
  match a with
  | ⟨0, _⟩ => rfl
  | ⟨1, _⟩ =>
    show j.val = if (100 : ℕ) = 1 then 0 else j.val
    rw [if_neg (by decide)]

/-- A vector `[100]` placed as the row `[1, 100]` reads, at column `j`, the vector's entry `j`. -/
theorem row_of_vec_apply (x : S100.Idx → α) (z : Fin 1) (j : Fin 100) :
    broadcastInDim S1x100 ![1] bcast_S100_S1x100_1 x (ix2 z j) = x (ix1 j) := by
  refine broadcastInDim_apply _ _ x _ (ix1 j) fun a => ?_
  match a with
  | ⟨0, _⟩ =>
    show j.val = if (100 : ℕ) = 1 then 0 else j.val
    rw [if_neg (by decide)]

/-- A `[40000, 100]` array given a trailing unit axis reads, at `(p, j, z)`, the array at `(p, j)`. -/
theorem unit_axis_apply (x : S40000x100.Idx → α) (p : Fin 40000) (j : Fin 100) (z : Fin 1) :
    broadcastInDim S40000x100x1 ![0, 1] bcast_S40000x100_S40000x100x1_0_1 x (ix3 p j z) = x (ix2 p j) := by
  refine broadcastInDim_apply _ _ x _ (ix2 p j) fun a => ?_
  match a with
  | ⟨0, _⟩ =>
    show p.val = if (40000 : ℕ) = 1 then 0 else p.val
    rw [if_neg (by decide)]
  | ⟨1, _⟩ =>
    show j.val = if (100 : ℕ) = 1 then 0 else j.val
    rw [if_neg (by decide)]

/-- A `[40000, 100, 1]` array spread over nine features reads, at `(p, j, k)`, the array at `(p, j, 0)`. -/
theorem nine_of_unit_apply (x : S40000x100x1.Idx → α) (p : Fin 40000) (j : Fin 100) (k : Fin 9) :
    broadcastInDim S40000x100x9 ![0, 1, 2] bcast_S40000x100x1_S40000x100x9_0_1_2 x (ix3 p j k) = x (ix3 p j (0 : Fin 1)) := by
  refine broadcastInDim_apply _ _ x _ (ix3 p j (0 : Fin 1)) fun a => ?_
  match a with
  | ⟨0, _⟩ =>
    show p.val = if (40000 : ℕ) = 1 then 0 else p.val
    rw [if_neg (by decide)]
  | ⟨1, _⟩ =>
    show j.val = if (100 : ℕ) = 1 then 0 else j.val
    rw [if_neg (by decide)]
  | ⟨2, _⟩ => rfl

/-- The column `[40000, 1]` read as the vector `[40000]`: entry `p` is the column's row `p`. -/
theorem vec_of_col_apply (x : S40000x1.Idx → α) (p : Fin 40000) :
    shapeCast S40000 x shapeCasts_S40000x1_S40000 (ix1 p) = x (ix2 p (0 : Fin 1)) :=
  shapeCast_apply x _ _ _ (by
    rw [Shape.rowMajor_val_two, Shape.rowMajor_val_one]
    show p.val * 1 + 0 = p.val
    omega)

end Layout

/-! ## Three scalar facts -/

/-- The signed maximum of two words does not depend on their order. -/
theorem maxsi_comm (x y : BitVec 32) : IntOp.maxsi x y = IntOp.maxsi y x := by
  unfold IntOp.maxsi
  have hx : x.slt y = decide (x.toInt < y.toInt) := rfl
  have hy : y.slt x = decide (y.toInt < x.toInt) := rfl
  rw [hx, hy]
  by_cases h1 : y.toInt < x.toInt
  · have h2 : ¬ x.toInt < y.toInt := by omega
    simp [h1, h2]
  · by_cases h2 : x.toInt < y.toInt
    · simp [h1, h2]
    · have : x = y := BitVec.eq_of_toInt_eq (by omega)
      simp [this]

/-- A one-bit word converted unsigned is the same 0 or 1 as the word widened to 32 bits and converted signed. -/
theorem uitofp_bit (b : BitVec 1) :
    (FloatOps.uitofp (F := Ideal) .f32 b : EReal) = FloatOps.sitofp (F := Ideal) .f32 (b.setWidth 32) := by
  rw [IdealReal.sitofp_setWidth_bit]
  rcases BitVec.eq_zero_or_eq_one b with h | h <;> subst h
  · show (((0#1 : BitVec 1).toNat : ℝ) : EReal) = _
    simp
  · show (((1#1 : BitVec 1).toNat : ℝ) : EReal) = _
    simp

/-- The float word of 1.0 is the extended real 1. -/
theorem ofBits_one_f32 : Ideal.ofBits .f32 0x3F800000#32 = 1 := by
  simp [Ideal.ofBits, Ideal.ieee]
  rw [← EReal.coe_mul]
  norm_num

/-! ## The stages of the reference read at coordinates -/

theorem hostDivf_apply {s : Shape} (x y : FVec Ideal s .f32) (i : s.Idx) :
    (Host.divf (F := Ideal) x y : s.Idx → EReal) i = Ideal.div (x i) (y i) := rfl

/-- The clamped count column at row `p`. -/
theorem cntCol_apply (a4 : IVec S40000 32) (p : Fin 40000) (z : Fin 1) :
    (RefTerm.cntCol (F := Ideal) a4 : S40000x1.Idx → EReal) (ix2 p z) = cnt (cur1 (a4 : S40000.Idx → BitVec 32)) p := by
  unfold RefTerm.cntCol
  refine (col_of_vec_apply _ p z).trans ?_
  show FloatOps.sitofp (F := Ideal) .f32
    (IntOp.maxsi (broadcastInDim S40000 ![] bcast_S_S40000 (id (constantI S_ 32 1#32)) (ix1 p)) (a4 (ix1 p))) = _
  rw [bcast_scalar_apply]
  show FloatOps.sitofp (F := Ideal) .f32 (IntOp.maxsi 1#32 (a4 (ix1 p))) = _
  rw [maxsi_comm]
  rfl

/-- A channel's row sum from zero at row `p`: the sum over the 100 points. -/
theorem rowSum_apply (a : FVec Ideal S40000x100 .f32) (p : Fin 40000) :
    (Host.reduceAdd (F := Ideal) a (constant (F := Ideal) S_ .f32 0x00000000#32) reducesTo_S40000x100_S40000_d1 h_S_
      : S40000.Idx → EReal) (ix1 p) = ∑ j : Fin 100, (a : S40000x100.Idx → EReal) (ix2 p j) := by
  have hR : S40000x100.Reduces [1] S40000 := by decide
  show Ideal.hostReduceAdd reducesTo_S40000x100_S40000_d1 a (Ideal.ofBits .f32 0x00000000#32) (ix1 p) = _
  rw [Ideal.hostReduceAdd_single _ hR, Ideal.ofBits_zero_f32, zero_add]
  refine Finset.sum_congr rfl fun k _ => congrArg a (funext fun ax => Fin.ext ?_)
  match ax with
  | ⟨0, _⟩ => rfl
  | ⟨1, _⟩ => rfl

/-- A channel's mean column at row `p`. -/
theorem meanCol_apply (a : FVec Ideal S40000x100 .f32) (a4 : IVec S40000 32) (p : Fin 40000) (z : Fin 1) :
    (RefTerm.meanCol (F := Ideal) a a4 : S40000x1.Idx → EReal) (ix2 p z)
      = mean (cur2 (a : S40000x100.Idx → EReal)) (cur1 (a4 : S40000.Idx → BitVec 32)) p := by
  unfold RefTerm.meanCol
  rw [hostDivf_apply, col_of_vec_apply, rowSum_apply, cntCol_apply]
  rfl

theorem uitofp_apply' {s : Shape} {w : Nat} (x : IVec s w) (i : s.Idx) :
    (uitofp (F := Ideal) .f32 x : s.Idx → EReal) i = FloatOps.uitofp (F := Ideal) .f32 (x i) := rfl

theorem cmpi_apply' {s : Shape} {w : Nat} (pr : CmpIPredicate) (x y : IVec s w) (i : s.Idx) :
    cmpi pr x y i = IntOp.cmpi pr (x i) (y i) := rfl

/-- A channel less its row mean at `(p, j)`. -/
theorem offs_apply (a : FVec Ideal S40000x100 .f32) (a4 : IVec S40000 32) (p : Fin 40000) (j : Fin 100) :
    (RefTerm.offs (F := Ideal) a a4 : S40000x100.Idx → EReal) (ix2 p j)
      = (a : S40000x100.Idx → EReal) (ix2 p j)
        - mean (cur2 (a : S40000x100.Idx → EReal)) (cur1 (a4 : S40000.Idx → BitVec 32)) p := by
  unfold RefTerm.offs
  rw [subf_apply, full_of_col_apply, meanCol_apply]

/-- The all-ones array is 1 everywhere. -/
theorem ones_apply (p : Fin 40000) (j : Fin 100) : (RefTerm.ones (F := Ideal) : S40000x100.Idx → EReal) (ix2 p j) = 1 := by
  unfold RefTerm.ones
  rw [full_of_row_apply, bcast_scalar_apply, constant_apply, ofBits_one_f32]

/-- A cell-centre array at `(p, j)`: the cell index of row `p` times the cell size, plus half a cell, plus the origin. -/
theorem centre_apply (v : IVec S40000 32) (w : BitVec 32) (p : Fin 40000) (j : Fin 100) :
    (mulf (F := Ideal)
      (broadcastInDim S40000x100 ![0, 1] bcast_S40000x1_S40000x100_0_1
        (broadcastInDim S40000x1 ![0] bcast_S40000_S40000x1_0
          (addf
            (addf
              (mulf (sitofp .f32 v) (broadcastInDim S40000 ![] bcast_S_S40000 (constant S_ .f32 0x3E23D70A#32)))
              (broadcastInDim S40000 ![] bcast_S_S40000 (constant S_ .f32 0x3DA3D70A#32)))
            (broadcastInDim S40000 ![] bcast_S_S40000 (constant S_ .f32 w)))))
      RefTerm.ones : S40000x100.Idx → EReal) (ix2 p j)
      = (FloatOps.sitofp (F := Ideal) .f32 (v (ix1 p)) * c016 + c008) + Ideal.ofBits .f32 w := by
  rw [mulf_apply, ones_apply, mul_one, full_of_col_apply, col_of_vec_apply, addf_apply, addf_apply, mulf_apply,
    bcast_scalar_apply, bcast_scalar_apply, bcast_scalar_apply]
  rfl

/-- The x cell centre at `(p, j)`. -/
theorem bevxArr_apply (a5 : IVec S40000x4 32) (p : Fin 40000) (j : Fin 100) :
    (RefTerm.bevxArr (F := Ideal) a5 : S40000x100.Idx → EReal) (ix2 p j) = bevx (cur2 (a5 : S40000x4.Idx → BitVec 32)) p := by
  unfold RefTerm.bevxArr
  rw [centre_apply, vec_of_col_apply, Cert.Columns.slice_col_apply 3 a5 _ p 0 (3 : Fin 4) rfl]
  rfl

/-- The y cell centre at `(p, j)`. -/
theorem bevyArr_apply (a5 : IVec S40000x4 32) (p : Fin 40000) (j : Fin 100) :
    (RefTerm.bevyArr (F := Ideal) a5 : S40000x100.Idx → EReal) (ix2 p j) = bevy (cur2 (a5 : S40000x4.Idx → BitVec 32)) p := by
  unfold RefTerm.bevyArr
  rw [centre_apply, vec_of_col_apply, Cert.Columns.slice_col_apply 2 a5 _ p 0 (2 : Fin 4) rfl]
  rfl

/-- The validity mask at `(p, j)`. -/
theorem maskArr_apply (a4 : IVec S40000 32) (p : Fin 40000) (j : Fin 100) :
    (RefTerm.maskArr (F := Ideal) a4 : S40000x100.Idx → EReal) (ix2 p j) = mask (cur1 (a4 : S40000.Idx → BitVec 32)) p j := by
  unfold RefTerm.maskArr
  rw [uitofp_apply', cmpi_apply', full_of_row_apply, row_of_vec_apply, full_of_col_apply, col_of_vec_apply, uitofp_bit]
  rfl

/-- An array with a trailing unit axis at `(p, j, z)`. -/
theorem unit3_apply (a : FVec Ideal S40000x100 .f32) (p : Fin 40000) (j : Fin 100) (z : Fin 1) :
    (RefTerm.unit3 (F := Ideal) a : S40000x100x1.Idx → EReal) (ix3 p j z) = (a : S40000x100.Idx → EReal) (ix2 p j) := by
  unfold RefTerm.unit3
  exact unit_axis_apply _ p j z

/-- Nine `[40000, 100, 1]` arrays stacked on the last axis, read at `(p, j, k)`: the `k`-th at `(p, j, 0)`. -/
theorem concat9_apply {α : Type} (x0 x1 x2 x3 x4 x5 x6 x7 x8 : S40000x100x1.Idx → α)
    (h : Shape.Concatenates
      (([⟨S40000x100x1, x0⟩, ⟨S40000x100x1, x1⟩, ⟨S40000x100x1, x2⟩, ⟨S40000x100x1, x3⟩, ⟨S40000x100x1, x4⟩,
         ⟨S40000x100x1, x5⟩, ⟨S40000x100x1, x6⟩, ⟨S40000x100x1, x7⟩, ⟨S40000x100x1, x8⟩] :
        List ((s : Shape) × (s.Idx → α))).map (·.1)) S40000x100x9 2)
    (p : Fin 40000) (j : Fin 100) (k : Fin 9) :
    concatenate S40000x100x9 2
        [⟨S40000x100x1, x0⟩, ⟨S40000x100x1, x1⟩, ⟨S40000x100x1, x2⟩, ⟨S40000x100x1, x3⟩, ⟨S40000x100x1, x4⟩,
         ⟨S40000x100x1, x5⟩, ⟨S40000x100x1, x6⟩, ⟨S40000x100x1, x7⟩, ⟨S40000x100x1, x8⟩] h (ix3 p j k)
      = (![x0, x1, x2, x3, x4, x5, x6, x7, x8] k) (ix3 p j (0 : Fin 1)) := by
  have hi : ∀ b : Fin S40000x100x1.rank, b.cast (rfl : (3 : Nat) = 3) ≠ (2 : Fin 3) →
      ((ix3 p j (0 : Fin 1)) b).val = ((ix3 p j k) (b.cast rfl)).val := fun b hb => by
    match b with
    | ⟨0, _⟩ => rfl
    | ⟨1, _⟩ => rfl
    | ⟨2, _⟩ => exact absurd rfl hb
  match k with
  | ⟨0, _⟩ => exact concatenate_apply_piece 2 _ h _ 0 (show 0 < 9 by decide) _ x0 rfl rfl 0 rfl (ix3 p j 0) hi rfl
  | ⟨1, _⟩ => exact concatenate_apply_piece 2 _ h _ 1 (show 1 < 9 by decide) _ x1 rfl rfl 1 rfl (ix3 p j 0) hi rfl
  | ⟨2, _⟩ => exact concatenate_apply_piece 2 _ h _ 2 (show 2 < 9 by decide) _ x2 rfl rfl 2 rfl (ix3 p j 0) hi rfl
  | ⟨3, _⟩ => exact concatenate_apply_piece 2 _ h _ 3 (show 3 < 9 by decide) _ x3 rfl rfl 3 rfl (ix3 p j 0) hi rfl
  | ⟨4, _⟩ => exact concatenate_apply_piece 2 _ h _ 4 (show 4 < 9 by decide) _ x4 rfl rfl 4 rfl (ix3 p j 0) hi rfl
  | ⟨5, _⟩ => exact concatenate_apply_piece 2 _ h _ 5 (show 5 < 9 by decide) _ x5 rfl rfl 5 rfl (ix3 p j 0) hi rfl
  | ⟨6, _⟩ => exact concatenate_apply_piece 2 _ h _ 6 (show 6 < 9 by decide) _ x6 rfl rfl 6 rfl (ix3 p j 0) hi rfl
  | ⟨7, _⟩ => exact concatenate_apply_piece 2 _ h _ 7 (show 7 < 9 by decide) _ x7 rfl rfl 7 rfl (ix3 p j 0) hi rfl
  | ⟨8, _⟩ => exact concatenate_apply_piece 2 _ h _ 8 (show 8 < 9 by decide) _ x8 rfl rfl 8 rfl (ix3 p j 0) hi rfl

/-- The masked nine-feature array at `(p, j, k)`: feature `k` of point `j` of row `p`, times the mask. -/
theorem featsArr_apply (a0 a1 a2 a3 : FVec Ideal S40000x100 .f32) (a4 : IVec S40000 32) (a5 : IVec S40000x4 32)
    (p : Fin 40000) (j : Fin 100) (k : Fin 9) :
    (RefTerm.featsArr (F := Ideal) a0 a1 a2 a3 a4 a5 : S40000x100x9.Idx → EReal) (ix3 p j k)
      = feat (cur2 (a0 : S40000x100.Idx → EReal)) (cur2 (a1 : S40000x100.Idx → EReal)) (cur2 (a2 : S40000x100.Idx → EReal))
          (cur2 (a3 : S40000x100.Idx → EReal)) (cur1 (a4 : S40000.Idx → BitVec 32)) (cur2 (a5 : S40000x4.Idx → BitVec 32)) k p j
        * mask (cur1 (a4 : S40000.Idx → BitVec 32)) p j := by
  unfold RefTerm.featsArr
  rw [mulf_apply, nine_of_unit_apply, unit3_apply, maskArr_apply, concat9_apply]
  congr 1
  match k with
  | ⟨0, _⟩ => exact unit3_apply a0 p j 0
  | ⟨1, _⟩ => exact unit3_apply a1 p j 0
  | ⟨2, _⟩ => exact unit3_apply a2 p j 0
  | ⟨3, _⟩ => exact unit3_apply a3 p j 0
  | ⟨4, _⟩ => exact (unit3_apply _ p j 0).trans (offs_apply a0 a4 p j)
  | ⟨5, _⟩ => exact (unit3_apply _ p j 0).trans (offs_apply a1 a4 p j)
  | ⟨6, _⟩ => exact (unit3_apply _ p j 0).trans (offs_apply a2 a4 p j)
  | ⟨7, _⟩ => exact (unit3_apply _ p j 0).trans (bevxArr_apply a5 p j)
  | ⟨8, _⟩ => exact (unit3_apply _ p j 0).trans (bevyArr_apply a5 p j)

/-! ## The contraction -/

/-- The contraction over the nine features read at `(p, j, d)`. -/
theorem dot_apply (L : FVec Ideal S40000x100x9 .f32) (w : FVec Ideal S9x64 .f32) (p : Fin 40000) (j : Fin 100) (d : Fin 64) :
    (Host.dotGeneral (F := Ideal) dot_S40000x100x9_S9x64_S40000x100x64_2_0_01_1_n_n none L w : S40000x100x64.Idx → EReal) (ix3 p j d)
      = ∑ k : Fin 9, (L : S40000x100x9.Idx → EReal) (ix3 p j k) * (w : S9x64.Idx → EReal) (ix2 k d) := by
  show FloatOps.dotGeneral _ none _ L w (ix3 p j d) = _
  rw [Ideal.dotGeneral_apply, ← Equiv.sum_comp (contrEquiv1 dot_S40000x100x9_S9x64_S40000x100x64_2_0_01_1_n_n 9 rfl rfl).symm]
  refine Finset.sum_congr rfl fun c _ => ?_
  have c3 := contrEquiv1_symm_val dot_S40000x100x9_S9x64_S40000x100x64_2_0_01_1_n_n 9 rfl rfl c
  have l3 : dot_S40000x100x9_S9x64_S40000x100x64_2_0_01_1_n_n.lhsIdx (ix3 p j d) ((contrEquiv1 _ 9 rfl rfl).symm c) = ix3 p j c := by
    funext ax; apply Fin.ext
    match ax with
    | ⟨0, _⟩ => simp [DotDims.lhsIdx, dot_S40000x100x9_S9x64_S40000x100x64_2_0_01_1_n_n]; rfl
    | ⟨1, _⟩ => simp [DotDims.lhsIdx, dot_S40000x100x9_S9x64_S40000x100x64_2_0_01_1_n_n]; rfl
    | ⟨2, _⟩ => simp [DotDims.lhsIdx, dot_S40000x100x9_S9x64_S40000x100x64_2_0_01_1_n_n]; exact c3
  have r3 : dot_S40000x100x9_S9x64_S40000x100x64_2_0_01_1_n_n.rhsIdx (ix3 p j d) ((contrEquiv1 _ 9 rfl rfl).symm c) = ix2 c d := by
    funext ax; apply Fin.ext
    match ax with
    | ⟨0, _⟩ => simp [DotDims.rhsIdx, dot_S40000x100x9_S9x64_S40000x100x64_2_0_01_1_n_n]; exact c3
    | ⟨1, _⟩ => simp [DotDims.rhsIdx, dot_S40000x100x9_S9x64_S40000x100x64_2_0_01_1_n_n]; rfl
  rw [l3, r3]

end XLayer

/-- The layer's values from the reference's argument arrays. -/
def Xr (a0 a1 a2 a3 : FVec Ideal S40000x100 .f32) (a4 : IVec S40000 32) (a5 : IVec S40000x4 32) (a6 : FVec Ideal S9x64 .f32) :
    Fin 40000 → Fin 100 → Fin 64 → EReal :=
  X (cur2 (a0 : S40000x100.Idx → EReal)) (cur2 (a1 : S40000x100.Idx → EReal)) (cur2 (a2 : S40000x100.Idx → EReal))
    (cur2 (a3 : S40000x100.Idx → EReal)) (cur1 (a4 : S40000.Idx → BitVec 32)) (cur2 (a5 : S40000x4.Idx → BitVec 32))
    (cur2 (a6 : S9x64.Idx → EReal))

/-- The reference's layer value at row `p`, point `j`, channel `d`. -/
theorem xArr_apply (a0 a1 a2 a3 : FVec Ideal S40000x100 .f32) (a4 : IVec S40000 32) (a5 : IVec S40000x4 32)
    (a6 : FVec Ideal S9x64 .f32) (p : Fin 40000) (j : Fin 100) (d : Fin 64) :
    (RefTerm.xArr (F := Ideal) a0 a1 a2 a3 a4 a5 a6 : S40000x100x64.Idx → EReal) (ix3 p j d) = Xr a0 a1 a2 a3 a4 a5 a6 p j d := by
  unfold RefTerm.xArr Xr X
  rw [XLayer.dot_apply]
  refine Finset.sum_congr rfl fun k _ => ?_
  rw [XLayer.featsArr_apply]

end Cert.ReferenceIdeal.RefRead

end
-- ==== Proof.LibExtremum.lean ====
/-
  Extremes through reductions, on the extended reals.

  A minimum-reduction over some axes of an array, started from +∞, leaves at each reduced index the
  minimum of the entries that drop to it. Taking the infimum of THAT over every reduced index gives
  the infimum of every entry of the source: each entry drops to exactly one reduced index. A shape
  cast only renames indices along a bijection, so it keeps the infimum of all entries as well. A chain
  of reductions and shape casts that ends in an array with a single index therefore holds, at that
  index, the infimum of every entry of the array the chain began with — whatever the order in which
  the axes were reduced. The same holds with maximum, −∞ and supremum.

  For a reduction over ONE axis by the host the reduced entry is read directly as the infimum (or
  supremum) over that axis's coordinates.
-/
import Idealize.ShloMosaic.PureOps.Ideal.Laws

noncomputable section

namespace Cert.Extremum

open Idealize.ShloMosaic

variable {φ : FTy}

/-! ## Folds of `min` and `max` as infimum and supremum -/

/-- Folding `min` from +∞ over a finite set of indices gives the infimum over the set. -/
theorem fold_min_top {ι : Type} (S : Finset ι) (f : ι → EReal) : S.fold min (⊤ : EReal) f = ⨅ k ∈ S, f k :=
  eq_of_forall_le_iff fun z => by
    rw [Finset.le_fold_min]
    simp only [le_top, true_and, le_iInf_iff]

/-- Folding `max` from −∞ over a finite set of indices gives the supremum over the set. -/
theorem fold_max_bot {ι : Type} (S : Finset ι) (f : ι → EReal) : S.fold max (⊥ : EReal) f = ⨆ k ∈ S, f k :=
  eq_of_forall_ge_iff fun z => by
    rw [Finset.fold_max_le]
    simp only [bot_le, true_and, iSup_le_iff]

/-- Over every index of a finite type: the fold of `min` from +∞ is the infimum. -/
theorem fold_min_top_univ {ι : Type} [Fintype ι] (f : ι → EReal) : Finset.univ.fold min (⊤ : EReal) f = ⨅ k, f k := by
  rw [fold_min_top]; simp only [Finset.mem_univ, iInf_pos]

/-- Over every index of a finite type: the fold of `max` from −∞ is the supremum. -/
theorem fold_max_bot_univ {ι : Type} [Fintype ι] (f : ι → EReal) : Finset.univ.fold max (⊥ : EReal) f = ⨆ k, f k := by
  rw [fold_max_bot]; simp only [Finset.mem_univ, iSup_pos]

/-! ## An index type with one element -/

/-- Over an index type with at most one element the infimum is the value at any index. -/
theorem iInf_of_subsingleton {ι : Type} [Subsingleton ι] (g : ι → EReal) (j : ι) : (⨅ j', g j') = g j :=
  le_antisymm (iInf_le _ j) (le_iInf fun j' => by rw [Subsingleton.elim j' j])

/-- Over an index type with at most one element the supremum is the value at any index. -/
theorem iSup_of_subsingleton {ι : Type} [Subsingleton ι] (g : ι → EReal) (j : ι) : (⨆ j', g j') = g j :=
  le_antisymm (iSup_le fun j' => by rw [Subsingleton.elim j' j]) (le_iSup _ j)

/-! ## A shape cast keeps the extremes of all entries -/

/-- A shape cast reads its operand along a bijection of indices: the infimum of all entries is unchanged. -/
theorem iInf_shapeCast {s t : Shape} (v : s.Idx → EReal) (h : s.ShapeCasts t) :
    (⨅ j : t.Idx, shapeCast t v h j) = ⨅ i : s.Idx, v i :=
  (Shape.reshapeEquiv h).iInf_comp (g := v)

/-- And so is the supremum. -/
theorem iSup_shapeCast {s t : Shape} (v : s.Idx → EReal) (h : s.ShapeCasts t) :
    (⨆ j : t.Idx, shapeCast t v h j) = ⨆ i : s.Idx, v i :=
  (Shape.reshapeEquiv h).iSup_comp (g := v)

/-! ## A reduction, then the extreme over what is left -/

/-- A minimum-reduction from +∞ over any axes, followed by the infimum over the reduced indices, is the infimum of
    every entry of the source: the entry at `i` is among those folded at the index `i` drops to, and every entry folded
    at a reduced index is an entry of the source. -/
theorem iInf_multiReduction_min {s t : Shape} {axes : List (Fin s.rank)} (src : FVec Ideal s φ) (acc : BitVec φ.bits)
    (h : s.Reduces axes t) (hφ : FKind.Formats φ) (hacc : acc = FKind.minimumf.neutral φ hφ)
    (htop : (FloatOps.ofBits φ acc : Ideal φ) = (⊤ : EReal)) :
    (⨅ j : t.Idx, (multiReduction .minimumf axes t src acc h hφ hacc j : EReal)) = ⨅ i : s.Idx, (src i : EReal) := by
  have hf : ∀ j : t.Idx, (multiReduction .minimumf axes t src acc h hφ hacc j : EReal)
      = (Finset.univ.filter fun i => h.drop i = j).fold min (⊤ : EReal) src := fun j => by
    rw [multiReduction_minimumf_eq_fold, htop]; rfl
  apply le_antisymm
  · refine le_iInf fun i => (iInf_le _ (h.drop i)).trans ?_
    rw [hf]
    exact (Finset.fold_min_le _).2 (Or.inr ⟨i, Finset.mem_filter.2 ⟨Finset.mem_univ _, rfl⟩, le_rfl⟩)
  · refine le_iInf fun j => ?_
    rw [hf, Finset.le_fold_min]
    exact ⟨le_top, fun i _ => iInf_le _ i⟩

/-- A maximum-reduction from −∞ over any axes, followed by the supremum over the reduced indices, is the supremum of
    every entry of the source. -/
theorem iSup_multiReduction_max {s t : Shape} {axes : List (Fin s.rank)} (src : FVec Ideal s φ) (acc : BitVec φ.bits)
    (h : s.Reduces axes t) (hφ : FKind.Formats φ) (hacc : acc = FKind.maximumf.neutral φ hφ)
    (hbot : (FloatOps.ofBits φ acc : Ideal φ) = (⊥ : EReal)) :
    (⨆ j : t.Idx, (multiReduction .maximumf axes t src acc h hφ hacc j : EReal)) = ⨆ i : s.Idx, (src i : EReal) := by
  have hf : ∀ j : t.Idx, (multiReduction .maximumf axes t src acc h hφ hacc j : EReal)
      = (Finset.univ.filter fun i => h.drop i = j).fold max (⊥ : EReal) src := fun j => by
    rw [multiReduction_maximumf_eq_fold, hbot]; rfl
  apply le_antisymm
  · refine iSup_le fun j => ?_
    rw [hf, Finset.fold_max_le]
    exact ⟨bot_le, fun i _ => le_iSup _ i⟩
  · refine iSup_le fun i => le_trans ?_ (le_iSup _ (h.drop i))
    rw [hf]
    exact (Finset.le_fold_max _).2 (Or.inr ⟨i, Finset.mem_filter.2 ⟨Finset.mem_univ _, rfl⟩, le_rfl⟩)

/-! ## The host's reduction over one axis -/

/-- The host's reduce with a minimum body over ONE axis, from an initial value that is +∞: at a reduced index, the
    infimum of the operand over that axis's coordinates (the reduced index with the coordinate put back). -/
theorem hostReduce_min_single {s t u : Shape} {a : Fin s.rank} (x : s.Idx → Ideal φ) (init : u.Idx → Ideal φ)
    (h' : s.ReducesTo [a] t) (h : s.Reduces [a] t) (hu : 0 < u.numel) (hinit : init (Shape.Idx.first hu) = (⊤ : EReal))
    (j : t.Idx) :
    (Host.reduce (FloatOps.minimumf (F := Ideal) (φ := φ)) x init h' hu j : EReal) = ⨅ k : Fin (s.size a), (x (h.lift j k) : EReal) := by
  rw [Host.reduce_eq_fold_single (FloatOps.minimumf (F := Ideal) (φ := φ)) x init h' h hu j, hinit]
  exact fold_min_top_univ (fun k => x (h.lift j k))

/-- The same with a maximum body from −∞: the supremum over that axis's coordinates. -/
theorem hostReduce_max_single {s t u : Shape} {a : Fin s.rank} (x : s.Idx → Ideal φ) (init : u.Idx → Ideal φ)
    (h' : s.ReducesTo [a] t) (h : s.Reduces [a] t) (hu : 0 < u.numel) (hinit : init (Shape.Idx.first hu) = (⊥ : EReal))
    (j : t.Idx) :
    (Host.reduce (FloatOps.maximumf (F := Ideal) (φ := φ)) x init h' hu j : EReal) = ⨆ k : Fin (s.size a), (x (h.lift j k) : EReal) := by
  rw [Host.reduce_eq_fold_single (FloatOps.maximumf (F := Ideal) (φ := φ)) x init h' h hu j, hinit]
  exact fold_max_bot_univ (fun k => x (h.lift j k))

/-! ## The two infinite words -/

/-- The f32 word of +∞ is the top of the extended reals. -/
theorem ofBits_posInf_f32 : (FloatOps.ofBits (F := Ideal) .f32 0x7F800000#32 : EReal) = ⊤ := by
  show Ideal.ofBits .f32 0x7F800000#32 = ⊤
  simp [Ideal.ofBits, Ideal.ieee]

/-- The f32 word of −∞ is the bottom of the extended reals. -/
theorem ofBits_negInf_f32 : (FloatOps.ofBits (F := Ideal) .f32 0xFF800000#32 : EReal) = ⊥ := by
  show Ideal.ofBits .f32 0xFF800000#32 = ⊥
  simp [Ideal.ofBits, Ideal.ieee]

end Cert.Extremum

end
-- ==== Proof.RefReadOut.lean ====
/-
  The reference's statistics and output read at an index, for any array of layer values: the per-channel mean is the
  sum over all rows and points over `N`, the variance the mean of the squared deviations (the comparison of constants
  selects it, not the not-a-number word), and the result the maximum over a row's points from −∞.
-/
import proofs.«173197_j214748364885_1_alg».proof.ReferenceIdeal
import proofs.«173197_j214748364885_1_alg».proof.Proof.RefTerm
import proofs.«173197_j214748364885_1_alg».proof.Proof.Spec
import proofs.«173197_j214748364885_1_alg».proof.Proof.LibExtremum
import proofs.«173197_j214748364885_1_alg».proof.Proof.LibIdealReal
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost

noncomputable section

namespace Cert.ReferenceIdeal.RefRead

open Idealize.ShloMosaic Idealize.ShloMosaic.ValueIdx
open Cert.ReferenceIdeal Cert.ReferenceIdeal.Facts₀ Cert.ReferenceIdeal.Facts Cert.Pillar

variable [Facts]

namespace Out

/-! ## Layout: a per-channel vector spread over rows and points -/

section Layout
variable {α : Type}

/-- A `[1, 1, 64]` array spread over every row and point reads, at `(p, j, d)`, its entry `(0, 0, d)`. -/
theorem full_of_unit_apply (w : S1x1x64.Idx → α) (p : Fin 40000) (j : Fin 100) (d : Fin 64) :
    broadcastInDim S40000x100x64 ![0, 1, 2] bcast_S1x1x64_S40000x100x64_0_1_2 w (ix3 p j d)
      = w (ix3 (0 : Fin 1) (0 : Fin 1) d) :=
  broadcastInDim_apply _ _ w _ (ix3 (0 : Fin 1) (0 : Fin 1) d) fun a => by
    match a with
    | ⟨0, _⟩ => rfl
    | ⟨1, _⟩ => rfl
    | ⟨2, _⟩ => rfl

/-- A vector `[64]` placed as `[1, 1, 64]` reads, at `(0, 0, d)`, the vector's entry `d`. -/
theorem unit_of_vec_apply (v : S64.Idx → α) (z z' : Fin 1) (d : Fin 64) :
    broadcastInDim S1x1x64 ![2] bcast_S64_S1x1x64_2 v (ix3 z z' d) = v (ix1 d) :=
  broadcastInDim_apply _ _ v _ (ix1 d) fun a => by
    match a with
    | ⟨0, _⟩ => rfl

end Layout

/-- A per-channel vector over every row and point reads the channel's entry. -/
theorem chan3_apply (v : FVec Ideal S64 .f32) (p : Fin 40000) (j : Fin 100) (d : Fin 64) :
    RefTerm.chan3 (F := Ideal) v (ix3 p j d) = v (ix1 d) := by
  unfold RefTerm.chan3
  rw [full_of_unit_apply, unit_of_vec_apply]

/-! ## The sum over rows and points -/

section General
variable {n0 n1 n2 : Nat}

/-- Dropping the two leading axes of `(p, j, d)` leaves `(d)`. -/
theorem drop01_ix3 (h : (⟨3, ![n0, n1, n2]⟩ : Shape).ReducesTo [0, 1] ⟨1, ![n2]⟩) (p : Fin n0) (j : Fin n1) (d : Fin n2) :
    h.drop (ix3 p j d) = ix1 d := by
  funext b
  match b with
  | ⟨0, _⟩ => rfl

/-- An index that drops to `(d)` is (its row, its point, `d`). -/
theorem eq_ix3_of_drop01 (h : (⟨3, ![n0, n1, n2]⟩ : Shape).ReducesTo [0, 1] ⟨1, ![n2]⟩)
    (i : (⟨3, ![n0, n1, n2]⟩ : Shape).Idx) (d : Fin n2) (hi : h.drop i = ix1 d) : i = ix3 (i 0) (i 1) d := by
  have hd : i 2 = d := congrFun hi 0
  funext a
  match a with
  | ⟨0, _⟩ => rfl
  | ⟨1, _⟩ => rfl
  | ⟨2, _⟩ => exact hd

/-- The entries that drop to `(d)`, summed, are the double sum over rows and points of channel `d`. -/
theorem sum_filter_drop01 (h : (⟨3, ![n0, n1, n2]⟩ : Shape).ReducesTo [0, 1] ⟨1, ![n2]⟩)
    (x : (⟨3, ![n0, n1, n2]⟩ : Shape).Idx → EReal) (d : Fin n2) :
    ∑ i ∈ Finset.univ.filter (fun i => h.drop i = ix1 d), x i = ∑ p : Fin n0, ∑ j : Fin n1, x (ix3 p j d) := by
  rw [← Fintype.sum_prod_type' (f := fun (p : Fin n0) (j : Fin n1) => x (ix3 p j d))]
  refine Finset.sum_nbij' (fun i => ((i 0 : Fin n0), (i 1 : Fin n1)))
    (fun q : Fin n0 × Fin n1 => ix3 q.1 q.2 d) ?_ ?_ ?_ ?_ ?_
  · intro i _; exact Finset.mem_univ _
  · intro q _; exact Finset.mem_filter.2 ⟨Finset.mem_univ _, drop01_ix3 h q.1 q.2 d⟩
  · intro i hi; exact (eq_ix3_of_drop01 h i d (Finset.mem_filter.1 hi).2).symm
  · intro q _; rfl
  · intro i hi; exact congrArg x (eq_ix3_of_drop01 h i d (Finset.mem_filter.1 hi).2)

/-- Row `p`, channel `d` with point `k` put back on the middle axis is `(p, k, d)`. -/
theorem lift1_ix2 (h : (⟨3, ![n0, n1, n2]⟩ : Shape).Reduces [1] ⟨2, ![n0, n2]⟩) (p : Fin n0) (d : Fin n2) (k : Fin n1) :
    h.lift (ix2 p d) k = ix3 p k d := by
  funext c
  apply Fin.ext
  match c with
  | ⟨0, _⟩ => rfl
  | ⟨1, _⟩ => rfl
  | ⟨2, _⟩ => rfl

end General

/-- The sum over the rows and points of one channel, from the zero word. -/
theorem sum01_apply (x : FVec Ideal S40000x100x64 .f32) (d : Fin 64) :
    (Host.reduceAdd (F := Ideal) x (constant (F := Ideal) S_ .f32 0x00000000#32) reducesTo_S40000x100x64_S64_d0_1 h_S_ (ix1 d) : EReal)
      = ∑ p : Fin 40000, ∑ j : Fin 100, (x (ix3 p j d) : EReal) := by
  rw [hostReduceAdd_apply]
  show Ideal.hostReduceAdd _ x (Ideal.ofBits .f32 0x00000000#32) (ix1 d) = _
  rw [Ideal.ofBits_zero_f32]
  unfold Ideal.hostReduceAdd
  rw [zero_add]
  exact sum_filter_drop01 reducesTo_S40000x100x64_S64_d0_1 x d

/-! ## The constants -/

/-- The count word is the real 4 000 000. -/
theorem cN_eq : (cN : EReal) = ((4000000 : ℝ) : EReal) := by
  show Ideal.ofBits .f32 0x4A742400#32 = _
  simp [Ideal.ofBits, Ideal.ieee, -EReal.coe_mul]
  norm_num

/-- The count is greater than zero. -/
theorem cmp_cN : Ideal.cmp .ogt (cN : EReal) (c000 : EReal) = 1#1 := by
  have h0 : (c000 : EReal) = ((0 : ℝ) : EReal) := by
    show Ideal.ofBits .f32 0x00000000#32 = _
    rw [Ideal.ofBits_zero_f32, EReal.coe_zero]
  rw [cN_eq, h0, IdealReal.cmp_ogt_coe, if_pos (by norm_num)]

/-- The variance's divisor is the count: the correction subtracted is zero. -/
theorem varDen_apply (i : S_.Idx) : (RefTerm.varDen (F := Ideal) i : EReal) = cN := by
  unfold RefTerm.varDen
  rw [subf_apply, constant_apply, sitofp_apply]
  show cN - (((0#32 : BitVec 32).toInt : ℝ) : EReal) = cN
  simp

/-! ## Mean and variance -/

/-- The per-channel mean. -/
theorem muVec_apply (x : FVec Ideal S40000x100x64 .f32) (d : Fin 64) :
    (RefTerm.muVec (F := Ideal) x (ix1 d) : EReal) = mu (cur3 (x : S40000x100x64.Idx → EReal)) d := by
  unfold RefTerm.muVec
  rw [hostDivf_apply, sum01_apply, broadcastInDim_scalar_apply, constant_apply]
  unfold mu S1
  rfl

/-- The squared deviation at `(p, j, d)`. -/
theorem devSq_apply (x : FVec Ideal S40000x100x64 .f32) (p : Fin 40000) (j : Fin 100) (d : Fin 64) :
    (RefTerm.devSq (F := Ideal) x (ix3 p j d) : EReal)
      = ((x (ix3 p j d) : EReal) - mu (cur3 (x : S40000x100x64.Idx → EReal)) d)
          * ((x (ix3 p j d) : EReal) - mu (cur3 (x : S40000x100x64.Idx → EReal)) d) := by
  unfold RefTerm.devSq
  rw [mulf_apply, subf_apply, full_of_unit_apply, hostDivf_apply, unit_of_vec_apply, sum01_apply,
    broadcastInDim_scalar_apply, constant_apply]
  unfold mu S1
  rfl

/-- The per-channel variance: the comparison of constants selects the mean of the squared deviations. -/
theorem varVec_apply (x : FVec Ideal S40000x100x64 .f32) (d : Fin 64) :
    (RefTerm.varVec (F := Ideal) x (ix1 d) : EReal) = varR (cur3 (x : S40000x100x64.Idx → EReal)) d := by
  unfold RefTerm.varVec
  rw [select_apply, broadcastInDim_scalar_apply, cmpf_apply, varDen_apply, constant_apply]
  show Scalar.select (Ideal.cmp .ogt cN c000) _ _ = _
  rw [cmp_cN, select_one, hostDivf_apply, sum01_apply, broadcastInDim_scalar_apply, varDen_apply]
  unfold varR
  refine congrArg (fun s : EReal => Ideal.div s cN) ?_
  exact Finset.sum_congr rfl fun p _ => Finset.sum_congr rfl fun j _ => devSq_apply x p j d

/-! ## The output -/

/-- The host's reciprocal square root at an index. -/
theorem hostRsqrt_apply {s : Shape} {φ : FTy} (v : FVec Ideal s φ) (i : s.Idx) :
    (Host.rsqrt v i : EReal) = Ideal.rsqrt (v i) := rfl

/-- One normalised, scaled, shifted and rectified value of the reference. -/
theorem body_apply (x : FVec Ideal S40000x100x64 .f32) (a7 a8 : FVec Ideal S64 .f32) (p : Fin 40000) (j : Fin 100) (d : Fin 64) :
    (maximumf
      (addf
        (mulf
          (mulf (subf x (RefTerm.chan3 (RefTerm.muVec (F := Ideal) x)))
            (RefTerm.chan3 (Host.rsqrt (addf (RefTerm.varVec (F := Ideal) x)
              (broadcastInDim S64 ![] bcast_S_S64 (constant (F := Ideal) S_ .f32 0x3727C5AC#32))))))
          (RefTerm.chan3 a7))
        (RefTerm.chan3 a8))
      (broadcastInDim S40000x100x64 ![] bcast_S_S40000x100x64 (constant (F := Ideal) S_ .f32 0x00000000#32)) (ix3 p j d) : EReal)
      = act (x (ix3 p j d)) (mu (cur3 (x : S40000x100x64.Idx → EReal)) d) (varR (cur3 (x : S40000x100x64.Idx → EReal)) d)
          (a7 (ix1 d)) (a8 (ix1 d)) := by
  rw [maximumf_apply, addf_apply, mulf_apply, mulf_apply, subf_apply, chan3_apply, chan3_apply, chan3_apply, chan3_apply,
    hostRsqrt_apply, addf_apply, muVec_apply, varVec_apply, broadcastInDim_scalar_apply, broadcastInDim_scalar_apply,
    constant_apply, constant_apply]
  rfl

/-- The reference's result at row `p`, channel `d`. -/
theorem outArr_apply (x : FVec Ideal S40000x100x64 .f32) (a7 a8 : FVec Ideal S64 .f32) (p : Fin 40000) (d : Fin 64) :
    (RefTerm.outArr (F := Ideal) x a7 a8 (ix2 p d) : EReal)
      = outWith (cur3 (x : S40000x100x64.Idx → EReal)) (mu (cur3 (x : S40000x100x64.Idx → EReal)))
          (varR (cur3 (x : S40000x100x64.Idx → EReal))) (cur1 (a7 : S64.Idx → EReal)) (cur1 (a8 : S64.Idx → EReal)) p d := by
  have h : S40000x100x64.Reduces [1] S40000x64 := by decide
  unfold RefTerm.outArr
  rw [Host.reduce_eq_fold_single (FloatOps.maximumf (F := Ideal) (φ := .f32)) _ _ reducesTo_S40000x100x64_S40000x64_d1 h h_S_ (ix2 p d)]
  unfold outWith
  refine Finset.fold_congr fun k _ => ?_
  rw [Function.comp_apply, lift1_ix2 h p d k]
  exact body_apply x a7 a8 p k d

end Out

/-- The reference's result from any array of layer values, index by index. -/
theorem outArr_eq (x : FVec Ideal S40000x100x64 .f32) (a7 a8 : FVec Ideal S64 .f32) :
    (RefTerm.outArr (F := Ideal) x a7 a8 : S40000x64.Idx → EReal)
      = fun i => outWith (cur3 (x : S40000x100x64.Idx → EReal)) (mu (cur3 (x : S40000x100x64.Idx → EReal)))
          (varR (cur3 (x : S40000x100x64.Idx → EReal))) (cur1 (a7 : S64.Idx → EReal)) (cur1 (a8 : S64.Idx → EReal)) (i 0) (i 1) := by
  funext i
  exact (congrArg _ (eq_ix2 i)).trans (Out.outArr_apply x a7 a8 (i 0) (i 1))

end Cert.ReferenceIdeal.RefRead

end
-- ==== Proof.RefRead.lean ====
/-
  The reference's result term read at an index, over the extended reals.
-/
import proofs.«173197_j214748364885_1_alg».proof.Proof.RefReadX
import proofs.«173197_j214748364885_1_alg».proof.Proof.RefReadOut

noncomputable section

namespace Cert.ReferenceIdeal.RefRead

open Idealize.ShloMosaic Idealize.ShloMosaic.ValueIdx
open Cert.ReferenceIdeal Cert.ReferenceIdeal.Facts₀ Cert.ReferenceIdeal.Facts Cert.Pillar

variable [Facts]

/-- The reference's result, index by index: the statistics and the output of its own layer values. -/
theorem refOut_eq (a0 a1 a2 a3 : FVec Ideal S40000x100 .f32) (a4 : IVec S40000 32) (a5 : IVec S40000x4 32)
    (a6 : FVec Ideal S9x64 .f32) (a7 a8 : FVec Ideal S64 .f32) :
    (RefTerm.refOut (F := Ideal) a0 a1 a2 a3 a4 a5 a6 a7 a8 : S40000x64.Idx → EReal)
      = fun i => outWith (Xr a0 a1 a2 a3 a4 a5 a6) (mu (Xr a0 a1 a2 a3 a4 a5 a6)) (varR (Xr a0 a1 a2 a3 a4 a5 a6))
          (cur1 (a7 : S64.Idx → EReal)) (cur1 (a8 : S64.Idx → EReal)) (i 0) (i 1) := by
  have hX : cur3 (RefTerm.xArr (F := Ideal) a0 a1 a2 a3 a4 a5 a6 : S40000x100x64.Idx → EReal) = Xr a0 a1 a2 a3 a4 a5 a6 :=
    funext fun p => funext fun j => funext fun d => xArr_apply a0 a1 a2 a3 a4 a5 a6 p j d
  unfold RefTerm.refOut
  rw [outArr_eq, hX]

end Cert.ReferenceIdeal.RefRead

end
-- ==== Proof.Finite.lean ====
/-
  From the precondition to real entries: every float input whose absolute value is below +∞ everywhere is, entry by
  entry, the image of a real number.
-/
import proofs.«173197_j214748364885_1_alg».proof.Pre_finite_inputs
import Idealize.ShloMosaic.PureOps.Ideal
import Idealize.ShloMosaic.PureOps.Ideal.Laws
import Idealize.ShloMosaic.Lib.ValueIdx
import Idealize.ShloMosaic.Lib.ReduceAll

noncomputable section

namespace Cert.Finite

open Idealize.ShloMosaic Cert.Pre_finite_inputs

/-- The f32 word `0x7F800000` (sign 0, exponent all ones, fraction 0) denotes `+∞`. -/
theorem inf_word : Ideal.ofBits .f32 0x7F800000#32 = (⊤ : EReal) := by
  simp [Ideal.ofBits, Ideal.ieee]

/-- An extended real whose absolute value `max x (-x)` is strictly below `+∞` is a real: `-∞` has `-x = +∞` and
    `+∞` has `x = +∞`, so only the real case is left. -/
theorem real_of_abs_lt_top (x : EReal) (h : max x (-x) < ⊤) : ∃ r : ℝ, x = (r : EReal) := by
  induction x using EReal.rec with
  | bot => simp at h
  | top => simp at h
  | coe r => exact ⟨r, rfl⟩

/-- The rank-0 shape has exactly one index. -/
local instance : Subsingleton S_.Idx := ⟨fun a b => funext fun d => d.elim0⟩

/-- One conjunct `all (|a| < +∞)` read back: when the conjunction over all entries of the tests `|a i| < +∞` is one,
    each test is one, so each entry of `a` is a real. -/
theorem reals_of_all {s : Shape} {axes : List (Fin s.rank)} (a : FVec Ideal s .f32)
    (hb : S_.BroadcastsInDim s (![] : Fin 0 → Fin s.rank)) (hr : s.ReducesTo axes S_) (hu : 0 < S_.numel)
    (init : IVec S_ 1)
    (e : Host.reduce IntOp.andi
        (cmpf .olt (Host.absf a) (broadcastInDim s ![] hb (constant (F := Ideal) S_ .f32 0x7F800000#32))) init hr hu
          ValueIdx.ix0 = 1#1) :
    ∀ i, ∃ r : ℝ, (a i : EReal) = (r : EReal) := by
  intro i
  have h1 := Host.reduce_andi_all _ init hr hu ValueIdx.ix0 e i
  apply real_of_abs_lt_top
  simp only [cmpf, Host.absf, broadcastInDim, constant, Ideal.hostAbsf_def, Ideal.cmpf_def, Ideal.absf_def,
    Ideal.ofBits_def] at h1
  rw [inf_word] at h1
  have h2 : BitVec.ofBool (decide (max (a i) (-a i) < (⊤ : EReal))) = 1#1 := h1
  by_contra hn
  rw [decide_eq_false hn] at h2
  exact absurd h2 (by decide)

/-- If the precondition's predicate is all ones at the ideal values, the seven float arguments have real entries. -/
theorem reals_of_fn [Cert.Pre_finite_inputs.Facts]
    (a0 a1 a2 a3 : FVec Ideal S40000x100 .f32) (a4 : IVec S40000 32) (a5 : IVec S40000x4 32)
    (a6 : FVec Ideal S9x64 .f32) (a7 a8 : FVec Ideal S64 .f32)
    (h : Cert.Pre_finite_inputs.fn (F := Ideal) a0 a1 a2 a3 a4 a5 a6 a7 a8 = (fun _ => 1#1)) :
    (∀ i, ∃ r : ℝ, (a0 i : EReal) = (r : EReal)) ∧ (∀ i, ∃ r : ℝ, (a1 i : EReal) = (r : EReal))
    ∧ (∀ i, ∃ r : ℝ, (a2 i : EReal) = (r : EReal)) ∧ (∀ i, ∃ r : ℝ, (a3 i : EReal) = (r : EReal))
    ∧ (∀ i, ∃ r : ℝ, (a6 i : EReal) = (r : EReal)) ∧ (∀ i, ∃ r : ℝ, (a7 i : EReal) = (r : EReal))
    ∧ (∀ i, ∃ r : ℝ, (a8 i : EReal) = (r : EReal)) := by
  -- the predicate at its one index is a conjunction nested to the left, ((((((t0 ∧ t1) ∧ t2) ∧ t3) ∧ t6) ∧ t7) ∧ t8)
  have h0 := congrFun h ValueIdx.ix0
  dsimp only [Cert.Pre_finite_inputs.fn, Cert.Pre_finite_inputs.fn_part1, andi] at h0
  obtain ⟨h0, e8⟩ := IntOp.andi_eq_one.1 h0
  obtain ⟨h0, e7⟩ := IntOp.andi_eq_one.1 h0
  obtain ⟨h0, e6⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨reals_of_all a0 _ _ _ _ e0, reals_of_all a1 _ _ _ _ e1, reals_of_all a2 _ _ _ _ e2,
    reals_of_all a3 _ _ _ _ e3, reals_of_all a6 _ _ _ _ e6, reals_of_all a7 _ _ _ _ e7, reals_of_all a8 _ _ _ _ e8⟩

end Cert.Finite

end
-- ==== Proof.lean ====
/-
  The certificate: a pillar feature layer (nine masked point features against a 9×64 weight), batch-normalised with the
  statistics of all 40000 × 100 points, rectified, and reduced to each pillar's maximum over its points — computed by two
  kernels over blocks of 400 pillars (one accumulating the per-channel sum and sum of squares over the grid, one
  normalising with the mean `S1 / N` and the variance `S2 / N − mean²` the host computes between them), against the
  reference that computes the mean and the variance as the mean of the squared deviations over the whole arrays.

  Over the extended reals both results are, at pillar `p` and channel `d`, the maximum over the points `j` of
  `max(((X p j d − μ d) · rsqrt(v d + ε)) · γ d + β d, 0)` for one and the same layer value `X` and mean `μ`; the two
  variances agree because on finite inputs every `X p j d` is a real number, and for real data the mean of the squared
  deviations is the mean of the squares less the squared mean. The sums over blocks and within blocks are sums over all
  pillars, in any order.

  The kernel program's run with its result named is the launch over the two regions; each region's result array is read
  off its proof data (the accumulated totals after the last grid point; the blocks the output kernel writes, which tile
  the array). The reference's run is its straight line of host operations, read back index by index.
-/
import proofs.«173197_j214748364885_1_alg».proof.Defs
import proofs.«173197_j214748364885_1_alg».proof.Proof.Gen.Kernel
import proofs.«173197_j214748364885_1_alg».proof.Proof.Gen.Kernel.Skeleton
import proofs.«173197_j214748364885_1_alg».proof.Proof.Gen.Kernel.Launch
import proofs.«173197_j214748364885_1_alg».proof.Proof.Gen.Kernel.Points
import proofs.«173197_j214748364885_1_alg».proof.Proof.Gen.Kernel.Frame
import proofs.«173197_j214748364885_1_alg».proof.Proof.Gen.KernelIdeal
import proofs.«173197_j214748364885_1_alg».proof.Proof.Gen.KernelIdeal.Skeleton
import proofs.«173197_j214748364885_1_alg».proof.Proof.Gen.KernelIdeal.Launch
import proofs.«173197_j214748364885_1_alg».proof.Proof.Gen.KernelIdeal.Points
import proofs.«173197_j214748364885_1_alg».proof.Proof.Gen.KernelIdeal.Frame
import proofs.«173197_j214748364885_1_alg».proof.Proof.Gen.ReferenceIdeal
import proofs.«173197_j214748364885_1_alg».proof.Proof.Gen.Pre_finite_inputs
import proofs.«173197_j214748364885_1_alg».proof.Proof.KernelRun
import proofs.«173197_j214748364885_1_alg».proof.Proof.KValue
import proofs.«173197_j214748364885_1_alg».proof.Proof.RefRun
import proofs.«173197_j214748364885_1_alg».proof.Proof.RefRead
import proofs.«173197_j214748364885_1_alg».proof.Proof.Algebra
import proofs.«173197_j214748364885_1_alg».proof.Proof.Finite
import Idealize.ShloMosaic.Adequacy
import Idealize.ShloMosaic.Init

noncomputable section

namespace Cert.Proof

open Idealize.ShloMosaic Idealize.ShloMosaic.TcCoe Idealize.ShloMosaic.ValueIdx Idealize.SL.Sem Cert.Pillar

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- The ideal pass rewrote nothing. -/
theorem preserves : Cert.preserves_Kernel_KernelIdeal := trivial

/-- On finite inputs the two variances agree: the layer's values are real. -/
theorem varR_eq (m : (ℓ : Loc Cert.KernelIdeal.nD Cert.KernelIdeal.τ Cert.KernelIdeal.sig) → Buf (Elt Ideal) ℓ)
    (hpre : Cert.Pre_KernelIdeal m) (c : Dev Cert.KernelIdeal.nD) :
    varR (Cert.KernelIdeal.KVal.Xm m c) = var (Cert.KernelIdeal.KVal.Xm m c) := by
  obtain ⟨h0, h1, h2, h3, h6, -, -⟩ := Cert.Finite.reals_of_fn _ _ _ _ _ _ _ _ _ (hpre c)
  funext d
  exact varR_eq_var _ (fun p j d => X_real _ _ _ _ _ _ _ (fun p j => h0 (ix2 p j)) (fun p j => h1 (ix2 p j))
    (fun p j => h2 (ix2 p j)) (fun p j => h3 (ix2 p j)) (fun k d => h6 (ix2 k d)) p j d) d

set_option maxHeartbeats 4000000 in
/-- Both programs end at one function of the argument arrays: the kernel program by its two regions' result arrays, the
    reference by its operations read at an index, the two variances equal on finite inputs. -/
theorem algebraic : Cert.algebraic_KernelIdeal_ReferenceIdeal := by
  intro m ρ m' ρ' hpre hagree
  refine ⟨fun c => Cert.KernelIdeal.KVal.result m c, ?_, ?_⟩
  · exact (θ_run Cert.KernelIdeal.defs _ _).mono
      (fun _ h c => ⟨(h c).1.trans (Cert.KernelIdeal.KVal.value m ρ c), (h c).2⟩)
      (Cert.KernelIdeal.Gen.ValueRun.run (F := Ideal) m ρ)
  · refine (θ_run Cert.ReferenceIdeal.defs _ _).mono (fun _ h c => ⟨(h c).1.trans ?_, (h c).2⟩)
      (Cert.ReferenceIdeal.RefRun.run (F := Ideal) m' ρ')
    obtain ⟨e0, e1, e2, e3, e4, e5, e6, e7, e8⟩ := hagree c
    rw [Cert.ReferenceIdeal.RefRead.refOut_eq, e0, e1, e2, e3, e4, e5, e6, e7, e8]
    have hv := varR_eq m hpre c
    unfold Cert.KernelIdeal.KVal.Xm at hv
    unfold Cert.ReferenceIdeal.RefRead.Xr Cert.KernelIdeal.KVal.result Cert.KernelIdeal.KVal.Xm
    rw [hv]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
